-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4x1024x2048 : Shape := ⟨4, ![1, 4, 1024, 2048]⟩
abbrev S1x1024x2048 : Shape := ⟨3, ![1, 1024, 2048]⟩
abbrev S_ : Shape := ⟨0, ![]⟩

class Facts : Prop where
  bcast_S_S1x4x1024x2048 : S_.BroadcastsInDim S1x4x1024x2048 (![] : Fin 0 → Fin S1x4x1024x2048.rank)
  reducesTo_S1x4x1024x2048_S_d0_1_2_3 : S1x4x1024x2048.ReducesTo [0, 1, 2, 3] S_
  h_S_ : 0 < S_.numel
  reducesTo_S_S_d : S_.ReducesTo [] S_

variable [Facts]

def fn {F : FTy → Type} [FloatOps F] (main_arg0 : FVec F S1x4x1024x2048 .f32) (main_arg1 : IVec S1x1024x2048 32) (main_arg2 : FVec F S_ .f32) (main_arg3 : FVec F S_ .f32) : IVec S_ 1 :=
  let main_v0 : FVec F S1x4x1024x2048 .f32 := Host.absf main_arg0
  let main_cst : FVec F S_ .f32 := constant S_ .f32 0x7F800000#32
  let main_v1 : FVec F S1x4x1024x2048 .f32 := broadcastInDim S1x4x1024x2048 ![] bcast_S_S1x4x1024x2048 main_cst
  let main_v2 : IVec S1x4x1024x2048 1 := cmpf .olt main_v0 main_v1
  let main_c : IVec S_ 1 := constantI S_ 1 1#1
  let main_v3 : IVec S_ 1 := (fun x v => Host.reduce IntOp.andi x v reducesTo_S1x4x1024x2048_S_d0_1_2_3 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg3
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S1x4x1024x2048 : Shape := ⟨4, ![1, 4, 1024, 2048]⟩
abbrev S1x1024x2048 : Shape := ⟨3, ![1, 1024, 2048]⟩
abbrev S_ : Shape := ⟨0, ![]⟩
abbrev S4x2097152 : Shape := ⟨2, ![4, 2097152]⟩
abbrev S1x2097152 : Shape := ⟨2, ![1, 2097152]⟩
abbrev S2x5x1 : Shape := ⟨3, ![2, 5, 1]⟩
abbrev S2x5x4 : Shape := ⟨3, ![2, 5, 4]⟩
abbrev S4x131072 : Shape := ⟨2, ![4, 131072]⟩
abbrev S1x131072 : Shape := ⟨2, ![1, 131072]⟩
abbrev S1x5x1 : Shape := ⟨3, ![1, 5, 1]⟩
abbrev S1x5x4 : Shape := ⟨3, ![1, 5, 4]⟩
abbrev S5x1 : Shape := ⟨2, ![5, 1]⟩
abbrev S5x4 : Shape := ⟨2, ![5, 4]⟩
abbrev S5x131072 : Shape := ⟨2, ![5, 131072]⟩
abbrev S5 : Shape := ⟨1, ![5]⟩
abbrev S5x5 : Shape := ⟨2, ![5, 5]⟩
abbrev S1x1 : Shape := ⟨2, ![1, 1]⟩
abbrev S2x1x1 : Shape := ⟨3, ![2, 1, 1]⟩
abbrev S1x1x1 : Shape := ⟨3, ![1, 1, 1]⟩
abbrev S1x5 : Shape := ⟨2, ![1, 5]⟩
abbrev S131072 : Shape := ⟨1, ![131072]⟩
abbrev S1 : Shape := ⟨1, ![1]⟩
abbrev S5x1x4 : Shape := ⟨3, ![5, 1, 4]⟩
abbrev S5x5x4 : Shape := ⟨3, ![5, 5, 4]⟩

abbrev nBuf : Space → Nat
  | .hbm => 66
  | .vmem => 16
  | .smem => 0
  | _ => 0

abbrev bufTy : (tb : Table) → Fin (tcTables nBuf tb) → BufTy
  | .hbm, ⟨0, _⟩ => ⟨S1x4x1024x2048, .f32⟩
  | .hbm, ⟨1, _⟩ => ⟨S1x1024x2048, .i32⟩
  | .hbm, ⟨2, _⟩ => ⟨S_, .f32⟩
  | .hbm, ⟨3, _⟩ => ⟨S_, .f32⟩
  | .hbm, ⟨4, _⟩ => ⟨S4x2097152, .f32⟩
  | .hbm, ⟨5, _⟩ => ⟨S1x2097152, .i32⟩
  | .hbm, ⟨6, _⟩ => ⟨S2x5x1, .f32⟩
  | .hbm, ⟨7, _⟩ => ⟨S2x5x4, .f32⟩
  | .hbm, ⟨8, _⟩ => ⟨S_, .f32⟩
  | .hbm, ⟨9, _⟩ => ⟨S5x1, .f32⟩
  | .hbm, ⟨10, _⟩ => ⟨S_, .f32⟩
  | .hbm, ⟨11, _⟩ => ⟨S5x4, .f32⟩
  | .hbm, ⟨12, _⟩ => ⟨S_, .f32⟩
  | .hbm, ⟨13, _⟩ => ⟨S5x1, .f32⟩
  | .hbm, ⟨14, _⟩ => ⟨S5x1, .f32⟩
  | .hbm, ⟨15, _⟩ => ⟨S_, .f32⟩
  | .hbm, ⟨16, _⟩ => ⟨S5x1, .f32⟩
  | .hbm, ⟨17, _⟩ => ⟨S5x1, .f32⟩
  | .hbm, ⟨18, _⟩ => ⟨S_, .f32⟩
  | .hbm, ⟨19, _⟩ => ⟨S5x1, .f32⟩
  | .hbm, ⟨20, _⟩ => ⟨S5x1, .f32⟩
  | .hbm, ⟨21, _⟩ => ⟨S5x4, .f32⟩
  | .hbm, ⟨22, _⟩ => ⟨S5x4, .f32⟩
  | .hbm, ⟨23, _⟩ => ⟨S5x5, .f32⟩
  | .hbm, ⟨24, _⟩ => ⟨S1x1, .f32⟩
  | .hbm, ⟨25, _⟩ => ⟨S2x1x1, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S5x1x4, .f32⟩
  | .hbm, ⟨33, _⟩ => ⟨S1x5x4, .f32⟩
  | .hbm, ⟨34, _⟩ => ⟨S5x5x4, .f32⟩
  | .hbm, ⟨35, _⟩ => ⟨S5x5x4, .f32⟩
  | .hbm, ⟨36, _⟩ => ⟨S5x5x4, .f32⟩
  | .hbm, ⟨37, _⟩ => ⟨S5x5x4, .f32⟩
  | .hbm, ⟨38, _⟩ => ⟨S_, .f32⟩
  | .hbm, ⟨39, _⟩ => ⟨S5x5, .f32⟩
  | .hbm, ⟨40, _⟩ => ⟨S_, .f32⟩
  | .hbm, ⟨41, _⟩ => ⟨S5x5, .f32⟩
  | .hbm, ⟨42, _⟩ => ⟨S5x5, .f32⟩
  | .hbm, ⟨43, _⟩ => ⟨S5x5, .f32⟩
  | .hbm, ⟨44, _⟩ => ⟨S5x5, .i32⟩
  | .hbm, ⟨45, _⟩ => ⟨S5x5, .i32⟩
  | .hbm, ⟨46, _⟩ => ⟨S_, .i32⟩
  | .hbm, ⟨47, _⟩ => ⟨S5x5, .i32⟩
  | .hbm, ⟨48, _⟩ => ⟨S5x5, .i32⟩
  | .hbm, ⟨49, _⟩ => ⟨S5x5, .i1⟩
  | .hbm, ⟨50, _⟩ => ⟨S5x5, .f32⟩
  | .hbm, ⟨51, _⟩ => ⟨S_, .f32⟩
  | .hbm, ⟨52, _⟩ => ⟨S5x5, .f32⟩
  | .hbm, ⟨53, _⟩ => ⟨S5x5, .f32⟩
  | .hbm, ⟨54, _⟩ => ⟨S5x5, .f32⟩
  | .hbm, ⟨55, _⟩ => ⟨S5x5, .f32⟩
  | .hbm, ⟨56, _⟩ => ⟨S_, .f32⟩
  | .hbm, ⟨57, _⟩ => ⟨S5x5, .f32⟩
  | .hbm, ⟨58, _⟩ => ⟨S5x5, .f32⟩
  | .hbm, ⟨59, _⟩ => ⟨S5x5, .f32⟩
  | .hbm, ⟨60, _⟩ => ⟨S5x5, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S4x131072, .f32⟩
  | .local _ .vmem, ⟨1, _⟩ => ⟨S4x131072, .f32⟩
  | .local _ .vmem, ⟨2, _⟩ => ⟨S1x131072, .i32⟩
  | .local _ .vmem, ⟨3, _⟩ => ⟨S1x131072, .i32⟩
  | .local _ .vmem, ⟨4, _⟩ => ⟨S1x5x1, .f32⟩
  | .local _ .vmem, ⟨5, _⟩ => ⟨S1x5x1, .f32⟩
  | .local _ .vmem, ⟨6, _⟩ => ⟨S1x5x4, .f32⟩
  | .local _ .vmem, ⟨7, _⟩ => ⟨S1x5x4, .f32⟩
  | .local _ .vmem, ⟨8, _⟩ => ⟨S4x131072, .f32⟩
  | .local _ .vmem, ⟨9, _⟩ => ⟨S4x131072, .f32⟩
  | .local _ .vmem, ⟨10, _⟩ => ⟨S1x131072, .i32⟩
  | .local _ .vmem, ⟨11, _⟩ => ⟨S1x131072, .i32⟩
  | .local _ .vmem, ⟨12, _⟩ => ⟨S5x5, .f32⟩
  | .local _ .vmem, ⟨13, _⟩ => ⟨S1x1, .f32⟩
  | .local _ .vmem, ⟨14, _⟩ => ⟨S1x1x1, .f32⟩
  | .local _ .vmem, ⟨15, _⟩ => ⟨S1x1x1, .f32⟩
  | _, _ => ⟨S1x4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x131072 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S5x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x4x1024x2048_S4x2097152 : S1x4x1024x2048.ShapeCasts S4x2097152
  shapeCasts_S1x1024x2048_S1x2097152 : S1x1024x2048.ShapeCasts S1x2097152
  inb_S1x5x1_S1x5x1_0_0_0 : ∀ a, (![0, 0, 0] : Fin 3 → Nat) a + S1x5x1.size a ≤ S1x5x1.size a
  h_S1x5x1 : 0 < S1x5x1.numel
  shapeCasts_S1x5x1_S5x1 : S1x5x1.ShapeCasts S5x1
  shapeCasts_S5x1_S1x5x1 : S5x1.ShapeCasts S1x5x1
  inb_S1x5x4_S1x5x4_0_0_0 : ∀ a, (![0, 0, 0] : Fin 3 → Nat) a + S1x5x4.size a ≤ S1x5x4.size a
  h_S1x5x4 : 0 < S1x5x4.numel
  shapeCasts_S1x5x4_S5x4 : S1x5x4.ShapeCasts S5x4
  shapeCasts_S5x4_S1x5x4 : S5x4.ShapeCasts S1x5x4
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  inb_S4x131072_S4x131072_0_0 : ∀ a, (![0, 0] : Fin 2 → Nat) a + S4x131072.size a ≤ S4x131072.size a
  h_S4x131072 : 0 < S4x131072.numel
  shapeCasts_S4x131072_S4x131072 : S4x131072.ShapeCasts S4x131072
  iota_S5x131072_d0_w32 : S5x131072.Iotas .tc 32 [0]
  broadcasts_S1x131072_S5x131072 : S1x131072.Broadcasts S5x131072
  natLt_1_32 : 1 < 32
  reduces_S5x131072_S5 : S5x131072.Reduces [1] S5
  shapeCasts_S5_S5x1 : S5.ShapeCasts S5x1
  bitsLt_bf16_f32 : FTy.bits .bf16 < FTy.bits .f32
  reducesTo_S2x5x1_S5x1_d0 : S2x5x1.ReducesTo [0] S5x1
  h_S_ : 0 < S_.numel
  reducesTo_S2x5x4_S5x4_d0 : S2x5x4.ReducesTo [0] S5x4
  bcast_S_S5x1 : S_.BroadcastsInDim S5x1 (![] : Fin 0 → Fin S5x1.rank)
  bcast_S5x1_S5x4_0_1 : S5x1.BroadcastsInDim S5x4 (![0, 1] : Fin 2 → Fin S5x4.rank)
  concatenates_S5x4_S5x1_S5x5_d1 : Shape.Concatenates [S5x4, S5x1] S5x5 1
  shapeCasts_S_S1x1 : S_.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S5x5_S5x5_0_0 : ∀ a, (![0, 0] : Fin 2 → Nat) a + S5x5.size a ≤ S5x5.size a
  h_S5x5 : 0 < S5x5.numel
  shapeCasts_S5x5_S5x5 : S5x5.ShapeCasts S5x5
  slices_S5x5_o0_0_S1x5 : S5x5.Slices ![0, 0] S1x5
  shapeCasts_S1x5_S5 : S1x5.ShapeCasts S5
  slices_S5x131072_o0_0_S1x131072 : S5x131072.Slices ![0, 0] S1x131072
  broadcasts_S5x1_S5x131072 : S5x1.Broadcasts S5x131072
  slices_S5x5_o1_0_S1x5 : S5x5.Slices ![1, 0] S1x5
  slices_S5x131072_o1_0_S1x131072 : S5x131072.Slices ![1, 0] S1x131072
  slices_S5x5_o2_0_S1x5 : S5x5.Slices ![2, 0] S1x5
  slices_S5x131072_o2_0_S1x131072 : S5x131072.Slices ![2, 0] S1x131072
  slices_S5x5_o3_0_S1x5 : S5x5.Slices ![3, 0] S1x5
  slices_S5x131072_o3_0_S1x131072 : S5x131072.Slices ![3, 0] S1x131072
  slices_S5x5_o4_0_S1x5 : S5x5.Slices ![4, 0] S1x5
  slices_S5x131072_o4_0_S1x131072 : S5x131072.Slices ![4, 0] S1x131072
  slices_S5x131072_o0_0_S4x131072 : S5x131072.Slices ![0, 0] S4x131072
  reduces_S4x131072_S131072 : S4x131072.Reduces [0] S131072
  shapeCasts_S131072_S1x131072 : S131072.ShapeCasts S1x131072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x131072 : S1x1.Broadcasts S1x131072
  reduces_S1x131072_S1 : S1x131072.Reduces [1] S1
  shapeCasts_S1_S1x1 : S1.ShapeCasts S1x1
  reducesTo_S2x1x1_S1x1_d0 : S2x1x1.ReducesTo [0] S1x1
  reducesTo_S1x1_S_d0_1 : S1x1.ReducesTo [0, 1] S_
  bcast_S5x4_S5x1x4_0_2 : S5x4.BroadcastsInDim S5x1x4 (![0, 2] : Fin 2 → Fin S5x1x4.rank)
  bcast_S5x4_S1x5x4_1_2 : S5x4.BroadcastsInDim S1x5x4 (![1, 2] : Fin 2 → Fin S1x5x4.rank)
  bcast_S5x1x4_S5x5x4_0_1_2 : S5x1x4.BroadcastsInDim S5x5x4 (![0, 1, 2] : Fin 3 → Fin S5x5x4.rank)
  bcast_S1x5x4_S5x5x4_0_1_2 : S1x5x4.BroadcastsInDim S5x5x4 (![0, 1, 2] : Fin 3 → Fin S5x5x4.rank)
  reducesTo_S5x5x4_S5x5_d2 : S5x5x4.ReducesTo [2] S5x5
  bcast_S_S5x5 : S_.BroadcastsInDim S5x5 (![] : Fin 0 → Fin S5x5.rank)
  reducesTo_S5x5_S_d0_1 : S5x5.ReducesTo [0, 1] S_
  dot_S5x131072_S4x131072_S5x4_1_1_0_0_n_n_wf : DotDims.WF S5x131072 S4x131072 S5x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x131072.size a ≤ S4x2097152.size a
  hwx0_0 : ∀ i : grid0.Coords, EltTy.bits .f32 = 32 ∨ (Rect.block (s := S4x2097152) S4x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072.size a ≤ S1x2097152.size a
  hwx0_1 : ∀ i : grid0.Coords, EltTy.bits .i32 = 32 ∨ (Rect.block (s := S1x2097152) S1x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x1.size a ≤ S2x5x1.size a
  hwx0_2 : ∀ i : grid0.Coords, EltTy.bits .f32 = 32 ∨ (Rect.block (s := S2x5x1) S1x5x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x4.size a ≤ S2x5x4.size a
  hwx0_3 : ∀ i : grid0.Coords, EltTy.bits .f32 = 32 ∨ (Rect.block (s := S2x5x4) S1x5x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x131072.size a ≤ S4x2097152.size a
  hwx1_0 : ∀ i : grid1.Coords, EltTy.bits .f32 = 32 ∨ (Rect.block (s := S4x2097152) S4x131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x131072.size a ≤ S1x2097152.size a
  hwx1_1 : ∀ i : grid1.Coords, EltTy.bits .i32 = 32 ∨ (Rect.block (s := S1x2097152) S1x131072.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x5.size a ≤ S5x5.size a
  hwx1_2 : ∀ i : grid1.Coords, EltTy.bits .f32 = 32 ∨ (Rect.block (s := S5x5) S5x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

def dot_S5x131072_S4x131072_S5x4_1_1_0_0_n_n : DotDims S5x131072 S4x131072 S5x4 where
  lhsContracting := [1]
  rhsContracting := [1]
  lhsNonContracting := [0]
  rhsNonContracting := [0]
  lhsBatch := []
  rhsBatch := []
  wf := dot_S5x131072_S4x131072_S5x4_1_1_0_0_n_n_wf

abbrev win0_0 : Pipeline.Window sig grid0 :=
  Pipeline.Window.ofSpec (Memref.whole main_v0) S4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x5x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x5x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S4x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x4x1024x2048 : Shape := ⟨4, ![1, 4, 1024, 2048]⟩
abbrev S1x1024x2048 : Shape := ⟨3, ![1, 1024, 2048]⟩
abbrev S_ : Shape := ⟨0, ![]⟩
abbrev S4x2097152 : Shape := ⟨2, ![4, 2097152]⟩
abbrev S2097152 : Shape := ⟨1, ![2097152]⟩
abbrev S5 : Shape := ⟨1, ![5]⟩
abbrev S2097152x1 : Shape := ⟨2, ![2097152, 1]⟩
abbrev S2097152x4 : Shape := ⟨2, ![2097152, 4]⟩
abbrev S5x4 : Shape := ⟨2, ![5, 4]⟩
abbrev S5x1 : Shape := ⟨2, ![5, 1]⟩
abbrev S5x1x4 : Shape := ⟨3, ![5, 1, 4]⟩
abbrev S1x5x4 : Shape := ⟨3, ![1, 5, 4]⟩
abbrev S5x5x4 : Shape := ⟨3, ![5, 5, 4]⟩
abbrev S5x5 : Shape := ⟨2, ![5, 5]⟩

abbrev nBuf : Space → Nat
  | .hbm => 109
  | .vmem => 0
  | .smem => 0
  | _ => 0

abbrev bufTy : (tb : Table) → Fin (tcTables nBuf tb) → BufTy
  | .hbm, ⟨0, _⟩ => ⟨S1x4x1024x2048, .f32⟩
  | .hbm, ⟨1, _⟩ => ⟨S1x1024x2048, .i32⟩
  | .hbm, ⟨2, _⟩ => ⟨S_, .f32⟩
  | .hbm, ⟨3, _⟩ => ⟨S_, .f32⟩
  | .hbm, ⟨4, _⟩ => ⟨S4x2097152, .f32⟩
  | .hbm, ⟨5, _⟩ => ⟨S2097152, .i32⟩
  | .hbm, ⟨6, _⟩ => ⟨S_, .f32⟩
  | .hbm, ⟨7, _⟩ => ⟨S2097152, .f32⟩
  | .hbm, ⟨8, _⟩ => ⟨S_, .f32⟩
  | .hbm, ⟨9, _⟩ => ⟨S5, .f32⟩
  | .hbm, ⟨10, _⟩ => ⟨S2097152x1, .i32⟩
  | .hbm, ⟨11, _⟩ => ⟨S5, .f32⟩
  | .hbm, ⟨12, _⟩ => ⟨S2097152x4, .f32⟩
  | .hbm, ⟨13, _⟩ => ⟨S_, .f32⟩
  | .hbm, ⟨14, _⟩ => ⟨S5x4, .f32⟩
  | .hbm, ⟨15, _⟩ => ⟨S2097152x1, .i32⟩
  | .hbm, ⟨16, _⟩ => ⟨S5x4, .f32⟩
  | .hbm, ⟨17, _⟩ => ⟨S_, .f32⟩
  | .hbm, ⟨18, _⟩ => ⟨S5, .f32⟩
  | .hbm, ⟨19, _⟩ => ⟨S5, .f32⟩
  | .hbm, ⟨20, _⟩ => ⟨S5x1, .f32⟩
  | .hbm, ⟨21, _⟩ => ⟨S5x4, .f32⟩
  | .hbm, ⟨22, _⟩ => ⟨S5x4, .f32⟩
  | .hbm, ⟨23, _⟩ => ⟨S_, .i32⟩
  | .hbm, ⟨24, _⟩ => ⟨S2097152, .i32⟩
  | .hbm, ⟨25, _⟩ => ⟨S2097152, .i1⟩
  | .hbm, ⟨26, _⟩ => ⟨S_, .i32⟩
  | .hbm, ⟨27, _⟩ => ⟨S2097152, .i32⟩
  | .hbm, ⟨28, _⟩ => ⟨S2097152, .i32⟩
  | .hbm, ⟨29, _⟩ => ⟨S2097152, .i32⟩
  | .hbm, ⟨30, _⟩ => ⟨S2097152x1, .i32⟩
  | .hbm, ⟨31, _⟩ => ⟨S2097152x4, .f32⟩
  | .hbm, ⟨32, _⟩ => ⟨S2097152x4, .f32⟩
  | .hbm, ⟨33, _⟩ => ⟨S2097152x4, .f32⟩
  | .hbm, ⟨34, _⟩ => ⟨S2097152x4, .f32⟩
  | .hbm, ⟨35, _⟩ => ⟨S_, .f32⟩
  | .hbm, ⟨36, _⟩ => ⟨S2097152, .f32⟩
  | .hbm, ⟨37, _⟩ => ⟨S_, .f32⟩
  | .hbm, ⟨38, _⟩ => ⟨S2097152, .f32⟩
  | .hbm, ⟨39, _⟩ => ⟨S2097152, .i1⟩
  | .hbm, ⟨40, _⟩ => ⟨S_, .f32⟩
  | .hbm, ⟨41, _⟩ => ⟨S_, .f32⟩
  | .hbm, ⟨42, _⟩ => ⟨S2097152, .f32⟩
  | .hbm, ⟨43, _⟩ => ⟨S2097152, .f32⟩
  | .hbm, ⟨44, _⟩ => ⟨S2097152, .f32⟩
  | .hbm, ⟨45, _⟩ => ⟨S_, .f32⟩
  | .hbm, ⟨46, _⟩ => ⟨S_, .f32⟩
  | .hbm, ⟨47, _⟩ => ⟨S2097152, .f32⟩
  | .hbm, ⟨48, _⟩ => ⟨S2097152, .f32⟩
  | .hbm, ⟨49, _⟩ => ⟨S2097152, .f32⟩
  | .hbm, ⟨50, _⟩ => ⟨S2097152, .f32⟩
  | .hbm, ⟨51, _⟩ => ⟨S_, .f32⟩
  | .hbm, ⟨52, _⟩ => ⟨S2097152, .f32⟩
  | .hbm, ⟨53, _⟩ => ⟨S2097152, .f32⟩
  | .hbm, ⟨54, _⟩ => ⟨S2097152, .f32⟩
  | .hbm, ⟨55, _⟩ => ⟨S_, .f32⟩
  | .hbm, ⟨56, _⟩ => ⟨S5, .f32⟩
  | .hbm, ⟨57, _⟩ => ⟨S2097152x1, .i32⟩
  | .hbm, ⟨58, _⟩ => ⟨S5, .f32⟩
  | .hbm, ⟨59, _⟩ => ⟨S_, .f32⟩
  | .hbm, ⟨60, _⟩ => ⟨S5, .f32⟩
  | .hbm, ⟨61, _⟩ => ⟨S5, .f32⟩
  | .hbm, ⟨62, _⟩ => ⟨S5, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S5x1x4, .f32⟩
  | .hbm, ⟨68, _⟩ => ⟨S1x5x4, .f32⟩
  | .hbm, ⟨69, _⟩ => ⟨S5x5x4, .f32⟩
  | .hbm, ⟨70, _⟩ => ⟨S5x5x4, .f32⟩
  | .hbm, ⟨71, _⟩ => ⟨S5x5x4, .f32⟩
  | .hbm, ⟨72, _⟩ => ⟨S5x5x4, .f32⟩
  | .hbm, ⟨73, _⟩ => ⟨S_, .f32⟩
  | .hbm, ⟨74, _⟩ => ⟨S5x5, .f32⟩
  | .hbm, ⟨75, _⟩ => ⟨S_, .f32⟩
  | .hbm, ⟨76, _⟩ => ⟨S5x5, .f32⟩
  | .hbm, ⟨77, _⟩ => ⟨S5x5, .i1⟩
  | .hbm, ⟨78, _⟩ => ⟨S_, .f32⟩
  | .hbm, ⟨79, _⟩ => ⟨S_, .f32⟩
  | .hbm, ⟨80, _⟩ => ⟨S5x5, .f32⟩
  | .hbm, ⟨81, _⟩ => ⟨S5x5, .f32⟩
  | .hbm, ⟨82, _⟩ => ⟨S5x5, .f32⟩
  | .hbm, ⟨83, _⟩ => ⟨S_, .f32⟩
  | .hbm, ⟨84, _⟩ => ⟨S_, .f32⟩
  | .hbm, ⟨85, _⟩ => ⟨S5x5, .f32⟩
  | .hbm, ⟨86, _⟩ => ⟨S5x5, .f32⟩
  | .hbm, ⟨87, _⟩ => ⟨S5x5, .i32⟩
  | .hbm, ⟨88, _⟩ => ⟨S5x5, .i32⟩
  | .hbm, ⟨89, _⟩ => ⟨S_, .i32⟩
  | .hbm, ⟨90, _⟩ => ⟨S5x5, .i32⟩
  | .hbm, ⟨91, _⟩ => ⟨S5x5, .i32⟩
  | .hbm, ⟨92, _⟩ => ⟨S5x5, .i1⟩
  | .hbm, ⟨93, _⟩ => ⟨S5x5, .f32⟩
  | .hbm, ⟨94, _⟩ => ⟨S_, .f32⟩
  | .hbm, ⟨95, _⟩ => ⟨S5x5, .f32⟩
  | .hbm, ⟨96, _⟩ => ⟨S5x5, .f32⟩
  | .hbm, ⟨97, _⟩ => ⟨S5x5, .f32⟩
  | .hbm, ⟨98, _⟩ => ⟨S5x5, .f32⟩
  | .hbm, ⟨99, _⟩ => ⟨S_, .f32⟩
  | .hbm, ⟨100, _⟩ => ⟨S5x5, .f32⟩
  | .hbm, ⟨101, _⟩ => ⟨S5x5, .f32⟩
  | .hbm, ⟨102, _⟩ => ⟨S5x5, .f32⟩
  | .hbm, ⟨103, _⟩ => ⟨S5x5, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S1x4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_call2_v0 : Ref sig .tc := ⟨.hbm, 79, rfl⟩
abbrev main_call2_v1 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_call3_v0 : Ref sig .tc := ⟨.hbm, 84, rfl⟩
abbrev main_call3_v1 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_17 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_19 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_20 : Ref sig .tc := ⟨.hbm, 104, rfl⟩
abbrev main_v70 : Ref sig .tc := ⟨.hbm, 105, rfl⟩
abbrev main_cst_21 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]

class Facts₀ : Prop where
  shapeCasts_S1x4x1024x2048_S4x2097152 : S1x4x1024x2048.ShapeCasts S4x2097152
  shapeCasts_S1x1024x2048_S2097152 : S1x1024x2048.ShapeCasts S2097152
  bcast_S_S2097152 : S_.BroadcastsInDim S2097152 (![] : Fin 0 → Fin S2097152.rank)
  bcast_S_S5 : S_.BroadcastsInDim S5 (![] : Fin 0 → Fin S5.rank)
  bcast_S2097152_S2097152x1_0 : S2097152.BroadcastsInDim S2097152x1 (![0] : Fin 1 → Fin S2097152x1.rank)
  transposes_S4x2097152_S2097152x4_1_0 : S4x2097152.Transposes [1, 0] S2097152x4
  bcast_S_S5x4 : S_.BroadcastsInDim S5x4 (![] : Fin 0 → Fin S5x4.rank)
  bcast_S5_S5x1_0 : S5.BroadcastsInDim S5x1 (![0] : Fin 1 → Fin S5x1.rank)
  bcast_S5x1_S5x4_0_1 : S5x1.BroadcastsInDim S5x4 (![0, 1] : Fin 2 → Fin S5x4.rank)
  reducesTo_S2097152x4_S2097152_d1 : S2097152x4.ReducesTo [1] S2097152
  h_S_ : 0 < S_.numel
  reducesTo_S5_S_d0 : S5.ReducesTo [0] S_
  bcast_S5x4_S5x1x4_0_2 : S5x4.BroadcastsInDim S5x1x4 (![0, 2] : Fin 2 → Fin S5x1x4.rank)
  bcast_S5x4_S1x5x4_1_2 : S5x4.BroadcastsInDim S1x5x4 (![1, 2] : Fin 2 → Fin S1x5x4.rank)
  bcast_S5x1x4_S5x5x4_0_1_2 : S5x1x4.BroadcastsInDim S5x5x4 (![0, 1, 2] : Fin 3 → Fin S5x5x4.rank)
  bcast_S1x5x4_S5x5x4_0_1_2 : S1x5x4.BroadcastsInDim S5x5x4 (![0, 1, 2] : Fin 3 → Fin S5x5x4.rank)
  reducesTo_S5x5x4_S5x5_d2 : S5x5x4.ReducesTo [2] S5x5
  bcast_S_S5x5 : S_.BroadcastsInDim S5x5 (![] : Fin 0 → Fin S5x5.rank)
  reducesTo_S5x5_S_d0_1 : S5x5.ReducesTo [0, 1] S_
  scatter_S5_S2097152x1_S2097152_n_0_0_1_wf : ScatterDims.WF S5 S2097152x1 S2097152 [] [0] [0] 1
  scatter_S5x4_S2097152x1_S2097152x4_1_0_0_1_wf : ScatterDims.WF S5x4 S2097152x1 S2097152x4 [1] [0] [0] 1
  gather_S5x4_S2097152x1_S2097152x4_1_0_n_n_0_1_14_wf : GatherDims.WF S5x4 S2097152x1 S2097152x4 [1] [0] [] [0] [] 1 ![1, 4]

variable [Facts₀]

def scatter_S5_S2097152x1_S2097152_n_0_0_1 : ScatterDims S5 S2097152x1 S2097152 where
  updateWindowDims := []
  insertedWindowDims := [0]
  scatterDimsToOperandDims := [0]
  indexVectorDim := 1
  wf := scatter_S5_S2097152x1_S2097152_n_0_0_1_wf
def scatter_S5x4_S2097152x1_S2097152x4_1_0_0_1 : ScatterDims S5x4 S2097152x1 S2097152x4 where
  updateWindowDims := [1]
  insertedWindowDims := [0]
  scatterDimsToOperandDims := [0]
  indexVectorDim := 1
  wf := scatter_S5x4_S2097152x1_S2097152x4_1_0_0_1_wf
def gather_S5x4_S2097152x1_S2097152x4_1_0_n_n_0_1_14 : GatherDims S5x4 S2097152x1 S2097152x4 where
  offsetDims := [1]
  collapsedSliceDims := [0]
  operandBatchingDims := []
  startIndicesBatchingDims := []
  startIndexMap := [0]
  indexVectorDim := 1
  sliceSizes := ![1, 4]
  wf := gather_S5x4_S2097152x1_S2097152x4_1_0_n_n_0_1_14_wf

class Facts : Prop extends Facts₀ where

variable [Facts]
-- ==== Proof.Loss.lean ====
/-
  The discriminative clustering loss, as plain functions of a pixel table.

  x ch q is channel ch of pixel q, lab q the pixel's label word.  There are 2097152 pixels, walked by the
  kernel in 16 tiles of 131072, eight tiles per half.  For each class k < 5 the loss needs the number of pixels
  labelled k, the per-channel sum of those pixels, the centroid (sum over max(count, 1)), and then the mean over
  classes of the mean squared hinge distance of a class's pixels to its centroid, plus a separation term between
  centroids.  This file states both programs' ways of computing these and that they agree.
-/
import Idealize.ShloMosaic.PureOps.Ideal
import Idealize.ShloMosaic.PureOps.Ideal.Laws
import Mathlib.Algebra.BigOperators.Fin
import Mathlib.Algebra.BigOperators.Intervals
import Mathlib.Data.EReal.Operations

noncomputable section

namespace Cert.Loss

open Idealize.ShloMosaic

/-- Pixels. -/
abbrev NP : ℕ := 2097152
/-- Pixels in one tile. -/
abbrev TW : ℕ := 131072

/-- Pixel p of tile T; there are 16 tiles (past them: pixel 0, never used). -/
def pix (T : ℕ) (p : Fin TW) : Fin NP :=
  if h : T < 16 then ⟨T * 131072 + p.val, by have hp : p.val < 131072 := p.isLt; show T * 131072 + p.val < 2097152; omega⟩
  else ⟨0, by decide⟩

/-- The one-hot entry of a label word against class k, as a number. -/
def oh (l : BitVec 32) (k : Fin 5) : EReal := if l = BitVec.ofNat 32 k.val then 1 else 0

/-! ## The kernel's first pass: counts and channel sums, tile by tile, half by half -/

def tileCnt (lab : Fin NP → BitVec 32) (T : ℕ) (k : Fin 5) : EReal := ∑ p : Fin TW, oh (lab (pix T p)) k

def tileSum (x : Fin 4 → Fin NP → EReal) (lab : Fin NP → BitVec 32) (T : ℕ) (k : Fin 5) (ch : Fin 4) : EReal :=
  ∑ p : Fin TW, oh (lab (pix T p)) k * x ch (pix T p)

def halfCnt (lab : Fin NP → BitVec 32) (h : Fin 2) (k : Fin 5) : EReal :=
  ∑ s ∈ Finset.range 8, tileCnt lab (8 * h.val + s) k

def halfSum (x : Fin 4 → Fin NP → EReal) (lab : Fin NP → BitVec 32) (h : Fin 2) (k : Fin 5) (ch : Fin 4) : EReal :=
  ∑ s ∈ Finset.range 8, tileSum x lab (8 * h.val + s) k ch

def cntK (lab : Fin NP → BitVec 32) (k : Fin 5) : EReal := ∑ h : Fin 2, halfCnt lab h k

def sumK (x : Fin 4 → Fin NP → EReal) (lab : Fin NP → BitVec 32) (k : Fin 5) (ch : Fin 4) : EReal :=
  ∑ h : Fin 2, halfSum x lab h k ch

/-! ## Centroids -/

/-- A class's divisor: its count, at least one. -/
def den (cnt : Fin 5 → EReal) (k : Fin 5) : EReal := max (cnt k) 1

/-- A class's centroid. -/
def cen (cnt : Fin 5 → EReal) (sm : Fin 5 → Fin 4 → EReal) (k : Fin 5) (ch : Fin 4) : EReal :=
  Ideal.div (sm k ch) (den cnt k)

/-- The kernel's 5×5 table: a class's centroid in columns 0–3, the reciprocal of its divisor in column 4. -/
def tbl (cnt : Fin 5 → EReal) (sm : Fin 5 → Fin 4 → EReal) (k : Fin 5) (j : Fin 5) : EReal :=
  if h : j.val < 4 then cen cnt sm k ⟨j.val, h⟩ else Ideal.div 1 (den cnt k)

/-! ## The kernel's second pass -/

/-- Column j of the table row a label selects, as the kernel gathers it: a sum over the five classes of the
    entry times the one-hot. -/
def gath (m : Fin 5 → Fin 5 → EReal) (l : BitVec 32) (j : Fin 5) : EReal :=
  0 + m 0 j * oh l 0 + m 1 j * oh l 1 + m 2 j * oh l 2 + m 3 j * oh l 3 + m 4 j * oh l 4

/-- The kernel's hinge of a squared distance s. -/
def hingeK (s dv : EReal) : EReal := max (Ideal.sqrt (max s 0) - dv) 0

/-- The squared distance of a pixel to its gathered centroid. -/
def dsqK (m : Fin 5 → Fin 5 → EReal) (xq : Fin 4 → EReal) (l : BitVec 32) : EReal :=
  ∑ ch : Fin 4, (gath m l ch.castSucc - xq ch) * (gath m l ch.castSucc - xq ch)

/-- One pixel's weighted squared hinge. -/
def pixK (m : Fin 5 → Fin 5 → EReal) (dv : EReal) (xq : Fin 4 → EReal) (l : BitVec 32) : EReal :=
  hingeK (dsqK m xq l) dv * hingeK (dsqK m xq l) dv * gath m l 4

def tileVar (x : Fin 4 → Fin NP → EReal) (lab : Fin NP → BitVec 32) (m : Fin 5 → Fin 5 → EReal) (dv : EReal) (T : ℕ) :
    EReal :=
  ∑ p : Fin TW, pixK m dv (fun ch => x ch (pix T p)) (lab (pix T p))

def halfVar (x : Fin 4 → Fin NP → EReal) (lab : Fin NP → BitVec 32) (m : Fin 5 → Fin 5 → EReal) (dv : EReal)
    (h : Fin 2) : EReal :=
  ∑ s ∈ Finset.range 8, tileVar x lab m dv (8 * h.val + s)

/-- The kernel's variance term. -/
def lvarK (x : Fin 4 → Fin NP → EReal) (lab : Fin NP → BitVec 32) (dv : EReal) : EReal :=
  Ideal.div (∑ h : Fin 2, halfVar x lab (tbl (cntK lab) (sumK x lab)) dv h) 5

/-! ## The reference -/

/-- A label word lands on class k in the reference's scatters when, read signed, it is k. -/
def hit (l : BitVec 32) (k : Fin 5) : Prop := l.toInt = (k.val : ℤ)

instance (l : BitVec 32) (k : Fin 5) : Decidable (hit l k) := by unfold hit; infer_instance

def cntR (lab : Fin NP → BitVec 32) (k : Fin 5) : EReal :=
  ∑ _q ∈ Finset.univ.filter (fun q : Fin NP => hit (lab q) k), (1 : EReal)

def sumR (x : Fin 4 → Fin NP → EReal) (lab : Fin NP → BitVec 32) (k : Fin 5) (ch : Fin 4) : EReal :=
  ∑ q ∈ Finset.univ.filter (fun q : Fin NP => hit (lab q) k), x ch q

/-- The row the reference's gather reads for a label: negative words shifted up by five, then read signed and
    clamped into the five rows. -/
def rowOf (l : BitVec 32) : Fin 5 :=
  ⟨min (if l.slt 0#32 then l + 5#32 else l).toInt.toNat 4, by omega⟩

/-- The reference's norm of a squared distance: zero-safe. -/
def normR (s : EReal) : EReal := if 0 < s then Ideal.sqrt (if 0 < s then s else 1) else 0

def hingeR (s dv : EReal) : EReal := max (normR s - dv) 0

def dsqR (mu : Fin 5 → Fin 4 → EReal) (xq : Fin 4 → EReal) (l : BitVec 32) : EReal :=
  ∑ ch : Fin 4, (mu (rowOf l) ch - xq ch) * (mu (rowOf l) ch - xq ch)

def pixR (mu : Fin 5 → Fin 4 → EReal) (dv : EReal) (xq : Fin 4 → EReal) (l : BitVec 32) : EReal :=
  hingeR (dsqR mu xq l) dv * hingeR (dsqR mu xq l) dv

/-- The reference's variance term. -/
def lvarR (x : Fin 4 → Fin NP → EReal) (lab : Fin NP → BitVec 32) (dv : EReal) : EReal :=
  Ideal.div (∑ k : Fin 5,
    Ideal.div (∑ q ∈ Finset.univ.filter (fun q : Fin NP => hit (lab q) k),
        pixR (cen (cntR lab) (sumR x lab)) dv (fun ch => x ch q) (lab q))
      (den (cntR lab) k)) 5

end Cert.Loss

end
-- ==== Proof.KArrays.lean ====
/-
  The pixel table, the labels, the centroid table and the hinge offset as a kernel region finds them in its
  operand arrays.
-/
import proofs.«415168_j88785563943727_3_alg».proof.Proof.Gen.KernelIdeal.Frame
import proofs.«415168_j88785563943727_3_alg».proof.Proof.Loss
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- Channel ch of pixel q: the reshaped prediction array, 4 rows of 2097152 pixels. -/
def xV (c : Dev nD) (ch : Fin 4) (q : Fin Cert.Loss.NP) : EReal :=
  (V c main_v0 : S4x2097152.Idx → Ideal .f32) (ix2 ch q)

/-- Pixel q's label word: the reshaped label array, one row. -/
def lV (c : Dev nD) (q : Fin Cert.Loss.NP) : BitVec 32 :=
  (V c main_v1 : S1x2097152.Idx → BitVec 32) (ix2 (0 : Fin 1) q)

/-- The 5×5 table the second pass reads: centroids and reciprocal divisors. -/
def tV (c : Dev nD) (k j : Fin 5) : EReal :=
  (V c main_v13 : S5x5.Idx → Ideal .f32) (ix2 k j)

/-- The hinge offset, a 1×1 array. -/
def dvV (c : Dev nD) : EReal :=
  (V c main_v14 : S1x1.Idx → Ideal .f32) (ix2 (0 : Fin 1) (0 : Fin 1))

end Cert.KernelIdeal.Val

end
-- ==== Proof.KRegion0Pieces.lean ====
/-
  What each control case of the first pass leaves in the two output blocks, as values.

  When the half starts the counts block is stored as zeros and read back, and the body then stores the block it
  read plus the tile's lane sums; at every later point the block carried from the point before is read instead.
  Likewise the channel sums, with the matrix product of the one-hot and the pixel block.
-/
import proofs.«415168_j88785563943727_3_alg».proof.Proof.Gen.KernelIdeal.Frame
import Idealize.ShloMosaic.Lib.Pipeline.Value
import Idealize.ShloMosaic.Lib.Tactic

noncomputable section

namespace Cert.KernelIdeal.Val

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Later in a half: the counts block carried over plus the tile's lane sums. -/
theorem counts_later (c : Dev nD) (i : grid0.Coords) (arg2 : Memref sig .tc .vmem S4x131072 .f32) (harg2 : arg2.IsWhole) (arg3 : Memref sig .tc .vmem S1x131072 .i32) (harg3 : arg3.IsWhole) (arg4 : Memref sig .tc .vmem S1x5x1 .f32) (harg4 : arg4.IsWhole) (arg5 : Memref sig .tc .vmem S1x5x4 .f32) (harg5 : arg5.IsWhole) (hc0 : ¬cond0_0 i)
    (x0 : Vec F S4x131072 .f32) (x1 : Vec F S1x131072 .i32) (xo2 : Vec F S1x5x1 .f32) (xo3 : Vec F S1x5x4 .f32) :
    out0_B_2 c i arg2 harg2 arg3 harg3 arg4 harg4 arg5 harg5 hc0 x0 x1 xo2 xo3 = k0_pay4 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero (S := S1x5x1) hz3]
  simp only [View.readAt_eq_ld, harg3.read_unread, harg4.read_unread, View.ld_unit_zero (S := S1x131072) hz2,
    View.ld_unit_zero (S := S1x5x1) hz3]

/-- Later in a half: the channel-sums block carried over plus the tile's products. -/
theorem sums_later (c : Dev nD) (i : grid0.Coords) (arg2 : Memref sig .tc .vmem S4x131072 .f32) (harg2 : arg2.IsWhole) (arg3 : Memref sig .tc .vmem S1x131072 .i32) (harg3 : arg3.IsWhole) (arg4 : Memref sig .tc .vmem S1x5x1 .f32) (harg4 : arg4.IsWhole) (arg5 : Memref sig .tc .vmem S1x5x4 .f32) (harg5 : arg5.IsWhole) (hc0 : ¬cond0_0 i)
    (x0 : Vec F S4x131072 .f32) (x1 : Vec F S1x131072 .i32) (xo2 : Vec F S1x5x1 .f32) (xo3 : Vec F S1x5x4 .f32) :
    out0_B_3 c i arg2 harg2 arg3 harg3 arg4 harg4 arg5 harg5 hc0 x0 x1 xo2 xo3 = k0_pay5 x1 x0 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero (S := S1x5x4) hz3]
  simp only [View.readAt_eq_ld, harg2.read_unread, harg3.read_unread, harg5.read_unread, View.ld_unit_zero (S := S1x131072) hz2,
    View.ld_unit_zero (S := S4x131072) hz2, View.ld_unit_zero (S := S1x5x4) hz3]

/-- At a half's first point: the zero block plus the tile's lane sums. -/
theorem counts_first (c : Dev nD) (i : grid0.Coords) (arg2 : Memref sig .tc .vmem S4x131072 .f32) (harg2 : arg2.IsWhole) (arg3 : Memref sig .tc .vmem S1x131072 .i32) (harg3 : arg3.IsWhole) (arg4 : Memref sig .tc .vmem S1x5x1 .f32) (harg4 : arg4.IsWhole) (arg5 : Memref sig .tc .vmem S1x5x4 .f32) (harg5 : arg5.IsWhole) (hc0 : cond0_0 i)
    (x0 : Vec F S4x131072 .f32) (x1 : Vec F S1x131072 .i32) :
    out0_A_2 c i arg2 harg2 arg3 harg3 arg4 harg4 arg5 harg5 hc0 x0 x1 = k0_pay4 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x5x1) hz3, View.readCov_unit_zero (S := S1x5x1) _ hz3]
  simp only [View.readAt_eq_ld, harg3.read_unread, View.ld_unit_zero (S := S1x131072) hz2]

/-- At a half's first point: the zero block plus the tile's products. -/
theorem sums_first (c : Dev nD) (i : grid0.Coords) (arg2 : Memref sig .tc .vmem S4x131072 .f32) (harg2 : arg2.IsWhole) (arg3 : Memref sig .tc .vmem S1x131072 .i32) (harg3 : arg3.IsWhole) (arg4 : Memref sig .tc .vmem S1x5x1 .f32) (harg4 : arg4.IsWhole) (arg5 : Memref sig .tc .vmem S1x5x4 .f32) (harg5 : arg5.IsWhole) (hc0 : cond0_0 i)
    (x0 : Vec F S4x131072 .f32) (x1 : Vec F S1x131072 .i32) :
    out0_A_3 c i arg2 harg2 arg3 harg3 arg4 harg4 arg5 harg5 hc0 x0 x1 = k0_pay5 x1 x0 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x5x4) hz3, View.readCov_unit_zero (S := S1x5x4) _ hz3]
  simp only [View.readAt_eq_ld, harg2.read_unread, harg3.read_unread, View.ld_unit_zero (S := S1x131072) hz2,
    View.ld_unit_zero (S := S4x131072) hz2]

end Cert.KernelIdeal.Val

end
-- ==== Proof.KOneHot.lean ====
/-
  The one-hot block at an element.

  The body compares the class index along axis 0 (an iota) with the label row broadcast over the five classes,
  widens the one-bit answer to a 32-bit word and converts that word to a float.  At the exact reals the result
  at (k, p) is 1 when pixel p's label word is the word of k, and 0 otherwise.
-/
import proofs.«415168_j88785563943727_3_alg».proof.Proof.Gen.KernelIdeal.Skeleton
import proofs.«415168_j88785563943727_3_alg».proof.Proof.Loss
import Idealize.ShloMosaic.Lib.Pipeline.Value
import Idealize.ShloMosaic.Lib.ValueIdx

noncomputable section

namespace Cert.KernelIdeal.Val

open Cert.KernelIdeal Cert.KernelIdeal.Gen Idealize.ShloMosaic Idealize.SL.Sem
open Idealize.ShloMosaic.ValueIdx

/-- A one-bit comparison answer, widened to 32 bits and read as a signed integer, is 1 or 0 as a number. -/
theorem sitofp_extui_cmpi_eq (a b : BitVec 32) :
    (FloatOps.sitofp (F := Ideal) .f32 ((IntOp.cmpi .eq a b).setWidth 32) : EReal) = if b = a then 1 else 0 := by
  by_cases h : b = a
  · subst h
    rw [if_pos rfl]
    have e : IntOp.cmpi .eq b b = 1#1 := IntOp.cmpi_eq.mpr rfl
    rw [e]
    show (((((1#1 : BitVec 1).setWidth 32).toInt : ℤ) : ℝ) : EReal) = 1
    have : ((1#1 : BitVec 1).setWidth 32).toInt = 1 := by decide
    rw [this]; simp
  · rw [if_neg h]
    have e : IntOp.cmpi .eq a b = 0#1 := eq_zero_of_ne_one (fun h1 => h (IntOp.cmpi_eq.mp h1).symm)
    rw [e]
    show (((((0#1 : BitVec 1).setWidth 32).toInt : ℤ) : ℝ) : EReal) = 0
    have : ((0#1 : BitVec 1).setWidth 32).toInt = 0 := by decide
    rw [this]; simp

/-- The one-hot block at class k and pixel p of the tile. -/
theorem onehot_apply (v3 : Vec Ideal S1x131072 .i32) (k : Fin 5) (p : Fin 131072) :
    k0_pay3 (F := Ideal) v3 (ix2 k p) = Cert.Loss.oh (v3 (ix2 (0 : Fin 1) p)) k := by
  unfold k0_pay3
  dsimp only
  rw [sitofp_apply, extui_apply]
  show (FloatOps.sitofp (F := Ideal) .f32 ((IntOp.cmpi .eq (iota .tc S5x131072 32 [0] iota_S5x131072_d0_w32 (ix2 k p))
      (broadcastTo S5x131072 (shapeCast S1x131072 v3 shapeCasts_S1x131072_S1x131072) broadcasts_S1x131072_S5x131072 (ix2 k p))).setWidth 32) : EReal) = _
  rw [iota_single_apply, shapeCast_self,
    broadcastTo_apply v3 broadcasts_S1x131072_S5x131072 (ix2 k p) (ix2 (0 : Fin 1) p)
      (fun a => match a with | ⟨0, _⟩ => rfl | ⟨1, _⟩ => rfl),
    sitofp_extui_cmpi_eq]
  rfl

/-- The second pass builds the same block. -/
theorem onehot1_apply (v3 : Vec Ideal S1x131072 .i32) (k : Fin 5) (p : Fin 131072) :
    k1_pay4 (F := Ideal) v3 (ix2 k p) = Cert.Loss.oh (v3 (ix2 (0 : Fin 1) p)) k :=
  onehot_apply v3 k p

end Cert.KernelIdeal.Val

end
-- ==== Proof.LibDotNT.lean ====
/-
  A matrix times a transposed matrix, read at an index.

  For the dimension numbers of an M × K by N × K product that contracts the LAST axis of both operands (no batch
  axis: x · Wᵀ with W stored row by row), the sum over the contraction index that a matmul into a zero accumulator
  or a dot_general denotes at the ideal values is, at row p and column q, the sum over k of l (p, k) · r (q, k).
  General in M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

/-- The dimension numbers: contract axis 1 of both operands; the result's axes are the left rows, then the right rows. -/
abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

theorem contr_rank : (dims w).contr.rank = 1 := rfl
theorem contr_size : (dims w).contr.size ⟨0, by rw [contr_rank]; exact Nat.one_pos⟩ = K := rfl

/-- The contraction index is its one coordinate, a column of either operand. -/
abbrev kEquiv : (dims w).contr.Idx ≃ Fin K := contrEquiv1 (dims w) K (contr_rank w) (contr_size w)

/-- The left operand is read at (row of the result, k). -/
theorem lhsIdx_eq (j : (⟨2, ![M, N]⟩ : Shape).Idx) (k : Fin K) :
    (dims w).lhsIdx j ((kEquiv w).symm k) = ix2 (j 0) k := by
  funext a
  apply Fin.ext
  match a with
  | ⟨0, _⟩ => rfl
  | ⟨1, _⟩ =>
    exact ((dims w).lhsIdx_val_of_single (cl := 1) rfl j _).trans
      (contrEquiv1_symm_val (dims w) K (contr_rank w) (contr_size w) k)

/-- The right operand is read at (column of the result, k): its rows are the result's columns. -/
theorem rhsIdx_eq (j : (⟨2, ![M, N]⟩ : Shape).Idx) (k : Fin K) :
    (dims w).rhsIdx j ((kEquiv w).symm k) = ix2 (j 1) k := by
  funext a
  apply Fin.ext
  match a with
  | ⟨0, _⟩ => rfl
  | ⟨1, _⟩ =>
    exact ((dims w).rhsIdx_val_of_single (cr := 1) rfl j _).trans
      (contrEquiv1_symm_val (dims w) K (contr_rank w) (contr_size w) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (dims w).contr.Idx, l ((dims w).lhsIdx j kk) * r ((dims w).rhsIdx j kk))
      = ∑ k : Fin K, l (ix2 (j 0) k) * r (ix2 (j 1) k) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (dims w) prec l r (ix2 p q) = ∑ k : Fin K, l (ix2 p k) * r (ix2 q k) :=
  (Ideal.dotGeneral_apply (dims w) prec _ l r (ix2 p q)).trans (sum_eq w l r (ix2 p q))

end Idealize.ShloMosaic.DotNT

end
-- ==== Proof.KRegion0Pay.lean ====
/-
  The first pass's payloads read at an element, at the exact reals.

  The zero blocks are zero.  The counts update at class k is the carried count plus the number of the tile's
  pixels whose label is k (a lane sum of the one-hot).  The channel-sums update at (k, ch) is the carried sum plus
  the sum over the tile's pixels of the one-hot times the pixel's channel (the matrix product contracts the pixel
  axis of both operands; narrowing to bf16 changes nothing at the exact reals).
-/
import proofs.«415168_j88785563943727_3_alg».proof.Proof.KOneHot
import proofs.«415168_j88785563943727_3_alg».proof.Proof.LibDotNT
import Idealize.ShloMosaic.PureOps.Ideal.Laws

noncomputable section

namespace Cert.KernelIdeal.Val

open Cert.KernelIdeal Cert.KernelIdeal.Gen Idealize.ShloMosaic Idealize.SL.Sem
open Idealize.ShloMosaic.ValueIdx

/-- The zero counts block. -/
theorem zeroCounts_apply (i : S1x5x1.Idx) : k0_pay1 (F := Ideal) i = 0 := by
  unfold k0_pay1
  refine (shapeCast_addUnit_apply ![5, 1] _ shapeCasts_S5x1_S1x5x1 i).trans ?_
  exact Ideal.ofBits_zero_f32

/-- The zero channel-sums block. -/
theorem zeroSums_apply (i : S1x5x4.Idx) : k0_pay2 (F := Ideal) i = 0 := by
  unfold k0_pay2
  refine (shapeCast_addUnit_apply ![5, 4] _ shapeCasts_S5x4_S1x5x4 i).trans ?_
  exact Ideal.ofBits_zero_f32

/-- The index the lane sum reads for class k and pixel p. -/
theorem lift_eq (k : Fin 5) (p : Fin 131072) :
    reduces_S5x131072_S5.lift (ix1 k) p = ix2 k p := by
  funext a
  apply Fin.ext
  match a with
  | ⟨0, _⟩ => rfl
  | ⟨1, _⟩ => rfl

/-- The counts update at class k. -/
theorem countsPay_apply (v3 : Vec Ideal S1x131072 .i32) (v12 : Vec Ideal S1x5x1 .f32) (k : Fin 5) :
    k0_pay4 (F := Ideal) v3 v12 (ix3 (0 : Fin 1) k (0 : Fin 1))
      = v12 (ix3 (0 : Fin 1) k (0 : Fin 1)) + ∑ p : Fin 131072, Cert.Loss.oh (v3 (ix2 (0 : Fin 1) p)) k := by
  unfold k0_pay4
  dsimp only
  refine (shapeCast_apply _ shapeCasts_S5x1_S1x5x1 (ix3 (0 : Fin 1) k (0 : Fin 1)) (ix2 k (0 : Fin 1)) ?_).trans ?_
  · rw [Shape.rowMajor_val_two, Shape.rowMajor_val_three]
    show k.val * 1 + 0 = (0 * 5 + k.val) * 1 + 0
    omega
  refine (addf_apply _ _ _).trans ?_
  refine congrArg₂ (· + ·) (shapeCast_apply v12 shapeCasts_S1x5x1_S5x1 (ix2 k (0 : Fin 1)) (ix3 (0 : Fin 1) k (0 : Fin 1)) ?_) ?_
  · rw [Shape.rowMajor_val_two, Shape.rowMajor_val_three]
    show (0 * 5 + k.val) * 1 + 0 = k.val * 1 + 0
    omega
  refine (shapeCast_apply _ shapeCasts_S5_S5x1 (ix2 k (0 : Fin 1)) (ix1 k) ?_).trans ?_
  · rw [Shape.rowMajor_val_two, Shape.rowMajor_val_one]
    show k.val = k.val * 1 + 0
    omega
  refine (Ideal.multiReduction_add_single (k0_pay3 (F := Ideal) v3) _ reduces_S5x131072_S5 _ _ (ix1 k)).trans ?_
  exact Finset.sum_congr rfl fun p _ => (congrArg (k0_pay3 (F := Ideal) v3) (lift_eq k p)).trans (onehot_apply v3 k p)

/-- The channel-sums update at class k and channel ch. -/
theorem sumsPay_apply (v3 : Vec Ideal S1x131072 .i32) (v5 : Vec Ideal S4x131072 .f32) (v23 : Vec Ideal S1x5x4 .f32)
    (k : Fin 5) (ch : Fin 4) :
    k0_pay5 (F := Ideal) v3 v5 v23 (ix3 (0 : Fin 1) k ch)
      = v23 (ix3 (0 : Fin 1) k ch)
        + ∑ p : Fin 131072, Cert.Loss.oh (v3 (ix2 (0 : Fin 1) p)) k * v5 (ix2 ch p) := by
  unfold k0_pay5
  refine (shapeCast_apply _ shapeCasts_S5x4_S1x5x4 (ix3 (0 : Fin 1) k ch) (ix2 k ch) ?_).trans ?_
  · rw [Shape.rowMajor_val_two, Shape.rowMajor_val_three]
    show k.val * 4 + ch.val = (0 * 5 + k.val) * 4 + ch.val
    omega
  refine (addf_apply _ _ _).trans ?_
  refine congrArg₂ (· + ·) (shapeCast_apply v23 shapeCasts_S1x5x4_S5x4 (ix2 k ch) (ix3 (0 : Fin 1) k ch) ?_) ?_
  · rw [Shape.rowMajor_val_two, Shape.rowMajor_val_three]
    show (0 * 5 + k.val) * 4 + ch.val = k.val * 4 + ch.val
    omega
  refine (DotNT.matmul_zero_apply dot_S5x131072_S4x131072_S5x4_1_1_0_0_n_n_wf none _ _ k ch).trans ?_
  refine Finset.sum_congr rfl fun p _ => congrArg₂ (· * ·) ?_ ?_
  · exact onehot_apply v3 k p
  · exact congrFun (shapeCast_self v5 shapeCasts_S4x131072_S4x131072) (ix2 ch p)

end Cert.KernelIdeal.Val

end
-- ==== Proof.KRegion0Blocks.lean ====
/-
  The first pass's input blocks read at an element.

  Point t of the grid works on tile t: its label block is columns t * 131072 onward of the one-row label array,
  and its pixel block the same columns of the four-row pixel array.
-/
import proofs.«415168_j88785563943727_3_alg».proof.Proof.KArrays
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both input windows sit at row block 0 and column block t. -/
theorem in_idx0 : ∀ t : Fin cfg0.N, win0_0.index t (1 : Fin 2) = t.val ∧ win0_0.index t (0 : Fin 2) = 0
    ∧ win0_1.index t (1 : Fin 2) = t.val ∧ win0_1.index t (0 : Fin 2) = 0 :=
  (by decide +kernel : ∀ t : Fin grid0.N, win0_0.index t (1 : Fin 2) = t.val ∧ win0_0.index t (0 : Fin 2) = 0
    ∧ win0_1.index t (1 : Fin 2) = t.val ∧ win0_1.index t (0 : Fin 2) = 0)

/-- Pixel p of tile t, as a number. -/
theorem pix_val (t : Fin cfg0.N) (p : Fin 131072) : (Cert.Loss.pix t.val p).val = t.val * 131072 + p.val := by
  have hN : t.val < 16 := lt_of_lt_of_eq t.isLt (show cfg0.N = 16 from N_0)
  unfold Cert.Loss.pix
  rw [dif_pos hN]

/-- The label block of tile t at pixel p is the label array at the tile's pixel. -/
theorem labBlk_apply (c : Dev nD) (t : Fin cfg0.N) (p : Fin 131072) :
    (iblk0 V c 1 t : Vec Ideal S1x131072 .i32) (ix2 (0 : Fin 1) p) = lV V c (Cert.Loss.pix t.val p) := by
  unfold iblk0 lV
  rw [View.read_apply]
  show V c main_v1 (((cfg0.win 1).blk t).view.emb (ix2 (0 : Fin 1) p)) = V c main_v1 (ix2 (0 : Fin 1) (Cert.Loss.pix t.val p))
  refine congrArg (V c main_v1) (funext fun a => Fin.ext ?_)
  obtain ⟨e01, e00, e11, e10⟩ := in_idx0 t
  have hp : p.val < 131072 := p.isLt
  match a with
  | ⟨0, _⟩ => show win0_1.index t (0 : Fin 2) * 1 + 1 * 0 = 0; omega
  | ⟨1, _⟩ => show win0_1.index t (1 : Fin 2) * 131072 + 1 * p.val = (Cert.Loss.pix t.val p).val; rw [pix_val]; omega

/-- The pixel block of tile t at channel ch and pixel p is the pixel array at the tile's pixel. -/
theorem pixBlk_apply (c : Dev nD) (t : Fin cfg0.N) (ch : Fin 4) (p : Fin 131072) :
    (iblk0 V c 0 t : Vec Ideal S4x131072 .f32) (ix2 ch p) = xV V c ch (Cert.Loss.pix t.val p) := by
  unfold iblk0 xV
  rw [View.read_apply]
  show V c main_v0 (((cfg0.win 0).blk t).view.emb (ix2 ch p)) = V c main_v0 (ix2 ch (Cert.Loss.pix t.val p))
  refine congrArg (V c main_v0) (funext fun a => Fin.ext ?_)
  obtain ⟨e01, e00, e11, e10⟩ := in_idx0 t
  have hp : p.val < 131072 := p.isLt
  have hc : ch.val < 4 := ch.isLt
  match a with
  | ⟨0, _⟩ => show win0_0.index t (0 : Fin 2) * 4 + 1 * ch.val = ch.val; omega
  | ⟨1, _⟩ => show win0_0.index t (1 : Fin 2) * 131072 + 1 * p.val = (Cert.Loss.pix t.val p).val; rw [pix_val]; omega

end Cert.KernelIdeal.Val

end
-- ==== Proof.KRegion0Fold.lean ====
/-
  The two output blocks after each point of the first pass, as sums.

  Within a half the counts block is zeroed at the first point and every point adds its tile's counts, so after
  the point at offset j of half h it holds, at class k, the sum of the tile counts of tiles 8h .. 8h + j; likewise
  the channel sums.
-/
import proofs.«415168_j88785563943727_3_alg».proof.Proof.KRegion0Pieces
import proofs.«415168_j88785563943727_3_alg».proof.Proof.KRegion0Pay
import proofs.«415168_j88785563943727_3_alg».proof.Proof.KRegion0Blocks

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The label block and the pixel block of the tile at point n. -/
abbrev labBlk (c : Dev nD) (n : ℕ) (h : n < cfg0.N) : Vec Ideal S1x131072 .i32 := iblk0 V c 1 ⟨n, h⟩
abbrev pixBlk (c : Dev nD) (n : ℕ) (h : n < cfg0.N) : Vec Ideal S4x131072 .f32 := iblk0 V c 0 ⟨n, h⟩

/-- An index of a counts block is (0, k, 0). -/
theorem idx_counts (i : S1x5x1.Idx) : i = ix3 (0 : Fin 1) (i 1) (0 : Fin 1) := by
  funext a
  match a with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- An index of a channel-sums block is (0, k, ch). -/
theorem idx_sums (i : S1x5x4.Idx) : i = ix3 (0 : Fin 1) (i 1) (i 2) := by
  funext a
  match a with
  | ⟨0, _⟩ => exact Fin.ext (by have h : (i 0).val < 1 := (i 0).isLt; show (i 0).val = 0; omega)
  | ⟨1, _⟩ => rfl
  | ⟨2, _⟩ => rfl

/-- One point's counts update at an index: what was there plus the tile's count of the class. -/
theorem counts_step_apply (c : Dev nD) (n : ℕ) (h : n < cfg0.N) (acc : Vec Ideal S1x5x1 .f32) (i : S1x5x1.Idx) :
    k0_pay4 (F := Ideal) (labBlk V c n h) acc i = acc i + Cert.Loss.tileCnt (lV V c) n (i 1) := by
  obtain ⟨k, rfl⟩ : ∃ k : Fin 5, i = ix3 (0 : Fin 1) k (0 : Fin 1) := ⟨i 1, idx_counts i⟩
  refine (countsPay_apply (labBlk V c n h) acc k).trans ?_
  refine congrArg (acc (ix3 (0 : Fin 1) k (0 : Fin 1)) + ·) ?_
  unfold Cert.Loss.tileCnt
  exact Finset.sum_congr rfl fun p _ => congrArg (fun l => Cert.Loss.oh l k) (labBlk_apply V c ⟨n, h⟩ p)

/-- One point's channel-sums update at an index. -/
theorem sums_step_apply (c : Dev nD) (n : ℕ) (h : n < cfg0.N) (acc : Vec Ideal S1x5x4 .f32) (i : S1x5x4.Idx) :
    k0_pay5 (F := Ideal) (labBlk V c n h) (pixBlk V c n h) acc i
      = acc i + Cert.Loss.tileSum (xV V c) (lV V c) n (i 1) (i 2) := by
  obtain ⟨k, ch, rfl⟩ : ∃ (k : Fin 5) (ch : Fin 4), i = ix3 (0 : Fin 1) k ch := ⟨i 1, i 2, idx_sums i⟩
  refine (sumsPay_apply (labBlk V c n h) (pixBlk V c n h) acc k ch).trans ?_
  refine congrArg (acc (ix3 (0 : Fin 1) k ch) + ·) ?_
  unfold Cert.Loss.tileSum
  exact Finset.sum_congr rfl fun p _ =>
    congrArg₂ (fun l x => Cert.Loss.oh l k * x) (labBlk_apply V c ⟨n, h⟩ p) (pixBlk_apply V c ⟨n, h⟩ ch p)

/-- At a half's first point the counts block is the zero block updated. -/
theorem counts_at_first (c : Dev nD) (n : ℕ) (h : n < cfg0.N) (h0 : n % 8 = 0) :
    (outsAt0 V c n h).1 = k0_pay4 (F := Ideal) (labBlk V c n h) (k0_pay1 (F := Ideal)) := by
  rw [outsAt0_A V c ⟨n, h⟩ h0]
  dsimp only
  exact counts_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk0 V c 0 ⟨n, h⟩) (iblk0 V c 1 ⟨n, h⟩)

/-- At a later point it is the block of the point before updated. -/
theorem counts_at_later (c : Dev nD) (n : ℕ) (h : n + 1 < cfg0.N) (h0 : ¬(n + 1) % 8 = 0) :
    (outsAt0 V c (n + 1) h).1 = k0_pay4 (F := Ideal) (labBlk V c (n + 1) h) (outsAt0 V c n (Nat.lt_of_succ_lt h)).1 := by
  rw [outsAt0_B V c ⟨n + 1, h⟩ h0]
  dsimp only
  exact counts_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2

theorem sums_at_first (c : Dev nD) (n : ℕ) (h : n < cfg0.N) (h0 : n % 8 = 0) :
    (outsAt0 V c n h).2 = k0_pay5 (F := Ideal) (labBlk V c n h) (pixBlk V c n h) (k0_pay2 (F := Ideal)) := by
  rw [outsAt0_A V c ⟨n, h⟩ h0]
  dsimp only
  exact sums_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0) (iblk0 V c 0 ⟨n, h⟩) (iblk0 V c 1 ⟨n, h⟩)

theorem sums_at_later (c : Dev nD) (n : ℕ) (h : n + 1 < cfg0.N) (h0 : ¬(n + 1) % 8 = 0) :
    (outsAt0 V c (n + 1) h).2
      = k0_pay5 (F := Ideal) (labBlk V c (n + 1) h) (pixBlk V c (n + 1) h) (outsAt0 V c n (Nat.lt_of_succ_lt h)).2 := by
  rw [outsAt0_B V c ⟨n + 1, h⟩ h0]
  dsimp only
  exact sums_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => h0 ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2

/-- The counts block after point t, at an index: the tile counts of the half's points up to t. -/
theorem counts_at (c : Dev nD) (t : ℕ) (ht : t < cfg0.N) (i : S1x5x1.Idx) :
    (outsAt0 V c t ht).1 i
      = 0 + ∑ s ∈ Finset.range (t % 8 + 1), Cert.Loss.tileCnt (lV V c) (8 * (t / 8) + s) (i 1) := by
  have h' : 8 * (t / 8) + t % 8 < cfg0.N := by rw [Nat.div_add_mod]; exact ht
  have e := Pipeline.eq_accAt_of_mod (fun n h => (outsAt0 V c n h).1) 8
    (fun n h => k0_pay4 (F := Ideal) (labBlk V c n h) (k0_pay1 (F := Ideal)))
    (fun n h acc => k0_pay4 (F := Ideal) (labBlk V c n h) acc)
    (fun n h h0 => counts_at_first V c n h h0) (fun n h h0 => counts_at_later V c n h h0) (by decide) t ht h'
  refine (congrFun e i).trans ?_
  exact Pipeline.accAt_add_apply (N := cfg0.N) (ι := S1x5x1.Idx) (β := EReal)
    (fun n h => k0_pay4 (F := Ideal) (labBlk V c n h) (k0_pay1 (F := Ideal)))
    (fun n h acc => k0_pay4 (F := Ideal) (labBlk V c n h) acc)
    (fun _ => (0 : EReal)) (fun n i => Cert.Loss.tileCnt (lV V c) n (i 1)) (8 * (t / 8)) 7
    (fun h i => (counts_step_apply V c (8 * (t / 8)) h (k0_pay1 (F := Ideal)) i).trans
      (congrArg (· + Cert.Loss.tileCnt (lV V c) (8 * (t / 8)) (i 1)) (zeroCounts_apply i)))
    (fun n h acc i _ _ => counts_step_apply V c n h acc i) (t % 8) (by omega) h' i

/-- The channel-sums block after point t, at an index. -/
theorem sums_at (c : Dev nD) (t : ℕ) (ht : t < cfg0.N) (i : S1x5x4.Idx) :
    (outsAt0 V c t ht).2 i
      = 0 + ∑ s ∈ Finset.range (t % 8 + 1), Cert.Loss.tileSum (xV V c) (lV V c) (8 * (t / 8) + s) (i 1) (i 2) := by
  have h' : 8 * (t / 8) + t % 8 < cfg0.N := by rw [Nat.div_add_mod]; exact ht
  have e := Pipeline.eq_accAt_of_mod (fun n h => (outsAt0 V c n h).2) 8
    (fun n h => k0_pay5 (F := Ideal) (labBlk V c n h) (pixBlk V c n h) (k0_pay2 (F := Ideal)))
    (fun n h acc => k0_pay5 (F := Ideal) (labBlk V c n h) (pixBlk V c n h) acc)
    (fun n h h0 => sums_at_first V c n h h0) (fun n h h0 => sums_at_later V c n h h0) (by decide) t ht h'
  refine (congrFun e i).trans ?_
  exact Pipeline.accAt_add_apply (N := cfg0.N) (ι := S1x5x4.Idx) (β := EReal)
    (fun n h => k0_pay5 (F := Ideal) (labBlk V c n h) (pixBlk V c n h) (k0_pay2 (F := Ideal)))
    (fun n h acc => k0_pay5 (F := Ideal) (labBlk V c n h) (pixBlk V c n h) acc)
    (fun _ => (0 : EReal)) (fun n i => Cert.Loss.tileSum (xV V c) (lV V c) n (i 1) (i 2)) (8 * (t / 8)) 7
    (fun h i => (sums_step_apply V c (8 * (t / 8)) h (k0_pay2 (F := Ideal)) i).trans
      (congrArg (· + Cert.Loss.tileSum (xV V c) (lV V c) (8 * (t / 8)) (i 1) (i 2)) (zeroSums_apply i)))
    (fun n h acc i _ _ => sums_step_apply V c n h acc i) (t % 8) (by omega) h' i

end Cert.KernelIdeal.Val

end
-- ==== Proof.KRegion0.lean ====
/-
  The first pass: what the two output arrays hold after the run.

  The grid has 16 points, point t working on tile t; a half is eight consecutive points sharing one output block.
  At a half's first point the block is zeroed and the tile's per-class counts (a lane sum of the one-hot) and
  per-class channel sums (the one-hot times the pixel block, contracted over the pixels) are added; every later
  point adds its tile's.  The block is written back after the half's last point, so entry (h, k) of the counts
  array is the sum of the eight tile counts of half h, and likewise the channel sums.
-/
import proofs.«415168_j88785563943727_3_alg».proof.Proof.KArrays
import proofs.«415168_j88785563943727_3_alg».proof.Proof.KRegion0Fold
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both output windows sit at block t / 8 of the first axis and block 0 of the others. -/
theorem out_idx0 : ∀ t : Fin cfg0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0 :=
  (by decide +kernel : ∀ t : Fin grid0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0)

/-! ## The counts -/

/-- The counts array the pass leaves. -/
abbrev countsArr (c : Dev nD) : S2x5x1.Idx → Ideal .f32 := fun i => Cert.Loss.halfCnt (lV V c) (i 0) (i 1)

/-- What a half's last point writes back is that half's row of the counts array. -/
theorem counts_flushed (c : Dev nD) (t : Fin cfg0.N) (hf : (cfg0.win 2).flush t = true) :
    (dat0 V c).flushed 2 t = ((cfg0.win 2).blk t).view.read (Elt Ideal) (countsArr V c) := by
  have h7 : t.val % 8 = 7 := (flush0_2 t).mp hf
  show (cfg0.win 2).cut (grid0.coords t) ((dat0 V c).after 2 t) = _
  rw [after0_2]
  funext j
  rw [View.read_apply]
  show (outsAt0 V c t.val t.isLt).1 j = countsArr V c (((cfg0.win 2).blk t).view.emb j)
  rw [counts_at V c t.val t.isLt j, h7, zero_add]
  obtain ⟨e0, e1, e2, -, -, -⟩ := out_idx0 t
  have j0 : (j 0).val < 1 := (j 0).isLt
  have a0 : ((((cfg0.win 2).blk t).view.emb j) 0).val = t.val / 8 := by
    show win0_2.index t (0 : Fin 3) * 1 + 1 * (j 0).val = t.val / 8
    omega
  have a1 : (((cfg0.win 2).blk t).view.emb j) 1 = j 1 := Fin.ext (by
    show win0_2.index t (1 : Fin 3) * 5 + 1 * (j 1).val = (j 1).val
    omega)
  show _ = Cert.Loss.halfCnt (lV V c) ((((cfg0.win 2).blk t).view.emb j) 0) ((((cfg0.win 2).blk t).view.emb j) 1)
  unfold Cert.Loss.halfCnt
  rw [a0, a1]

/-- An index of the counts array is in point t's block iff each coordinate is in the block's range on its axis. -/
theorem mem_blk_counts (t : Fin cfg0.N) (i : S2x5x1.Idx) :
    i ∈ ((cfg0.win 2).blk t).view.set ↔ ∀ a : Fin 3, win0_2.index t a * S1x5x1.size a ≤ (i a).val ∧ (i a).val < win0_2.index t a * S1x5x1.size a + S1x5x1.size a := by
  show i ∈ ((View.whole main_v2_0).slice (win0_2.rect t)).set ↔ _
  rw [View.set_slice_whole, Rect.mem_set_unit]
  exact Iff.rfl

/-- Row h of the counts array is written back by the last point of half h. -/
theorem counts_cover (i : S2x5x1.Idx) : ∃ t : Fin cfg0.N, (cfg0.win 2).flush t = true ∧ i ∈ ((cfg0.win 2).blk t).view.set := by
  have i0 : (i 0).val < 2 := (i 0).isLt
  have i1 : (i 1).val < 5 := (i 1).isLt
  have i2 : (i 2).val < 1 := (i 2).isLt
  have hN : cfg0.N = 16 := N_0
  obtain ⟨t, ht⟩ : ∃ t : Fin cfg0.N, t.val = 8 * (i 0).val + 7 := ⟨⟨8 * (i 0).val + 7, by omega⟩, rfl⟩
  refine ⟨t, (flush0_2 t).mpr (by omega), ?_⟩
  rw [mem_blk_counts]
  obtain ⟨e0, e1, e2, -, -, -⟩ := out_idx0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5 ≤ (i 1).val ∧ (i 1).val < win0_2.index t (1 : Fin 3) * 5 + 5; omega
  | ⟨2, _⟩ => show win0_2.index t (2 : Fin 3) * 1 ≤ (i 2).val ∧ (i 2).val < win0_2.index t (2 : Fin 3) * 1 + 1; omega

/-- The counts array after the first pass: entry (h, k, 0) is half h's count of class k. -/
theorem counts_final (c : Dev nD) :
    ((dat0 V c).arrAt 2 cfg0.N : S2x5x1.Idx → Ideal .f32)
      = fun i => Cert.Loss.halfCnt (lV V c) (i 0) (i 1) :=
  (dat0 V c).arrAt_eq_of_cover 2 (countsArr V c) (counts_flushed V c) counts_cover

/-! ## The channel sums -/

/-- The channel-sums array the pass leaves. -/
abbrev sumsArr (c : Dev nD) : S2x5x4.Idx → Ideal .f32 :=
  fun i => Cert.Loss.halfSum (xV V c) (lV V c) (i 0) (i 1) (i 2)

/-- What a half's last point writes back is that half's rows of the channel-sums array. -/
theorem sums_flushed (c : Dev nD) (t : Fin cfg0.N) (hf : (cfg0.win 3).flush t = true) :
    (dat0 V c).flushed 3 t = ((cfg0.win 3).blk t).view.read (Elt Ideal) (sumsArr V c) := by
  have h7 : t.val % 8 = 7 := (flush0_3 t).mp hf
  show (cfg0.win 3).cut (grid0.coords t) ((dat0 V c).after 3 t) = _
  rw [after0_3]
  funext j
  rw [View.read_apply]
  show (outsAt0 V c t.val t.isLt).2 j = sumsArr V c (((cfg0.win 3).blk t).view.emb j)
  rw [sums_at V c t.val t.isLt j, h7, zero_add]
  obtain ⟨-, -, -, e0, e1, e2⟩ := out_idx0 t
  have j0 : (j 0).val < 1 := (j 0).isLt
  have a0 : ((((cfg0.win 3).blk t).view.emb j) 0).val = t.val / 8 := by
    show win0_3.index t (0 : Fin 3) * 1 + 1 * (j 0).val = t.val / 8
    omega
  have a1 : (((cfg0.win 3).blk t).view.emb j) 1 = j 1 := Fin.ext (by
    show win0_3.index t (1 : Fin 3) * 5 + 1 * (j 1).val = (j 1).val
    omega)
  have a2 : (((cfg0.win 3).blk t).view.emb j) 2 = j 2 := Fin.ext (by
    show win0_3.index t (2 : Fin 3) * 4 + 1 * (j 2).val = (j 2).val
    omega)
  show _ = Cert.Loss.halfSum (xV V c) (lV V c) ((((cfg0.win 3).blk t).view.emb j) 0)
    ((((cfg0.win 3).blk t).view.emb j) 1) ((((cfg0.win 3).blk t).view.emb j) 2)
  unfold Cert.Loss.halfSum
  rw [a0, a1, a2]

/-- An index of the channel-sums array is in point t's block iff each coordinate is in the block's range on its axis. -/
theorem mem_blk_sums (t : Fin cfg0.N) (i : S2x5x4.Idx) :
    i ∈ ((cfg0.win 3).blk t).view.set ↔ ∀ a : Fin 3, win0_3.index t a * S1x5x4.size a ≤ (i a).val ∧ (i a).val < win0_3.index t a * S1x5x4.size a + S1x5x4.size a := by
  show i ∈ ((View.whole main_v2_1).slice (win0_3.rect t)).set ↔ _
  rw [View.set_slice_whole, Rect.mem_set_unit]
  exact Iff.rfl

/-- Rows h of the channel-sums array are written back by the last point of half h. -/
theorem sums_cover (i : S2x5x4.Idx) : ∃ t : Fin cfg0.N, (cfg0.win 3).flush t = true ∧ i ∈ ((cfg0.win 3).blk t).view.set := by
  have i0 : (i 0).val < 2 := (i 0).isLt
  have i1 : (i 1).val < 5 := (i 1).isLt
  have i2 : (i 2).val < 4 := (i 2).isLt
  have hN : cfg0.N = 16 := N_0
  obtain ⟨t, ht⟩ : ∃ t : Fin cfg0.N, t.val = 8 * (i 0).val + 7 := ⟨⟨8 * (i 0).val + 7, by omega⟩, rfl⟩
  refine ⟨t, (flush0_3 t).mpr (by omega), ?_⟩
  rw [mem_blk_sums]
  obtain ⟨-, -, -, e0, e1, e2⟩ := out_idx0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 5 ≤ (i 1).val ∧ (i 1).val < win0_3.index t (1 : Fin 3) * 5 + 5; omega
  | ⟨2, _⟩ => show win0_3.index t (2 : Fin 3) * 4 ≤ (i 2).val ∧ (i 2).val < win0_3.index t (2 : Fin 3) * 4 + 4; omega

/-- The channel-sums array after the first pass: entry (h, k, ch) is half h's sum of channel ch over class k. -/
theorem sums_final (c : Dev nD) :
    ((dat0 V c).arrAt 3 cfg0.N : S2x5x4.Idx → Ideal .f32)
      = fun i => Cert.Loss.halfSum (xV V c) (lV V c) (i 0) (i 1) (i 2) :=
  (dat0 V c).arrAt_eq_of_cover 3 (sumsArr V c) (sums_flushed V c) sums_cover

end Cert.KernelIdeal.Val

end
-- ==== Proof.KRegion1Pix.lean ====
/-
  The second pass, pixel by pixel: what the body's arithmetic computes at one pixel of a tile.

  The body gathers, for every pixel, the table row its label selects, as a sum over the five classes of the row
  (a column of five numbers, spread along the pixels) times the class's one-hot row (spread along the five columns).
  Rows 0 to 3 of the gathered array are the centroid, row 4 the reciprocal divisor.  The squared distance of the pixel
  to the centroid is a sum over the four channels, the hinge is the positive part of its root minus the offset, and
  the pixel's term is the hinge squared times the gathered divisor entry.  The tile's total is the sum of the terms
  over the 131072 pixels, added to the block carried so far.
-/
import proofs.«415168_j88785563943727_3_alg».proof.Proof.Gen.KernelIdeal.Skeleton
import proofs.«415168_j88785563943727_3_alg».proof.Proof.Loss
import proofs.«415168_j88785563943727_3_alg».proof.Proof.KOneHot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val.Pass2

open Cert.KernelIdeal Cert.KernelIdeal.Val Cert.KernelIdeal.Gen Idealize.ShloMosaic Idealize.SL.Sem
open Idealize.ShloMosaic.ValueIdx

/-! ## Layout reads at explicit coordinates -/

section Layout
variable {α : Type}

/-- A row of five cast to a plain vector of five reads the row's entry. -/
theorem row5_cast_apply (x : S1x5.Idx → α) (h : S1x5.ShapeCasts S5) (j : Fin 5) :
    shapeCast S5 x h (ix1 j) = x (ix2 (0 : Fin 1) j) :=
  shapeCast_1a_a_apply x h j

/-- A vector of five cast to a column reads its entry, whatever the unit coordinate. -/
theorem col5_cast_apply (x : S5.Idx → α) (h : S5.ShapeCasts S5x1) (j : Fin 5) (u : Fin 1) :
    shapeCast S5x1 x h (ix2 j u) = x (ix1 j) :=
  shapeCast_apply x h _ _ (by
    have hu : u.val = 0 := by omega
    rw [Shape.rowMajor_val_two, Shape.rowMajor_val_one]
    show j.val = j.val * 1 + u.val
    omega)

/-- A column of five spread along the pixels reads, at row j, the column's entry j. -/
theorem col5_spread_apply (x : S5x1.Idx → α) (h : S5x1.Broadcasts S5x131072) (j : Fin 5) (p : Fin 131072) :
    broadcastTo S5x131072 x h (ix2 j p) = x (ix2 j (0 : Fin 1)) := by
  refine broadcastTo_apply x h (ix2 j p) (ix2 j (0 : Fin 1)) fun ax => ?_
  match ax with
  | ⟨0, _⟩ => rfl
  | ⟨1, _⟩ => rfl

/-- The three steps together: a row of five, turned into a column and spread along the pixels. -/
theorem row5_spread_apply (x : S1x5.Idx → α) (h1 : S1x5.ShapeCasts S5) (h2 : S5.ShapeCasts S5x1)
    (h3 : S5x1.Broadcasts S5x131072) (j : Fin 5) (p : Fin 131072) :
    broadcastTo S5x131072 (shapeCast S5x1 (shapeCast S5 x h1) h2) h3 (ix2 j p) = x (ix2 (0 : Fin 1) j) := by
  rw [col5_spread_apply, col5_cast_apply, row5_cast_apply]

/-- Row k of a five-row array, spread along five rows, reads row k at the pixel. -/
theorem row_spread_apply (k : Nat) (kf : Fin 5) (hk : kf.val = k) (x : S5x131072.Idx → α)
    (hs : S5x131072.Slices ![k, 0] S1x131072) (hb : S1x131072.Broadcasts S5x131072) (j : Fin 5) (p : Fin 131072) :
    broadcastTo S5x131072 (extractStridedSlice S1x131072 ![k, 0] x hs) hb (ix2 j p) = x (ix2 kf p) := by
  rw [broadcastTo_1b_ab_apply]
  exact slice2_axis0_apply k x hs (0 : Fin 1) p kf (by rw [hk]; rfl)

/-- Row k of the table, as a row of five. -/
theorem tbl_row_apply (k : Nat) (kf : Fin 5) (hk : kf.val = k) (x : S5x5.Idx → α)
    (hs : S5x5.Slices ![k, 0] S1x5) (j : Fin 5) :
    extractStridedSlice S1x5 ![k, 0] x hs (ix2 (0 : Fin 1) j) = x (ix2 kf j) :=
  slice2_axis0_apply k x hs (0 : Fin 1) j kf (by rw [hk]; rfl)

end Layout

/-! ## The gathered array -/

/-- The gathered array after four classes, at column j of pixel p: the zero splat plus, class by class, the
    table entry times the class's one-hot at the pixel. -/
theorem gathered4_apply (v3 : Vec Ideal S1x131072 .i32) (v12 : Vec Ideal S5x5 .f32) (j : Fin 5) (p : Fin 131072) :
    k1_pay6 (F := Ideal) v3 v12 (ix2 j p)
      = 0 + v12 (ix2 (0 : Fin 5) j) * k1_pay4 (F := Ideal) v3 (ix2 (0 : Fin 5) p)
          + v12 (ix2 (1 : Fin 5) j) * k1_pay4 (F := Ideal) v3 (ix2 (1 : Fin 5) p)
          + v12 (ix2 (2 : Fin 5) j) * k1_pay4 (F := Ideal) v3 (ix2 (2 : Fin 5) p)
          + v12 (ix2 (3 : Fin 5) j) * k1_pay4 (F := Ideal) v3 (ix2 (3 : Fin 5) p) := by
  unfold k1_pay6 k1_pay5
  simp only [addf_apply, mulf_apply, broadcast_apply, shapeCast_self, row5_spread_apply,
    row_spread_apply 0 0 rfl, row_spread_apply 1 1 rfl, row_spread_apply 2 2 rfl, row_spread_apply 3 3 rfl,
    tbl_row_apply 0 0 rfl, tbl_row_apply 1 1 rfl, tbl_row_apply 2 2 rfl, tbl_row_apply 3 3 rfl,
    Ideal.ofBits_def, Ideal.ofBits_zero_f32]

/-- The finished table row 4, as the body slices it. -/
theorem row4_apply (v12 : Vec Ideal S5x5 .f32) (j : Fin 5) :
    k1_pay7 (F := Ideal) v12 (ix2 (0 : Fin 1) j) = v12 (ix2 (4 : Fin 5) j) := by
  unfold k1_pay7 k1_pay5
  simp only [shapeCast_self, tbl_row_apply 4 4 rfl]

/-! ## More layout reads -/

section Layout2
variable {α : Type}

/-- Rows 0 to 3 of a five-row array. -/
theorem rows03_apply (x : S5x131072.Idx → α) (h : S5x131072.Slices ![0, 0] S4x131072) (ch : Fin 4) (p : Fin 131072) :
    extractStridedSlice S4x131072 ![0, 0] x h (ix2 ch p) = x (ix2 ch.castSucc p) :=
  slice2_axis0_apply 0 x h ch p ch.castSucc (by rw [Fin.val_castSucc, Nat.zero_add])

/-- Row 4 of a five-row array, as a one-row array. -/
theorem row4of5_apply (x : S5x131072.Idx → α) (h : S5x131072.Slices ![4, 0] S1x131072) (u : Fin 1) (p : Fin 131072) :
    extractStridedSlice S1x131072 ![4, 0] x h (ix2 u p) = x (ix2 (4 : Fin 5) p) :=
  slice2_axis0_apply 4 x h u p (4 : Fin 5) (by have hu : u.val = 0 := by omega
                                               rw [hu]; rfl)

/-- A one-by-one array spread along the pixels reads its one entry. -/
theorem one_spread_apply (x : S1x1.Idx → α) (h : S1x1.Broadcasts S1x131072) (u : Fin 1) (p : Fin 131072) :
    broadcastTo S1x131072 x h (ix2 u p) = x (ix2 (0 : Fin 1) (0 : Fin 1)) := by
  refine broadcastTo_apply x h (ix2 u p) (ix2 (0 : Fin 1) (0 : Fin 1)) fun ax => ?_
  match ax with
  | ⟨0, _⟩ => rfl
  | ⟨1, _⟩ => rfl

end Layout2

/-! ## The two sums -/

/-- Inserting the channel on axis 0 of a pixel index. -/
theorem chan_lift (h : S4x131072.Reduces [0] S131072) (p : Fin 131072) (ch : Fin 4) :
    h.lift (ix1 p) ch = ix2 ch p := by
  funext c; apply Fin.ext
  match c with
  | ⟨0, _⟩ => rfl
  | ⟨1, _⟩ => rfl

/-- Inserting the pixel on axis 1 of the one-entry index. -/
theorem lane_lift (h : S1x131072.Reduces [1] S1) (u : Fin 1) (p : Fin 131072) :
    h.lift (ix1 u) p = ix2 u p := by
  funext c; apply Fin.ext
  match c with
  | ⟨0, _⟩ => rfl
  | ⟨1, _⟩ => rfl

/-- The sum over the four channels at a pixel. -/
theorem chan_sum_apply (x : FVec Ideal S4x131072 .f32) (h : S4x131072.Reduces [0] S131072)
    (hφ : FTy.f32 = FTy.f32 ∨ FTy.f32 = FTy.bf16) (hacc : (0x00000000#32 : BitVec FTy.f32.bits) = 0x00000000#32) (p : Fin 131072) :
    multiReduction .add [0] S131072 x 0x00000000#32 h hφ hacc (ix1 p) = ∑ ch : Fin 4, x (ix2 ch p) :=
  (Ideal.multiReduction_add_single x 0x00000000#32 h hφ hacc (ix1 p)).trans
    (Finset.sum_congr rfl fun ch _ => congrArg x (chan_lift h p ch))

/-- The sum over the pixels of a one-row array. -/
theorem lane_sum_apply (x : FVec Ideal S1x131072 .f32) (h : S1x131072.Reduces [1] S1)
    (hφ : FTy.f32 = FTy.f32 ∨ FTy.f32 = FTy.bf16) (hacc : (0x00000000#32 : BitVec FTy.f32.bits) = 0x00000000#32) (u : Fin 1) :
    multiReduction .add [1] S1 x 0x00000000#32 h hφ hacc (ix1 u) = ∑ p : Fin 131072, x (ix2 u p) :=
  (Ideal.multiReduction_add_single x 0x00000000#32 h hφ hacc (ix1 u)).trans
    (Finset.sum_congr rfl fun p _ => congrArg x (lane_lift h u p))

/-! ## One pixel's term, over the body's intermediate arrays -/

/-- Column j of the finished gathered array at pixel p: the four classes gathered so far plus the fifth. -/
def gcol (v11 v46 : FVec Ideal S5x131072 .f32) (v47 : FVec Ideal S1x5 .f32) (j : Fin 5) (p : Fin 131072) : EReal :=
  v46 (ix2 j p) + v47 (ix2 (0 : Fin 1) j) * v11 (ix2 (4 : Fin 5) p)

/-- The squared distance at pixel p: over the four channels, gathered centroid minus pixel, squared. -/
def pdsq (v6 : FVec Ideal S4x131072 .f32) (v11 v46 : FVec Ideal S5x131072 .f32) (v47 : FVec Ideal S1x5 .f32)
    (p : Fin 131072) : EReal :=
  ∑ ch : Fin 4, (gcol v11 v46 v47 ch.castSucc p - v6 (ix2 ch p)) * (gcol v11 v46 v47 ch.castSucc p - v6 (ix2 ch p))

/-- Pixel p's term: the hinge squared times the gathered divisor entry. -/
def pterm (v6 : FVec Ideal S4x131072 .f32) (v11 v46 : FVec Ideal S5x131072 .f32) (v47 : FVec Ideal S1x5 .f32)
    (v61 : Vec Ideal S1x1 .f32) (p : Fin 131072) : EReal :=
  Cert.Loss.hingeK (pdsq v6 v11 v46 v47 p) (v61 (ix2 (0 : Fin 1) (0 : Fin 1)))
    * Cert.Loss.hingeK (pdsq v6 v11 v46 v47 p) (v61 (ix2 (0 : Fin 1) (0 : Fin 1)))
    * gcol v11 v46 v47 4 p

/-- The block the point stores: the carried entry plus the sum of the tile's pixel terms. -/
theorem tile_total_apply (v6 : FVec Ideal S4x131072 .f32) (v11 v46 : FVec Ideal S5x131072 .f32)
    (v47 : FVec Ideal S1x5 .f32) (v61 : Vec Ideal S1x1 .f32) (v72 : Vec Ideal S1x1x1 .f32) :
    k1_pay1 (F := Ideal) v6 v11 v46 v47 v61 v72 (ix3 (0 : Fin 1) (0 : Fin 1) (0 : Fin 1))
      = v72 (ix3 (0 : Fin 1) (0 : Fin 1) (0 : Fin 1)) + ∑ p : Fin 131072, pterm v6 v11 v46 v47 v61 p := by
  unfold k1_pay1
  refine (shapeCast_ab_1ab_apply _ _ 0 0 0).trans ?_
  refine congrArg₂ (· + ·) (shapeCast_1ab_ab_apply _ _ 0 0) ?_
  refine (shapeCast_a_1a_apply _ _ 0 0).trans ?_
  refine (lane_sum_apply _ _ _ _ 0).trans ?_
  refine Finset.sum_congr rfl fun p _ => ?_
  have hS : ∀ u : Fin 1, shapeCast S1x131072
      (multiReduction .add [0] S131072
        (mulf (subf (extractStridedSlice S4x131072 ![0, 0]
            (addf v46 (mulf (broadcastTo S5x131072 (shapeCast S5x1 (shapeCast S5 v47 shapeCasts_S1x5_S5) shapeCasts_S5_S5x1) broadcasts_S5x1_S5x131072)
              (broadcastTo S5x131072 (extractStridedSlice S1x131072 ![4, 0] v11 slices_S5x131072_o4_0_S1x131072) broadcasts_S1x131072_S5x131072)))
            slices_S5x131072_o0_0_S4x131072) v6)
          (subf (extractStridedSlice S4x131072 ![0, 0]
            (addf v46 (mulf (broadcastTo S5x131072 (shapeCast S5x1 (shapeCast S5 v47 shapeCasts_S1x5_S5) shapeCasts_S5_S5x1) broadcasts_S5x1_S5x131072)
              (broadcastTo S5x131072 (extractStridedSlice S1x131072 ![4, 0] v11 slices_S5x131072_o4_0_S1x131072) broadcasts_S1x131072_S5x131072)))
            slices_S5x131072_o0_0_S4x131072) v6))
        0x00000000#32 reduces_S4x131072_S131072 (.inl rfl) rfl) shapeCasts_S131072_S1x131072 (ix2 u p)
      = pdsq v6 v11 v46 v47 p := fun u => by
    refine (shapeCast_a_1a_apply _ _ u p).trans ?_
    refine (chan_sum_apply _ _ _ _ p).trans ?_
    refine Finset.sum_congr rfl fun ch _ => ?_
    simp only [mulf_apply, subf_apply, addf_apply, rows03_apply, row5_spread_apply, row_spread_apply 4 4 rfl, gcol]
  have sqrt_apply : ∀ (x : FVec Ideal S1x131072 .f32) (i : S1x131072.Idx), sqrt x i = Ideal.sqrt (x i) := fun _ _ => rfl
  simp only [mulf_apply, maximumf_apply, subf_apply, addf_apply, broadcast_apply, row4of5_apply, one_spread_apply,
    shapeCast_self, row5_spread_apply, row_spread_apply 4 4 rfl, sqrt_apply, hS, Ideal.ofBits_def, Ideal.ofBits_zero_f32,
    pterm, Cert.Loss.hingeK, gcol]

/-! ## The term in the vocabulary of the loss -/

/-- The finished gathered array is the table row the label selects, summed class by class. -/
theorem gcol_eq_gath (v3 : Vec Ideal S1x131072 .i32) (v12 : Vec Ideal S5x5 .f32) (j : Fin 5) (p : Fin 131072) :
    gcol (k1_pay4 (F := Ideal) v3) (k1_pay6 (F := Ideal) v3 v12) (k1_pay7 (F := Ideal) v12) j p
      = Cert.Loss.gath (fun k j => v12 (ix2 k j)) (v3 (ix2 (0 : Fin 1) p)) j := by
  unfold gcol Cert.Loss.gath
  rw [gathered4_apply, row4_apply]
  simp only [onehot1_apply]

/-- A pixel's term is the loss's weighted squared hinge of the pixel against the table. -/
theorem pterm_eq_pixK (v3 : Vec Ideal S1x131072 .i32) (v5 : Vec Ideal S4x131072 .f32) (v12 : Vec Ideal S5x5 .f32)
    (v61 : Vec Ideal S1x1 .f32) (p : Fin 131072) :
    pterm (k1_pay3 (F := Ideal) v5) (k1_pay4 (F := Ideal) v3) (k1_pay6 (F := Ideal) v3 v12) (k1_pay7 (F := Ideal) v12) v61 p
      = Cert.Loss.pixK (fun k j => v12 (ix2 k j)) (v61 (ix2 (0 : Fin 1) (0 : Fin 1))) (fun ch => v5 (ix2 ch p))
          (v3 (ix2 (0 : Fin 1) p)) := by
  unfold pterm pdsq Cert.Loss.pixK Cert.Loss.dsqK k1_pay3
  simp only [gcol_eq_gath, shapeCast_self]

/-- The block a point stores, over the blocks it loads: the carried entry plus the tile's total. -/
theorem tile_total (v3 : Vec Ideal S1x131072 .i32) (v5 : Vec Ideal S4x131072 .f32) (v12 : Vec Ideal S5x5 .f32)
    (v61 : Vec Ideal S1x1 .f32) (v72 : Vec Ideal S1x1x1 .f32) :
    k1_pay1 (F := Ideal) (k1_pay3 (F := Ideal) v5) (k1_pay4 (F := Ideal) v3) (k1_pay6 (F := Ideal) v3 v12)
        (k1_pay7 (F := Ideal) v12) v61 v72 (ix3 (0 : Fin 1) (0 : Fin 1) (0 : Fin 1))
      = v72 (ix3 (0 : Fin 1) (0 : Fin 1) (0 : Fin 1))
        + ∑ p : Fin 131072, Cert.Loss.pixK (fun k j => v12 (ix2 k j)) (v61 (ix2 (0 : Fin 1) (0 : Fin 1)))
            (fun ch => v5 (ix2 ch p)) (v3 (ix2 (0 : Fin 1) p)) := by
  rw [tile_total_apply]
  exact congrArg _ (Finset.sum_congr rfl fun p _ => pterm_eq_pixK v3 v5 v12 v61 p)

/-- The zero block a half's first point stores. -/
theorem zero_block_apply : k1_pay2 (F := Ideal) (ix3 (0 : Fin 1) (0 : Fin 1) (0 : Fin 1)) = 0 := by
  unfold k1_pay2
  simp only [shapeCast_ab_1ab_apply, broadcast_apply, Ideal.ofBits_def, Ideal.ofBits_zero_f32]

end Cert.KernelIdeal.Val.Pass2

end
-- ==== Proof.KRegion1Out.lean ====
/-
  The second pass, point by point: what one run of the body leaves in the output's one-entry block.

  At a half's first point the body first stores the zero block, then loads it back and stores the zero plus the
  tile's total; at every other point it loads the block the point before left and stores that plus the tile's total.
-/
import proofs.«415168_j88785563943727_3_alg».proof.Proof.KArrays
import Idealize.ShloMosaic.Lib.Pipeline.Value

noncomputable section

namespace Cert.KernelIdeal.Val.Pass2

open Cert.KernelIdeal Cert.KernelIdeal.Val Cert.KernelIdeal.Gen Idealize.ShloMosaic Idealize.ShloMosaic.TcCoe Idealize.SL.Sem
open Idealize.ShloMosaic.ValueIdx Idealize.ShloMosaic.Tactic

theorem zeros3 : (![0, 0, 0] : Fin 3 → Nat) = fun _ => 0 := funext fun a => by fin_cases a <;> rfl
theorem zeros2 : (![0, 0] : Fin 2 → Nat) = fun _ => 0 := funext fun a => by fin_cases a <;> rfl

/-- A point that is not a half's first: the block carried from the point before, plus the tile's total. -/
theorem out_carry (c : Dev nD) (i : grid1.Coords) (arg2 : Memref sig .tc .vmem S4x131072 .f32) (harg2 : arg2.IsWhole)
    (arg3 : Memref sig .tc .vmem S1x131072 .i32) (harg3 : arg3.IsWhole) (arg4 : Memref sig .tc .vmem S5x5 .f32)
    (harg4 : arg4.IsWhole) (arg5 : Memref sig .tc .vmem S1x1 .f32) (harg5 : arg5.IsWhole)
    (arg6 : Memref sig .tc .vmem S1x1x1 .f32) (harg6 : arg6.IsWhole) (hc0 : ¬cond1_0 i)
    (x0 : Vec Ideal S4x131072 .f32) (x1 : Vec Ideal S1x131072 .i32) (x2 : Vec Ideal S5x5 .f32)
    (x3 : Vec Ideal S1x1 .f32) (xo4 : Vec Ideal S1x1x1 .f32) :
    out1_B_4 (F := Ideal) c i arg2 harg2 arg3 harg3 arg4 harg4 arg5 harg5 arg6 harg6 hc0 x0 x1 x2 x3 xo4
      = k1_pay1 (F := Ideal) (k1_pay3 (F := Ideal) x0) (k1_pay4 (F := Ideal) x1) (k1_pay6 (F := Ideal) x1 x2)
          (k1_pay7 (F := Ideal) x2) x3 xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero (S := S1x1x1) zeros3]
  simp only [View.readAt_eq_ld, harg2.read_unread, harg3.read_unread, harg4.read_unread, harg5.read_unread,
    harg6.read_unread, View.ld_unit_zero (S := S4x131072) zeros2, View.ld_unit_zero (S := S1x131072) zeros2,
    View.ld_unit_zero (S := S5x5) zeros2, View.ld_unit_zero (S := S1x1) zeros2,
    View.ld_unit_zero (S := S1x1x1) zeros3]

/-- A half's first point: the zero block, plus the tile's total. -/
theorem out_reset (c : Dev nD) (i : grid1.Coords) (arg2 : Memref sig .tc .vmem S4x131072 .f32) (harg2 : arg2.IsWhole)
    (arg3 : Memref sig .tc .vmem S1x131072 .i32) (harg3 : arg3.IsWhole) (arg4 : Memref sig .tc .vmem S5x5 .f32)
    (harg4 : arg4.IsWhole) (arg5 : Memref sig .tc .vmem S1x1 .f32) (harg5 : arg5.IsWhole)
    (arg6 : Memref sig .tc .vmem S1x1x1 .f32) (harg6 : arg6.IsWhole) (hc0 : cond1_0 i)
    (x0 : Vec Ideal S4x131072 .f32) (x1 : Vec Ideal S1x131072 .i32) (x2 : Vec Ideal S5x5 .f32)
    (x3 : Vec Ideal S1x1 .f32) :
    out1_A_4 (F := Ideal) c i arg2 harg2 arg3 harg3 arg4 harg4 arg5 harg5 arg6 harg6 hc0 x0 x1 x2 x3
      = k1_pay1 (F := Ideal) (k1_pay3 (F := Ideal) x0) (k1_pay4 (F := Ideal) x1) (k1_pay6 (F := Ideal) x1 x2)
          (k1_pay7 (F := Ideal) x2) x3 (k1_pay2 (F := Ideal)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x1x1) zeros3, View.readCov_unit_zero (S := S1x1x1) _ zeros3]
  simp only [View.readAt_eq_ld, harg2.read_unread, harg3.read_unread, harg4.read_unread, harg5.read_unread,
    View.ld_unit_zero (S := S4x131072) zeros2, View.ld_unit_zero (S := S1x131072) zeros2,
    View.ld_unit_zero (S := S5x5) zeros2, View.ld_unit_zero (S := S1x1) zeros2]

end Cert.KernelIdeal.Val.Pass2

end
-- ==== Proof.KRegion1.lean ====
/-
  The second pass: what the output array holds after the run.

  Point t works on tile t; a half is eight consecutive points sharing one 1×1 output block, zeroed at the half's
  first point.  Each point gathers, per pixel, the table row its label selects (the sum over the five classes of the
  row times the one-hot), takes the squared distance of the pixel to the gathered centroid, the squared hinge of
  its root against the offset, weights it by the gathered reciprocal divisor, and adds the tile's total to the
  block.  Entry (h, 0, 0) of the array is the sum of half h's eight tile totals.
-/
import proofs.«415168_j88785563943727_3_alg».proof.Proof.KArrays
import proofs.«415168_j88785563943727_3_alg».proof.Proof.KRegion1Pix
import proofs.«415168_j88785563943727_3_alg».proof.Proof.KRegion1Out
import Idealize.ShloMosaic.Lib.Pipeline.Value
import Idealize.ShloMosaic.PureOps.Ideal.Laws

noncomputable section

namespace Cert.KernelIdeal.Val.Pass2

open Cert.KernelIdeal Cert.KernelIdeal.Val Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The blocks a point loads, at their literal types -/

/-- The pixel block of point t: four channels of the tile's 131072 pixels. -/
abbrev xblk (c : Dev nD) (t : Fin cfg1.N) : Vec Ideal S4x131072 .f32 := iblk1 V c 0 t
/-- The label block of point t. -/
abbrev lblk (c : Dev nD) (t : Fin cfg1.N) : Vec Ideal S1x131072 .i32 := iblk1 V c 1 t
/-- The table, whole at every point. -/
abbrev tblk (c : Dev nD) (t : Fin cfg1.N) : Vec Ideal S5x5 .f32 := iblk1 V c 2 t
/-- The hinge offset, whole at every point. -/
abbrev dblk (c : Dev nD) (t : Fin cfg1.N) : Vec Ideal S1x1 .f32 := iblk1 V c 3 t
/-- What the output block holds after point n. -/
abbrev oblk (c : Dev nD) (n : ℕ) (h : n < cfg1.N) : Vec Ideal S1x1x1 .f32 := outsAt1 V c n h

/-- The index maps, decided once over the grid: the pixel and label blocks move along the pixels with the point,
    the table and the offset stay, the output block is the half's. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 8 ∧ win1_4.index t (1 : Fin 3) = 0 ∧ win1_4.index t (2 : Fin 3) = 0 :=
  (by decide +kernel : ∀ t : Fin grid1.N, _)

/-- Pixel p of tile T as a number. -/
theorem pix_val (T : ℕ) (hT : T < 16) (p : Fin 131072) : (Cert.Loss.pix T p).val = T * 131072 + p.val := by
  unfold Cert.Loss.pix
  rw [dif_pos hT]

/-- The pixel block at an index is the pixel table at the tile's pixel. -/
theorem xblk_apply (c : Dev nD) (t : Fin cfg1.N) (ch : Fin 4) (p : Fin 131072) :
    xblk V c t (ix2 ch p) = xV V c ch (Cert.Loss.pix t.val p) := by
  have hN : t.val < 16 := lt_of_lt_of_eq t.isLt N_1
  obtain ⟨e0, e1, -⟩ := idx_facts t
  unfold xblk iblk1 xV
  rw [View.read_apply]
  show V c main_v0 _ = V c main_v0 _
  congr 1
  funext a
  apply Fin.ext
  match a with
  | ⟨0, _⟩ => show win1_0.index t (0 : Fin 2) * 4 + 1 * ch.val = ch.val; rw [e0]; omega
  | ⟨1, _⟩ => show win1_0.index t (1 : Fin 2) * 131072 + 1 * p.val = (Cert.Loss.pix t.val p).val
              rw [e1, pix_val _ hN]; omega

/-- The label block at an index is the label array at the tile's pixel. -/
theorem lblk_apply (c : Dev nD) (t : Fin cfg1.N) (p : Fin 131072) :
    lblk V c t (ix2 (0 : Fin 1) p) = lV V c (Cert.Loss.pix t.val p) := by
  have hN : t.val < 16 := lt_of_lt_of_eq t.isLt N_1
  obtain ⟨-, -, e0, e1, -⟩ := idx_facts t
  unfold lblk iblk1 lV
  rw [View.read_apply]
  show V c main_v1 _ = V c main_v1 _
  congr 1
  funext a
  apply Fin.ext
  match a with
  | ⟨0, _⟩ => show win1_1.index t (0 : Fin 2) * 1 + 1 * 0 = 0; rw [e0]
  | ⟨1, _⟩ => show win1_1.index t (1 : Fin 2) * 131072 + 1 * p.val = (Cert.Loss.pix t.val p).val
              rw [e1, pix_val _ hN]; omega

/-- The table block is the table. -/
theorem tblk_apply (c : Dev nD) (t : Fin cfg1.N) (k j : Fin 5) : tblk V c t (ix2 k j) = tV V c k j := by
  obtain ⟨-, -, -, -, e0, e1, -⟩ := idx_facts t
  unfold tblk iblk1 tV
  rw [View.read_apply]
  show V c main_v13 _ = V c main_v13 _
  congr 1
  funext a
  apply Fin.ext
  match a with
  | ⟨0, _⟩ => show win1_2.index t (0 : Fin 2) * 5 + 1 * k.val = k.val; rw [e0]; omega
  | ⟨1, _⟩ => show win1_2.index t (1 : Fin 2) * 5 + 1 * j.val = j.val; rw [e1]; omega

/-- The offset block is the offset. -/
theorem dblk_apply (c : Dev nD) (t : Fin cfg1.N) : dblk V c t (ix2 (0 : Fin 1) (0 : Fin 1)) = dvV V c := by
  obtain ⟨-, -, -, -, -, -, e0, e1, -⟩ := idx_facts t
  unfold dblk iblk1 dvV
  rw [View.read_apply]
  show V c main_v14 _ = V c main_v14 _
  congr 1
  funext a
  apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-! ## One point -/

/-- Tile n's total: the sum of its pixels' weighted squared hinges. -/
abbrev tvar (c : Dev nD) (n : ℕ) : EReal := Cert.Loss.tileVar (xV V c) (lV V c) (tV V c) (dvV V c) n

/-- What point t stores over a block o: o's entry plus tile t's total. -/
theorem point_total (c : Dev nD) (t : Fin cfg1.N) (o : Vec Ideal S1x1x1 .f32) :
    k1_pay1 (F := Ideal) (k1_pay3 (F := Ideal) (xblk V c t)) (k1_pay4 (F := Ideal) (lblk V c t))
        (k1_pay6 (F := Ideal) (lblk V c t) (tblk V c t)) (k1_pay7 (F := Ideal) (tblk V c t)) (dblk V c t) o
        (ix3 (0 : Fin 1) (0 : Fin 1) (0 : Fin 1))
      = o (ix3 (0 : Fin 1) (0 : Fin 1) (0 : Fin 1)) + tvar V c t.val := by
  refine (tile_total (lblk V c t) (xblk V c t) (tblk V c t) (dblk V c t) o).trans ?_
  refine congrArg _ ?_
  unfold tvar Cert.Loss.tileVar
  refine Finset.sum_congr rfl fun p _ => ?_
  have hm : (fun k j => tblk V c t (ix2 k j)) = tV V c := funext fun k => funext fun j => tblk_apply V c t k j
  have hx : (fun ch => xblk V c t (ix2 ch p)) = fun ch => xV V c ch (Cert.Loss.pix t.val p) :=
    funext fun ch => xblk_apply V c t ch p
  rw [hm, hx, dblk_apply V c t, lblk_apply V c t p]

/-- A half's first point leaves zero plus its tile's total. -/
theorem oblk_reset (c : Dev nD) (t : Fin cfg1.N) (h0 : t.val % 8 = 0) :
    oblk V c t.val t.isLt (ix3 (0 : Fin 1) (0 : Fin 1) (0 : Fin 1)) = 0 + tvar V c t.val := by
  show outsAt1 V c t.val t.isLt _ = _
  rw [outsAt1_A V c t h0]
  refine (congrFun (out_reset c (grid1.coords t) (ms1_0 t) (hs1_0 t) (ms1_1 t) (hs1_1 t) (ms1_2 t) (hs1_2 t)
    (ms1_3 t) (hs1_3 t) (ms1_4 t) (hs1_4 t) ((hcond1_0 t).mpr h0) (xblk V c t) (lblk V c t) (tblk V c t) (dblk V c t))
    (ix3 (0 : Fin 1) (0 : Fin 1) (0 : Fin 1))).trans ?_
  refine (point_total V c t (k1_pay2 (F := Ideal))).trans ?_
  rw [zero_block_apply]

/-- Every other point adds its tile's total to what the point before left. -/
theorem oblk_step (c : Dev nD) (t : Fin cfg1.N) (h0 : ¬t.val % 8 = 0) :
    oblk V c t.val t.isLt (ix3 (0 : Fin 1) (0 : Fin 1) (0 : Fin 1))
      = oblk V c (t.val - 1) (Nat.lt_of_le_of_lt (Nat.sub_le _ _) t.isLt) (ix3 (0 : Fin 1) (0 : Fin 1) (0 : Fin 1))
        + tvar V c t.val := by
  show outsAt1 V c t.val t.isLt _ = _
  rw [outsAt1_B V c t h0]
  refine (congrFun (out_carry c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (xblk V c t) (lblk V c t) (tblk V c t)
    (dblk V c t) (oblk V c (t.val - 1) (Nat.lt_of_le_of_lt (Nat.sub_le _ _) t.isLt)))
    (ix3 (0 : Fin 1) (0 : Fin 1) (0 : Fin 1))).trans ?_
  exact point_total V c t (oblk V c (t.val - 1) (Nat.lt_of_le_of_lt (Nat.sub_le _ _) t.isLt))

/-! ## A half's eight points -/

/-- The block after a point does not depend on how the point's number is written. -/
theorem oblk_congr (c : Dev nD) (u v : ℕ) (hu : u < cfg1.N) (hv : v < cfg1.N) (e : u = v) :
    oblk V c u hu = oblk V c v hv := by subst e; rfl

/-- After the point at offset j of half q the block holds zero plus the totals of the half's tiles so far:
    by induction on the offset, the first point resetting and each later one adding. -/
theorem oblk_fold (c : Dev nD) (q : ℕ) : ∀ (j : ℕ) (_ : j < 8) (h : 8 * q + j < cfg1.N),
    oblk V c (8 * q + j) h (ix3 (0 : Fin 1) (0 : Fin 1) (0 : Fin 1))
      = 0 + ∑ r ∈ Finset.range (j + 1), tvar V c (8 * q + r)
  | 0, _, h => by
    rw [Finset.sum_range_one]
    exact oblk_reset V c ⟨8 * q + 0, h⟩ (by show (8 * q + 0) % 8 = 0; omega)
  | j + 1, hj, h => by
    have hB : oblk V c (8 * q + (j + 1)) h (ix3 (0 : Fin 1) (0 : Fin 1) (0 : Fin 1))
        = oblk V c (8 * q + (j + 1) - 1) (Nat.lt_of_le_of_lt (Nat.sub_le _ _) h) (ix3 (0 : Fin 1) (0 : Fin 1) (0 : Fin 1))
          + tvar V c (8 * q + (j + 1)) :=
      oblk_step V c ⟨8 * q + (j + 1), h⟩ (by show ¬(8 * q + (j + 1)) % 8 = 0; omega)
    have ih := oblk_fold c q j (by omega) (Nat.lt_of_succ_lt h)
    rw [hB, oblk_congr V c (8 * q + (j + 1) - 1) (8 * q + j) _ (Nat.lt_of_succ_lt h) (by omega), ih,
      Finset.sum_range_succ _ (j + 1)]
    exact add_assoc _ _ _

/-- Every index of a one-entry block is its one index. -/
theorem idx111 (y : S1x1x1.Idx) : y = ix3 (0 : Fin 1) (0 : Fin 1) (0 : Fin 1) :=
  funext fun a => Fin.ext (by
    match a with
    | ⟨0, _⟩ => have h : (y 0).val < 1 := (y 0).isLt
                show (y 0).val = 0; omega
    | ⟨1, _⟩ => have h : (y 1).val < 1 := (y 1).isLt
                show (y 1).val = 0; omega
    | ⟨2, _⟩ => have h : (y 2).val < 1 := (y 2).isLt
                show (y 2).val = 0; omega)

/-- At a half's last point the block holds the half's total. -/
theorem oblk_last (c : Dev nD) (t : Fin cfg1.N) (h7 : t.val % 8 = 7) (hq : t.val / 8 < 2) (y : S1x1x1.Idx) :
    oblk V c t.val t.isLt y
      = Cert.Loss.halfVar (xV V c) (lV V c) (tV V c) (dvV V c) ⟨t.val / 8, hq⟩ := by
  have hN : t.val < 16 := lt_of_lt_of_eq t.isLt N_1
  have ht : 8 * (t.val / 8) + 7 = t.val := by omega
  rw [idx111 y, oblk_congr V c t.val (8 * (t.val / 8) + 7) t.isLt (by rw [ht]; exact t.isLt) ht.symm,
    oblk_fold V c (t.val / 8) 7 (by omega), zero_add]
  rfl

/-! ## The array after the run -/

/-- The array the run leaves: entry (h, 0, 0) is half h's total. -/
abbrev halves (c : Dev nD) : S2x1x1.Idx → Ideal .f32 :=
  fun i => Cert.Loss.halfVar (xV V c) (lV V c) (tV V c) (dvV V c) (i 0)

/-- What a half's last point writes back is that half's entry of the array. -/
theorem flushed_eq (c : Dev nD) (t : Fin cfg1.N) (hf : (cfg1.win 4).flush t = true) :
    (dat1 V c).flushed 4 t = ((cfg1.win 4).blk t).view.read (Elt Ideal) (halves V c) := by
  have h7 : t.val % 8 = 7 := (flush1_4 t).mp hf
  have hN : t.val < 16 := lt_of_lt_of_eq t.isLt N_1
  obtain ⟨-, -, -, -, -, -, -, -, e0, e1, e2⟩ := idx_facts t
  show (cfg1.win 4).cut (grid1.coords t) ((dat1 V c).after 4 t) = _
  rw [after1_4]
  funext y
  rw [View.read_apply]
  refine (oblk_last V c t h7 (by omega) y).trans ?_
  show _ = Cert.Loss.halfVar (xV V c) (lV V c) (tV V c) (dvV V c) ((((cfg1.win 4).blk t).view.emb y) 0)
  refine congrArg _ (Fin.ext ?_)
  have hy : (y 0).val < 1 := (y 0).isLt
  show t.val / 8 = win1_4.index t (0 : Fin 3) * 1 + 1 * (y 0).val
  rw [e0]; omega

/-- An index of the array is in point t's block iff each coordinate is in the block's range on its axis. -/
theorem mem_blk (t : Fin cfg1.N) (i : S2x1x1.Idx) :
    i ∈ ((cfg1.win 4).blk t).view.set
      ↔ ∀ a : Fin 3, win1_4.index t a * S1x1x1.size a ≤ (i a).val ∧ (i a).val < win1_4.index t a * S1x1x1.size a + S1x1x1.size a := by
  show i ∈ ((View.whole main_v15).slice (win1_4.rect t)).set ↔ _
  rw [View.set_slice_whole, Rect.mem_set_unit]
  exact Iff.rfl

/-- Entry (h, 0, 0) is written back by the last point of half h. -/
theorem covered (i : S2x1x1.Idx) :
    ∃ t : Fin cfg1.N, (cfg1.win 4).flush t = true ∧ i ∈ ((cfg1.win 4).blk t).view.set := by
  have h0 : (i 0).val < 2 := (i 0).isLt
  have h1 : (i 1).val < 1 := (i 1).isLt
  have h2 : (i 2).val < 1 := (i 2).isLt
  have hlt : 8 * (i 0).val + 7 < cfg1.N := by rw [show cfg1.N = 16 from N_1]; omega
  refine ⟨⟨8 * (i 0).val + 7, hlt⟩, (flush1_4 _).mpr (by show (8 * (i 0).val + 7) % 8 = 7; omega), ?_⟩
  obtain ⟨-, -, -, -, -, -, -, -, e0, e1, e2⟩ := idx_facts ⟨8 * (i 0).val + 7, hlt⟩
  rw [mem_blk]
  intro a
  match a with
  | ⟨0, _⟩ => show win1_4.index ⟨8 * (i 0).val + 7, hlt⟩ (0 : Fin 3) * 1 ≤ (i 0).val ∧ (i 0).val < win1_4.index ⟨8 * (i 0).val + 7, hlt⟩ (0 : Fin 3) * 1 + 1
              rw [e0]; show (8 * (i 0).val + 7) / 8 * 1 ≤ (i 0).val ∧ (i 0).val < (8 * (i 0).val + 7) / 8 * 1 + 1; omega
  | ⟨1, _⟩ => show win1_4.index ⟨8 * (i 0).val + 7, hlt⟩ (1 : Fin 3) * 1 ≤ (i 1).val ∧ (i 1).val < win1_4.index ⟨8 * (i 0).val + 7, hlt⟩ (1 : Fin 3) * 1 + 1
              rw [e1]; omega
  | ⟨2, _⟩ => show win1_4.index ⟨8 * (i 0).val + 7, hlt⟩ (2 : Fin 3) * 1 ≤ (i 2).val ∧ (i 2).val < win1_4.index ⟨8 * (i 0).val + 7, hlt⟩ (2 : Fin 3) * 1 + 1
              rw [e2]; omega

/-- The output array after the second pass: entry (h, 0, 0) is half h's weighted squared-hinge total. -/
theorem var_final (c : Dev nD) :
    ((dat1 V c).arrAt 4 cfg1.N : S2x1x1.Idx → Ideal .f32)
      = fun i => Cert.Loss.halfVar (xV V c) (lV V c) (tV V c) (dvV V c) (i 0) :=
  (dat1 V c).arrAt_eq_of_cover 4 (halves V c) (flushed_eq V c) covered

end Cert.KernelIdeal.Val.Pass2

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- The output array after the second pass: entry (h, 0, 0) is half h's weighted squared-hinge total. -/
theorem var_final (V : (c : Dev nD) → (b : Ref sig .tc) → Buf (Elt Ideal) ((c : Thread nD τ).loc b)) (c : Dev nD) :
    ((dat1 V c).arrAt 4 cfg1.N : S2x1x1.Idx → Ideal .f32)
      = fun i => Cert.Loss.halfVar (xV V c) (lV V c) (tV V c) (dvV V c) (i 0) :=
  Pass2.var_final V c

end Cert.KernelIdeal.Val

end
-- ==== Proof.KHost.lean ====
/-
  The host operations around the two passes, read at the buffer contents of each boundary.

  Before the first pass the prediction and label arrays are reshaped to a 4-row pixel table and a one-row label
  table.  Between the passes the two halves of the counts and of the channel sums are added, the centroids are the
  sums over max(count, 1), the table joins the centroids with the reciprocal divisors, and the hinge offset is
  reshaped to 1×1.  After the second pass the two halves' totals are added and divided by 5 (the variance term),
  the separation term is computed from the centroids, and the two are added.
-/
import proofs.«415168_j88785563943727_3_alg».proof.Proof.Gen.KernelIdeal.Frame
import proofs.«415168_j88785563943727_3_alg».proof.Proof.KArrays
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Idealize.ShloMosaic.StableHlo

/-! ## The host stretches as functions of the arrays they read -/

/-- The two halves of the counts added: a [5,1] column. -/
def cntCol (a2 : FVec Ideal S2x5x1 .f32) : FVec Ideal S5x1 .f32 :=
  Host.reduceAdd a2 (constant S_ .f32 0x00000000#32) reducesTo_S2x5x1_S5x1_d0 h_S_

/-- A class's divisor column: max(count, 1). -/
def denCol (a2 : FVec Ideal S2x5x1 .f32) : FVec Ideal S5x1 .f32 :=
  maximumf (cntCol a2) (broadcastInDim S5x1 ![] bcast_S_S5x1 (constant S_ .f32 0x3F800000#32))

/-- The centroids: the two halves of the channel sums added, over the divisors. -/
def cenArr (a2 : FVec Ideal S2x5x1 .f32) (a3 : FVec Ideal S2x5x4 .f32) : FVec Ideal S5x4 .f32 :=
  Host.divf (Host.reduceAdd a3 (constant S_ .f32 0x00000000#32) reducesTo_S2x5x4_S5x4_d0 h_S_)
    (broadcastInDim S5x4 ![0, 1] bcast_S5x1_S5x4_0_1 (denCol a2))

/-- The reciprocal divisors. -/
def invCol (a2 : FVec Ideal S2x5x1 .f32) : FVec Ideal S5x1 .f32 :=
  Host.divf (broadcastInDim S5x1 ![] bcast_S_S5x1 (constant S_ .f32 0x3F800000#32)) (denCol a2)

/-- The 5×5 table the second pass reads. -/
def tblArr (a2 : FVec Ideal S2x5x1 .f32) (a3 : FVec Ideal S2x5x4 .f32) : FVec Ideal S5x5 .f32 :=
  concatenate S5x5 1 [⟨S5x4, cenArr a2 a3⟩, ⟨S5x1, invCol a2⟩] concatenates_S5x4_S5x1_S5x5_d1

/-- The variance term from the second pass's output array. -/
def lvarArr (a15 : FVec Ideal S2x1x1 .f32) : FVec Ideal S_ .f32 :=
  Host.divf
    (Host.reduceAdd (Host.reduceAdd a15 (constant S_ .f32 0x00000000#32) reducesTo_S2x1x1_S1x1_d0 h_S_)
      (constant S_ .f32 0x00000000#32) reducesTo_S1x1_S_d0_1 h_S_)
    (constant S_ .f32 0x40A00000#32)

/-- The squared distances between centroids, a 5×5 array. -/
def csqArr (mu : FVec Ideal S5x4 .f32) : FVec Ideal S5x5 .f32 :=
  Host.reduceAdd
    (mulf
      (subf
        (broadcastInDim S5x5x4 ![0, 1, 2] bcast_S5x1x4_S5x5x4_0_1_2 (broadcastInDim S5x1x4 ![0, 2] bcast_S5x4_S5x1x4_0_2 mu))
        (broadcastInDim S5x5x4 ![0, 1, 2] bcast_S1x5x4_S5x5x4_0_1_2 (broadcastInDim S1x5x4 ![1, 2] bcast_S5x4_S1x5x4_1_2 mu)))
      (subf
        (broadcastInDim S5x5x4 ![0, 1, 2] bcast_S5x1x4_S5x5x4_0_1_2 (broadcastInDim S5x1x4 ![0, 2] bcast_S5x4_S5x1x4_0_2 mu))
        (broadcastInDim S5x5x4 ![0, 1, 2] bcast_S1x5x4_S5x5x4_0_1_2 (broadcastInDim S1x5x4 ![1, 2] bcast_S5x4_S1x5x4_1_2 mu))))
    (constant S_ .f32 0x00000000#32) reducesTo_S5x5x4_S5x5_d2 h_S_

/-- The separation term from the centroid distances cd and the margin dd: the mean over the 20 ordered pairs of
    distinct classes of the squared hinge of dd - cd. -/
def sepArr (cd : FVec Ideal S5x5 .f32) (dd : FVec Ideal S_ .f32) : FVec Ideal S_ .f32 :=
  Host.divf
    (Host.reduceAdd
      (mulf
        (mulf
          (maximumf (subf (broadcastInDim S5x5 ![] bcast_S_S5x5 dd) cd)
            (broadcastInDim S5x5 ![] bcast_S_S5x5 (constant S_ .f32 0x00000000#32)))
          (maximumf (subf (broadcastInDim S5x5 ![] bcast_S_S5x5 dd) cd)
            (broadcastInDim S5x5 ![] bcast_S_S5x5 (constant S_ .f32 0x00000000#32))))
        (subf (broadcastInDim S5x5 ![] bcast_S_S5x5 (constant S_ .f32 0x3F800000#32))
          (uitofp .f32
            (cmpi .eq (addi (iotaInDim S5x5 32 0) (broadcastInDim S5x5 ![] bcast_S_S5x5 (constantI S_ 32 0#32)))
              (iotaInDim S5x5 32 1)))))
      (constant S_ .f32 0x00000000#32) reducesTo_S5x5_S_d0_1 h_S_)
    (constant S_ .f32 0x41A00000#32)

/-- The kernel's norm of the squared centroid distances. -/
def normArrK (s : FVec Ideal S5x5 .f32) : FVec Ideal S5x5 .f32 :=
  Host.sqrt (maximumf s (broadcastInDim S5x5 ![] bcast_S_S5x5 (constant S_ .f32 0x00000000#32)))

variable (m : (ℓ : Loc nD τ sig) → Buf (Elt Ideal) ℓ) (ρ : Dev nD → PrngReg)

/-! ## The boundaries -/

/-- The result: the variance term plus the separation term, from the second pass's exit contents. -/
theorem w5_result (c : Dev nD) :
    W5 m ρ c (Proc.devRef .tc main_v45)
      = addf (lvarArr (W4 m ρ c (Proc.devRef .tc main_v15)))
          (sepArr (normArrK (csqArr (W4 m ρ c (Proc.devRef .tc main_v12)))) (W4 m ρ c (Proc.devRef .tc main_arg3))) := by
  show StableHlo.after hostOps2 (W4 m ρ c) (Proc.devRef .tc main_v45) = _
  after_results_simp
  rfl

/-- The second pass's output array, at its exit. -/
theorem w4_v15 (c : Dev nD) : W4 m ρ c (Proc.devRef .tc main_v15) = (dat1 (V3 m ρ) c).arrAt 4 cfg1.N :=
  W4_arr m ρ c 4

/-- The second pass writes neither the centroids nor the margin. -/
theorem w4_v12 (c : Dev nD) : W4 m ρ c (Proc.devRef .tc main_v12) = W3 m ρ c (Proc.devRef .tc main_v12) :=
  W4_of_ne m ρ c main_v12 (by decide)

theorem w3_arg3 (c : Dev nD) : W3 m ρ c (Proc.devRef .tc main_arg3) = W2 m ρ c (Proc.devRef .tc main_arg3) := by
  show StableHlo.after hostOps1 (W2 m ρ c) (Proc.devRef .tc main_arg3) = _
  after_results_simp

theorem w1_arg3 (c : Dev nD) : W1 m ρ c (Proc.devRef .tc main_arg3) = m ((c : Thread nD τ).loc main_arg3) := by
  show StableHlo.after hostOps0 (W0 m ρ c) (Proc.devRef .tc main_arg3) = _
  after_results_simp

theorem w4_arg3 (c : Dev nD) : W4 m ρ c (Proc.devRef .tc main_arg3) = m ((c : Thread nD τ).loc main_arg3) :=
  (W4_of_ne m ρ c main_arg3 (by decide)).trans
    ((w3_arg3 m ρ c).trans ((W2_of_ne m ρ c main_arg3 (by decide)).trans (w1_arg3 m ρ c)))

/-- Between the passes: the centroids, the table and the hinge offset from the first pass's two output arrays. -/
theorem w3_v12 (c : Dev nD) :
    W3 m ρ c (Proc.devRef .tc main_v12)
      = cenArr (W2 m ρ c (Proc.devRef .tc main_v2_0)) (W2 m ρ c (Proc.devRef .tc main_v2_1)) := by
  show StableHlo.after hostOps1 (W2 m ρ c) (Proc.devRef .tc main_v12) = _
  after_results_simp
  rfl

theorem w3_v8 (c : Dev nD) :
    W3 m ρ c (Proc.devRef .tc main_v8) = invCol (W2 m ρ c (Proc.devRef .tc main_v2_0)) := by
  show StableHlo.after hostOps1 (W2 m ρ c) (Proc.devRef .tc main_v8) = _
  after_results_simp
  rfl

theorem w3_v13 (c : Dev nD) :
    W3 m ρ c (Proc.devRef .tc main_v13)
      = tblArr (W2 m ρ c (Proc.devRef .tc main_v2_0)) (W2 m ρ c (Proc.devRef .tc main_v2_1)) := by
  have e : W3 m ρ c (Proc.devRef .tc main_v13)
      = concatenate S5x5 1 [⟨S5x4, W3 m ρ c (Proc.devRef .tc main_v12)⟩, ⟨S5x1, W3 m ρ c (Proc.devRef .tc main_v8)⟩]
          concatenates_S5x4_S5x1_S5x5_d1 := by
    show StableHlo.after hostOps1 (W2 m ρ c) (Proc.devRef .tc main_v13) = _
    after_results_simp
    rfl
  rw [e, w3_v12, w3_v8]
  rfl

theorem w2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp

theorem w3_v14 (c : Dev nD) :
    W3 m ρ c (Proc.devRef .tc main_v14) = shapeCast S1x1 (m ((c : Thread nD τ).loc main_arg2)) shapeCasts_S_S1x1 := by
  have e : W3 m ρ c (Proc.devRef .tc main_v14)
      = shapeCast S1x1 (W2 m ρ c (Proc.devRef .tc main_arg2)) shapeCasts_S_S1x1 := by
    show StableHlo.after hostOps1 (W2 m ρ c) (Proc.devRef .tc main_v14) = _
    after_results_simp
    rfl
  rw [e, w2_arg2]

/-- The first pass's two output arrays, at its exit. -/
theorem w2_v2_0 (c : Dev nD) : W2 m ρ c (Proc.devRef .tc main_v2_0) = (dat0 (V1 m ρ) c).arrAt 2 cfg0.N :=
  W2_arr m ρ c 2
theorem w2_v2_1 (c : Dev nD) : W2 m ρ c (Proc.devRef .tc main_v2_1) = (dat0 (V1 m ρ) c).arrAt 3 cfg0.N :=
  W2_arr m ρ c 3

/-- The pixel table and the label table are the reshaped arguments at both passes' entries. -/
theorem w1_v0 (c : Dev nD) :
    W1 m ρ c (Proc.devRef .tc main_v0)
      = shapeCast S4x2097152 (m ((c : Thread nD τ).loc main_arg0)) shapeCasts_S1x4x1024x2048_S4x2097152 := by
  show StableHlo.after hostOps0 (W0 m ρ c) (Proc.devRef .tc main_v0) = _
  after_results_simp
  rfl

theorem w1_v1 (c : Dev nD) :
    W1 m ρ c (Proc.devRef .tc main_v1)
      = shapeCast S1x2097152 (m ((c : Thread nD τ).loc main_arg1)) shapeCasts_S1x1024x2048_S1x2097152 := by
  show StableHlo.after hostOps0 (W0 m ρ c) (Proc.devRef .tc main_v1) = _
  after_results_simp
  rfl

theorem w2_v0 (c : Dev nD) : W2 m ρ c (Proc.devRef .tc main_v0) = W1 m ρ c (Proc.devRef .tc main_v0) :=
  (W2_arr m ρ c 0).trans (((dat0 (V1 m ρ) c).arrAt_in 0 rfl _).trans (A_eq0 (V1 m ρ) c 0))

theorem w2_v1 (c : Dev nD) : W2 m ρ c (Proc.devRef .tc main_v1) = W1 m ρ c (Proc.devRef .tc main_v1) :=
  (W2_arr m ρ c 1).trans (((dat0 (V1 m ρ) c).arrAt_in 1 rfl _).trans (A_eq0 (V1 m ρ) c 1))

theorem w3_v0 (c : Dev nD) : W3 m ρ c (Proc.devRef .tc main_v0) = W1 m ρ c (Proc.devRef .tc main_v0) := by
  refine Eq.trans ?_ (w2_v0 m ρ c)
  show StableHlo.after hostOps1 (W2 m ρ c) (Proc.devRef .tc main_v0) = _
  after_results_simp

theorem w3_v1 (c : Dev nD) : W3 m ρ c (Proc.devRef .tc main_v1) = W1 m ρ c (Proc.devRef .tc main_v1) := by
  refine Eq.trans ?_ (w2_v1 m ρ c)
  show StableHlo.after hostOps1 (W2 m ρ c) (Proc.devRef .tc main_v1) = _
  after_results_simp

end Cert.KernelIdeal.Val

end
-- ==== Proof.LossLaws.lean ====
/-
  The kernel's tiled way of computing the clustering loss and the reference's scattered way agree.

  Counts and channel sums: the 16 tiles partition the pixels, and a one-hot entry is 1 exactly on the pixels
  whose label, read signed, is the class.  Variance term: on a pixel labelled k the gathered table row is row k
  (every other one-hot entry is 0), so its squared hinge is the reference's, weighted by 1 / max(count k, 1);
  a pixel with a label outside 0..4 gathers the zero row, weight 0.  Summing a class's pixels and pulling the
  common weight out of the sum needs only that squared hinges are nonnegative.
-/
import proofs.«415168_j88785563943727_3_alg».proof.Proof.Loss

noncomputable section

namespace Cert.Loss

open Idealize.ShloMosaic

/-! ## Small facts about extended reals -/

/-- The zero-safe norm is the plain one on a nonnegative argument. -/
theorem sqrt_max_eq_normR (s : EReal) (hs : 0 ≤ s) : Ideal.sqrt (max s 0) = normR s := by
  rw [max_eq_left hs]
  unfold normR
  by_cases h : 0 < s
  · rw [if_pos h, if_pos h]
  · rw [if_neg h]
    have h0 : s = 0 := le_antisymm (not_lt.mp h) hs
    subst h0
    have hz : (0 : EReal) = ((0 : ℝ) : EReal) := rfl
    rw [hz, Ideal.sqrt_coe, if_neg (lt_irrefl 0), Real.sqrt_zero]

/-- A square is nonnegative, at the infinities too. -/
theorem mul_self_nonneg' (a : EReal) : 0 ≤ a * a := by
  rcases le_total 0 a with h | h
  · exact EReal.mul_nonneg h h
  · have e : a * a = (-a) * (-a) := by rw [neg_mul_neg]
    rw [e]
    exact EReal.mul_nonneg (EReal.neg_nonneg.mpr h) (EReal.neg_nonneg.mpr h)

/-- A sum of squares is nonnegative. -/
theorem sum_sq_nonneg {ι : Type*} (s : Finset ι) (f : ι → EReal) : 0 ≤ ∑ i ∈ s, f i * f i :=
  Finset.sum_nonneg (fun i _ => mul_self_nonneg' (f i))

/-! ## The one-hot entry and the signed reading of a label -/

/-- A class number below five, as a 32-bit word read signed, is itself. -/
theorem toInt_ofNat_class (k : Fin 5) : (BitVec.ofNat 32 k.val).toInt = (k.val : ℤ) := by
  fin_cases k <;> rfl

/-- The one-hot entry is 1 exactly when the label, read signed, is the class. -/
theorem oh_eq (l : BitVec 32) (k : Fin 5) : oh l k = if hit l k then 1 else 0 := by
  unfold oh
  by_cases h : l = BitVec.ofNat 32 k.val
  · have hh : hit l k := by unfold hit; rw [h]; exact toInt_ofNat_class k
    rw [if_pos h, if_pos hh]
  · have hh : ¬ hit l k := by
      intro h'
      unfold hit at h'
      apply h
      apply BitVec.toInt_inj.mp
      rw [h', toInt_ofNat_class k]
    rw [if_neg h, if_neg hh]

/-! ## The tiles partition the pixels -/

/-- Half, tile within the half and pixel within the tile, against the pixel number. -/
def tileEquiv : Fin 2 × Fin 8 × Fin TW ≃ Fin NP where
  toFun t := ⟨(8 * t.1.val + t.2.1.val) * 131072 + t.2.2.val, by
    have h1 := t.1.isLt
    have h2 := t.2.1.isLt
    have h3 : t.2.2.val < 131072 := t.2.2.isLt
    show (8 * t.1.val + t.2.1.val) * 131072 + t.2.2.val < 2097152
    omega⟩
  invFun q :=
    (⟨q.val / 1048576, by have hq : q.val < 2097152 := q.isLt; omega⟩,
     ⟨q.val / 131072 % 8, by omega⟩,
     ⟨q.val % 131072, by show q.val % 131072 < 131072; omega⟩)
  left_inv t := by
    obtain ⟨⟨h, hh⟩, ⟨s, hs⟩, ⟨p, hp⟩⟩ := t
    have hp' : p < 131072 := hp
    simp only [Prod.mk.injEq, Fin.mk.injEq]
    refine ⟨?_, ?_, ?_⟩ <;> omega
  right_inv q := by
    obtain ⟨q, hq⟩ := q
    have hq' : q < 2097152 := hq
    simp only [Fin.mk.injEq]
    omega

/-- The 16 tiles, eight per half, are the pixels. -/
theorem sum_tiles (f : Fin NP → EReal) :
    ∑ h : Fin 2, ∑ s ∈ Finset.range 8, ∑ p : Fin TW, f (pix (8 * h.val + s) p) = ∑ q : Fin NP, f q := by
  rw [← Equiv.sum_comp tileEquiv f, Fintype.sum_prod_type]
  refine Finset.sum_congr rfl (fun h _ => ?_)
  rw [Fintype.sum_prod_type, Finset.sum_range]
  refine Finset.sum_congr rfl (fun s _ => ?_)
  refine Finset.sum_congr rfl (fun p _ => ?_)
  have hT : 8 * h.val + s.val < 16 := by
    have h1 := h.isLt
    have h2 := s.isLt
    omega
  unfold pix
  rw [dif_pos hT]
  rfl

/-! ## Counts and channel sums -/

theorem cntK_eq_sum (lab : Fin NP → BitVec 32) (k : Fin 5) : cntK lab k = ∑ q : Fin NP, oh (lab q) k :=
  sum_tiles (fun q => oh (lab q) k)

theorem sumK_eq_sum (x : Fin 4 → Fin NP → EReal) (lab : Fin NP → BitVec 32) (k : Fin 5) (ch : Fin 4) :
    sumK x lab k ch = ∑ q : Fin NP, oh (lab q) k * x ch q :=
  sum_tiles (fun q => oh (lab q) k * x ch q)

theorem cntK_eq_cntR (lab : Fin NP → BitVec 32) : cntK lab = cntR lab := by
  funext k
  rw [cntK_eq_sum]
  unfold cntR
  rw [Finset.sum_filter]
  exact Finset.sum_congr rfl (fun q _ => oh_eq (lab q) k)

theorem sumK_eq_sumR (x : Fin 4 → Fin NP → EReal) (lab : Fin NP → BitVec 32) : sumK x lab = sumR x lab := by
  funext k ch
  rw [sumK_eq_sum]
  unfold sumR
  rw [Finset.sum_filter]
  refine Finset.sum_congr rfl (fun q _ => ?_)
  rw [oh_eq]
  by_cases h : hit (lab q) k
  · rw [if_pos h, if_pos h, one_mul]
  · rw [if_neg h, if_neg h, zero_mul]

/-! ## The variance term -/

/-- A label hits at most one class. -/
theorem hit_unique {l : BitVec 32} {k k' : Fin 5} (h : hit l k) (h' : hit l k') : k' = k := by
  unfold hit at h h'
  apply Fin.ext
  have e : (k'.val : ℤ) = (k.val : ℤ) := by rw [← h', h]
  exact_mod_cast e

/-- On a label that hits class k the one-hot entries are the indicator of k. -/
theorem oh_of_hit {l : BitVec 32} {k : Fin 5} (h : hit l k) (k' : Fin 5) : oh l k' = if k' = k then 1 else 0 := by
  rw [oh_eq]
  by_cases e : k' = k
  · rw [if_pos e, if_pos (e ▸ h)]
  · rw [if_neg e, if_neg (fun h' => e (hit_unique h h'))]

/-- On a label that hits no class every one-hot entry is 0. -/
theorem oh_of_not_hit {l : BitVec 32} (h : ∀ k, ¬ hit l k) (k' : Fin 5) : oh l k' = 0 := by
  rw [oh_eq, if_neg (h k')]

/-- The gathered row of a label that hits class k is row k. -/
theorem gath_of_hit (m : Fin 5 → Fin 5 → EReal) {l : BitVec 32} {k : Fin 5} (h : hit l k) (j : Fin 5) :
    gath m l j = m k j := by
  unfold gath
  rw [oh_of_hit h 0, oh_of_hit h 1, oh_of_hit h 2, oh_of_hit h 3, oh_of_hit h 4]
  clear h
  fin_cases k <;> simp

/-- The gathered row of a label that hits no class is the zero row. -/
theorem gath_of_not_hit (m : Fin 5 → Fin 5 → EReal) {l : BitVec 32} (h : ∀ k, ¬ hit l k) (j : Fin 5) :
    gath m l j = 0 := by
  unfold gath
  rw [oh_of_not_hit h 0, oh_of_not_hit h 1, oh_of_not_hit h 2, oh_of_not_hit h 3, oh_of_not_hit h 4]
  simp only [mul_zero, add_zero]

/-- The reference's clamped gather reads row k on a label that hits class k. -/
theorem rowOf_of_hit {l : BitVec 32} {k : Fin 5} (h : hit l k) : rowOf l = k := by
  unfold hit at h
  have hk := k.isLt
  have hs : l.slt 0#32 = false := by
    unfold BitVec.slt
    rw [BitVec.toInt_zero, h]
    exact decide_eq_false (by omega)
  apply Fin.ext
  unfold rowOf
  simp only [hs, Bool.false_eq_true, if_false, h]
  omega

/-- The table's first four columns are the centroid. -/
theorem tbl_castSucc (cnt : Fin 5 → EReal) (sm : Fin 5 → Fin 4 → EReal) (k : Fin 5) (ch : Fin 4) :
    tbl cnt sm k ch.castSucc = cen cnt sm k ch := by
  unfold tbl
  have hc : (ch.castSucc : Fin 5).val < 4 := ch.isLt
  rw [dif_pos hc]
  rfl

/-- The table's last column is the reciprocal of the divisor. -/
theorem tbl_last (cnt : Fin 5 → EReal) (sm : Fin 5 → Fin 4 → EReal) (k : Fin 5) :
    tbl cnt sm k 4 = Ideal.div 1 (den cnt k) := by
  unfold tbl
  rw [dif_neg (by decide)]

/-- The kernel's hinge is the reference's on a nonnegative squared distance. -/
theorem hingeK_eq_hingeR (s dv : EReal) (hs : 0 ≤ s) : hingeK s dv = hingeR s dv := by
  unfold hingeK hingeR
  rw [sqrt_max_eq_normR s hs]

/-- On a pixel labelled k the squared distances agree. -/
theorem dsqK_of_hit (cnt : Fin 5 → EReal) (sm : Fin 5 → Fin 4 → EReal) (xq : Fin 4 → EReal) {l : BitVec 32}
    {k : Fin 5} (h : hit l k) : dsqK (tbl cnt sm) xq l = dsqR (cen cnt sm) xq l := by
  unfold dsqK dsqR
  refine Finset.sum_congr rfl (fun ch _ => ?_)
  rw [gath_of_hit _ h, tbl_castSucc, rowOf_of_hit h]

/-- On a pixel labelled k the kernel's term is the reference's squared hinge times the class's weight. -/
theorem pixK_of_hit (cnt : Fin 5 → EReal) (sm : Fin 5 → Fin 4 → EReal) (dv : EReal) (xq : Fin 4 → EReal)
    {l : BitVec 32} {k : Fin 5} (h : hit l k) :
    pixK (tbl cnt sm) dv xq l = pixR (cen cnt sm) dv xq l * Ideal.div 1 (den cnt k) := by
  unfold pixK pixR
  rw [gath_of_hit _ h, tbl_last, dsqK_of_hit cnt sm xq h, hingeK_eq_hingeR]
  unfold dsqR
  exact sum_sq_nonneg _ _

/-- On a pixel whose label hits no class the kernel's term is 0. -/
theorem pixK_of_not_hit (m : Fin 5 → Fin 5 → EReal) (dv : EReal) (xq : Fin 4 → EReal) {l : BitVec 32}
    (h : ∀ k, ¬ hit l k) : pixK m dv xq l = 0 := by
  unfold pixK
  rw [gath_of_not_hit m h, mul_zero]

/-- The reference's pixel term is nonnegative. -/
theorem pixR_nonneg (mu : Fin 5 → Fin 4 → EReal) (dv : EReal) (xq : Fin 4 → EReal) (l : BitVec 32) :
    0 ≤ pixR mu dv xq l := by
  unfold pixR
  exact mul_self_nonneg' _

/-- A sum over the pixels splits by class when the summand vanishes on pixels of no class. -/
theorem sum_split_classes (lab : Fin NP → BitVec 32) (F : Fin NP → EReal)
    (hF : ∀ q, (∀ k, ¬ hit (lab q) k) → F q = 0) :
    ∑ q : Fin NP, F q = ∑ k : Fin 5, ∑ q ∈ Finset.univ.filter (fun q : Fin NP => hit (lab q) k), F q := by
  have e : ∀ k : Fin 5, ∑ q ∈ Finset.univ.filter (fun q : Fin NP => hit (lab q) k), F q
      = ∑ q : Fin NP, if hit (lab q) k then F q else 0 := fun k => Finset.sum_filter _ _
  rw [Finset.sum_congr rfl (fun k _ => e k), Finset.sum_comm]
  refine Finset.sum_congr rfl (fun q _ => ?_)
  by_cases h : ∃ k, hit (lab q) k
  · obtain ⟨k, hk⟩ := h
    rw [Finset.sum_eq_single k]
    · rw [if_pos hk]
    · intro k' _ hne
      rw [if_neg (fun h' => hne (hit_unique hk h'))]
    · intro hk'
      exact absurd (Finset.mem_univ k) hk'
  · have h' : ∀ k, ¬ hit (lab q) k := fun k hk => h ⟨k, hk⟩
    rw [hF q h']
    symm
    exact Finset.sum_eq_zero (fun k _ => if_neg (h' k))

/-- A common factor comes out of a sum of nonnegative terms. -/
theorem sum_mul_of_nonneg {ι : Type*} (s : Finset ι) (v : ι → EReal) (hv : ∀ i ∈ s, 0 ≤ v i) (c : EReal) :
    ∑ i ∈ s, v i * c = (∑ i ∈ s, v i) * c := by
  classical
  induction s using Finset.induction_on with
  | empty => rw [Finset.sum_empty, Finset.sum_empty, zero_mul]
  | insert a s ha ih =>
    rw [Finset.sum_insert ha, Finset.sum_insert ha,
      ih (fun i hi => hv i (Finset.mem_insert_of_mem hi)),
      EReal.right_distrib_of_nonneg (hv a (Finset.mem_insert_self a s))
        (Finset.sum_nonneg (fun i hi => hv i (Finset.mem_insert_of_mem hi)))]

/-- A class's divisor is not zero. -/
theorem den_ne_zero (cnt : Fin 5 → EReal) (k : Fin 5) : den cnt k ≠ 0 := by
  unfold den
  exact (lt_of_lt_of_le zero_lt_one (le_max_right _ _)).ne'

/-- The common weight of a class comes out of the sum over its pixels. -/
theorem sum_mul_div_one {ι : Type*} (s : Finset ι) (v : ι → EReal) (hv : ∀ i ∈ s, 0 ≤ v i) {d : EReal}
    (hd : d ≠ 0) : ∑ i ∈ s, v i * Ideal.div 1 d = Ideal.div (∑ i ∈ s, v i) d := by
  unfold Ideal.div
  rw [if_neg hd, if_neg hd, one_mul]
  exact sum_mul_of_nonneg s v hv _

/-- The variance terms agree. -/
theorem lvarK_eq_lvarR (x : Fin 4 → Fin NP → EReal) (lab : Fin NP → BitVec 32) (dv : EReal) :
    lvarK x lab dv = lvarR x lab dv := by
  unfold lvarK lvarR
  rw [cntK_eq_cntR, sumK_eq_sumR]
  refine congrArg (fun t => Ideal.div t 5) ?_
  have e1 : ∑ h : Fin 2, halfVar x lab (tbl (cntR lab) (sumR x lab)) dv h
      = ∑ q : Fin NP, pixK (tbl (cntR lab) (sumR x lab)) dv (fun ch => x ch q) (lab q) :=
    sum_tiles (fun q => pixK (tbl (cntR lab) (sumR x lab)) dv (fun ch => x ch q) (lab q))
  rw [e1, sum_split_classes lab _ (fun q hq => pixK_of_not_hit _ dv _ hq)]
  refine Finset.sum_congr rfl (fun k _ => ?_)
  rw [← sum_mul_div_one _ _ (fun q _ => pixR_nonneg _ dv _ _) (den_ne_zero _ k)]
  refine Finset.sum_congr rfl (fun q hq => ?_)
  exact pixK_of_hit _ _ dv _ (Finset.mem_filter.mp hq).2

end Cert.Loss

end
-- ==== Proof.LossSep.lean ====
/-
  The separation term of the clustering loss: the mean, over the 20 ordered pairs of distinct classes, of the
  squared hinge of the margin minus the distance between the two centroids.  The distance is a norm of the squared
  distance, which the two programs take differently (a plain root of the value clipped at zero, or a zero-safe
  root); the norm is a parameter here.
-/
import proofs.«415168_j88785563943727_3_alg».proof.Proof.Loss

noncomputable section

namespace Cert.Loss

open Idealize.ShloMosaic

/-- 1 off the diagonal, 0 on it. -/
def offd (a b : Fin 5) : EReal := 1 - (if a = b then (1 : EReal) else 0)

/-- The squared distance between the centroids of classes a and b. -/
def csq (mu : Fin 5 → Fin 4 → EReal) (a b : Fin 5) : EReal :=
  ∑ ch : Fin 4, (mu a ch - mu b ch) * (mu a ch - mu b ch)

/-- The squared hinge of t. -/
def hinge2 (t : EReal) : EReal := max t 0 * max t 0

/-- The separation term, for a norm nrm of the squared distances; the sum runs over the 5×5 index pairs. -/
def sep (nrm : EReal → EReal) (mu : Fin 5 → Fin 4 → EReal) (dd : EReal) : EReal :=
  Ideal.div (∑ j : (⟨2, ![5, 5]⟩ : Shape).Idx, hinge2 (dd - nrm (csq mu (j 0) (j 1))) * offd (j 0) (j 1)) 20

/-- The kernel's norm: the root of the value clipped at zero. -/
def normK (s : EReal) : EReal := Ideal.sqrt (max s 0)

end Cert.Loss

end
-- ==== Proof.KTable.lean ====
/-
  The kernel's host stretches read at an index: the centroids, the table, the variance term and the separation
  term as the plain functions of the clustering loss.
-/
import proofs.«415168_j88785563943727_3_alg».proof.Proof.KHost
import proofs.«415168_j88785563943727_3_alg».proof.Proof.LossLaws
import proofs.«415168_j88785563943727_3_alg».proof.Proof.LossSep
import Idealize.ShloMosaic.Lib.Pipeline.Value
import Idealize.ShloMosaic.PureOps.Ideal.Laws
import Idealize.ShloMosaic.Lib.IdealHost

noncomputable section

namespace Cert.KernelIdeal.Val

open Cert.KernelIdeal Cert.KernelIdeal.Gen Idealize.ShloMosaic Idealize.ShloMosaic.TcCoe
open Idealize.ShloMosaic.ValueIdx

/-! ## The constant words -/

/-- The word 0x40A00000 is five. -/
theorem word_five : Ideal.ofBits .f32 0x40A00000#32 = 5 := by
  rw [show (5 : EReal) = ((5 : ℝ) : EReal) by norm_cast]
  simp [Ideal.ofBits, Ideal.ieee, -EReal.coe_mul]; norm_num

/-- The word 0x41A00000 is twenty. -/
theorem word_twenty : Ideal.ofBits .f32 0x41A00000#32 = 20 := by
  rw [show (20 : EReal) = ((20 : ℝ) : EReal) by norm_cast]
  simp [Ideal.ofBits, Ideal.ieee, -EReal.coe_mul]; norm_num

/-- The zero splat read anywhere is zero. -/
theorem zero_splat (i : S_.Idx) : constant (F := Ideal) S_ .f32 0x00000000#32 i = 0 :=
  Ideal.ofBits_zero_f32

/-- The one splat read anywhere is one. -/
theorem one_splat (i : S_.Idx) : constant (F := Ideal) S_ .f32 0x3F800000#32 i = 1 :=
  Ideal.ofBits_one_f32

variable (a2 : FVec Ideal S2x5x1 .f32) (a3 : FVec Ideal S2x5x4 .f32)
  (cnt : Fin 2 → Fin 5 → EReal) (sm : Fin 2 → Fin 5 → Fin 4 → EReal)

/-! ## Counts, divisors, centroids -/

/-- The two halves of the counts added, at class k. -/
theorem cntCol_apply (h2 : ∀ h k, a2 (ix3 h k (0 : Fin 1)) = cnt h k) (k : Fin 5) :
    cntCol a2 (ix2 k (0 : Fin 1)) = ∑ h : Fin 2, cnt h k := by
  unfold cntCol
  rw [hostReduceAdd_apply, Ideal.hostReduceAdd_single reducesTo_S2x5x1_S5x1_d0 (by decide), zero_splat, zero_add]
  refine Finset.sum_congr rfl (fun h _ => ?_)
  rw [← h2 h k]
  exact congrArg a2 (funext fun a => Fin.ext (by match a with | ⟨0, _⟩ => rfl | ⟨1, _⟩ => rfl | ⟨2, _⟩ => rfl))

/-- A class's divisor: the count, at least one. -/
theorem denCol_apply (h2 : ∀ h k, a2 (ix3 h k (0 : Fin 1)) = cnt h k) (k : Fin 5) :
    denCol a2 (ix2 k (0 : Fin 1)) = Cert.Loss.den (fun k => ∑ h : Fin 2, cnt h k) k := by
  unfold denCol Cert.Loss.den
  rw [maximumf_apply, cntCol_apply a2 cnt h2 k, broadcastInDim_scalar_apply, one_splat]

/-- The two halves of the channel sums added, at (k, ch). -/
theorem sumArr_apply (h3 : ∀ h k ch, a3 (ix3 h k ch) = sm h k ch) (k : Fin 5) (ch : Fin 4) :
    Host.reduceAdd a3 (constant S_ .f32 0x00000000#32) reducesTo_S2x5x4_S5x4_d0 h_S_ (ix2 k ch)
      = ∑ h : Fin 2, sm h k ch := by
  rw [hostReduceAdd_apply, Ideal.hostReduceAdd_single reducesTo_S2x5x4_S5x4_d0 (by decide), zero_splat, zero_add]
  refine Finset.sum_congr rfl (fun h _ => ?_)
  rw [← h3 h k ch]
  exact congrArg a3 (funext fun a => Fin.ext (by match a with | ⟨0, _⟩ => rfl | ⟨1, _⟩ => rfl | ⟨2, _⟩ => rfl))

/-- The divisor column stretched over the four channels reads the divisor of the row. -/
theorem denBcast_apply (y : FVec Ideal S5x1 .f32) (k : Fin 5) (ch : Fin 4) :
    broadcastInDim S5x4 ![0, 1] bcast_S5x1_S5x4_0_1 y (ix2 k ch) = y (ix2 k (0 : Fin 1)) :=
  broadcastInDim_apply _ bcast_S5x1_S5x4_0_1 y (ix2 k ch) (ix2 k (0 : Fin 1)) (fun a => match a with
    | ⟨0, _⟩ => by show k.val = if (5 : Nat) = 1 then 0 else k.val; rw [if_neg (by decide)]
    | ⟨1, _⟩ => by show (0 : Nat) = if (1 : Nat) = 1 then 0 else ch.val; rw [if_pos rfl])

/-- The centroid array at (k, ch), when the counts array holds cnt and the sums array holds sm, half by half. -/
theorem cenArr_apply (h2 : ∀ h k, a2 (ix3 h k (0 : Fin 1)) = cnt h k) (h3 : ∀ h k ch, a3 (ix3 h k ch) = sm h k ch)
    (k : Fin 5) (ch : Fin 4) :
    cenArr a2 a3 (ix2 k ch)
      = Cert.Loss.cen (fun k => ∑ h : Fin 2, cnt h k) (fun k ch => ∑ h : Fin 2, sm h k ch) k ch := by
  unfold cenArr Cert.Loss.cen
  rw [hostDivf_apply, sumArr_apply a3 sm h3 k ch, denBcast_apply, denCol_apply a2 cnt h2 k]

/-- The reciprocal divisor of class k. -/
theorem invCol_apply (h2 : ∀ h k, a2 (ix3 h k (0 : Fin 1)) = cnt h k) (k : Fin 5) :
    invCol a2 (ix2 k (0 : Fin 1)) = Ideal.div 1 (Cert.Loss.den (fun k => ∑ h : Fin 2, cnt h k) k) := by
  unfold invCol
  rw [hostDivf_apply, broadcastInDim_scalar_apply, one_splat, denCol_apply a2 cnt h2 k]

/-- The table at (k, j). -/
theorem tblArr_apply (h2 : ∀ h k, a2 (ix3 h k (0 : Fin 1)) = cnt h k) (h3 : ∀ h k ch, a3 (ix3 h k ch) = sm h k ch)
    (k j : Fin 5) :
    tblArr a2 a3 (ix2 k j)
      = Cert.Loss.tbl (fun k => ∑ h : Fin 2, cnt h k) (fun k ch => ∑ h : Fin 2, sm h k ch) k j := by
  unfold tblArr Cert.Loss.tbl
  by_cases hj : j.val < 4
  · rw [dif_pos hj, ← cenArr_apply a2 a3 cnt sm h2 h3 k ⟨j.val, hj⟩]
    exact concatenate_pair_apply_left (1 : Fin 2) (cenArr a2 a3) (invCol a2) concatenates_S5x4_S5x1_S5x5_d1 (ix2 k j) rfl
      (ix2 k ⟨j.val, hj⟩) (fun b => match b with
        | ⟨0, _⟩ => rfl
        | ⟨1, _⟩ => rfl)
  · rw [dif_neg hj, ← invCol_apply a2 cnt h2 k]
    have hj4 : j.val = 4 := by have := j.isLt; omega
    exact concatenate_pair_apply_right (1 : Fin 2) (cenArr a2 a3) (invCol a2) concatenates_S5x4_S5x1_S5x5_d1 (ix2 k j) rfl rfl
      (ix2 k (0 : Fin 1)) (fun b => match b with
        | ⟨0, _⟩ => fun _ => rfl
        | ⟨1, _⟩ => fun hne => absurd rfl hne)
      (by show (0 : Nat) + 4 = j.val; omega)

/-! ## The variance term -/

/-- The variance term from the two halves' totals. -/
theorem lvarArr_apply (a15 : FVec Ideal S2x1x1 .f32) (hv : Fin 2 → EReal)
    (h15 : ∀ h, a15 (ix3 h (0 : Fin 1) (0 : Fin 1)) = hv h) (i : S_.Idx) :
    lvarArr a15 i = Ideal.div (∑ h : Fin 2, hv h) 5 := by
  unfold lvarArr
  rw [hostDivf_apply, constant_apply, word_five, hostReduceAdd_apply,
    Ideal.hostReduceAdd_total reducesTo_S1x1_S_d0_1 (fun b => b.elim0), zero_splat, zero_add, sum_idx2,
    Fin.sum_univ_one, Fin.sum_univ_one, hostReduceAdd_apply,
    Ideal.hostReduceAdd_single reducesTo_S2x1x1_S1x1_d0 (by decide), zero_splat, zero_add]
  refine congrArg (fun t => Ideal.div t 5) (Finset.sum_congr rfl (fun h _ => ?_))
  rw [← h15 h]
  exact congrArg a15 (funext fun a => Fin.ext (by match a with | ⟨0, _⟩ => rfl | ⟨1, _⟩ => rfl | ⟨2, _⟩ => rfl))

/-! ## The separation term -/

/-- The centroids stretched along the second class axis read the first class's centroid. -/
theorem rowBcast_apply (mu : FVec Ideal S5x4 .f32) (a b : Fin 5) (ch : Fin 4) :
    broadcastInDim S5x5x4 ![0, 1, 2] bcast_S5x1x4_S5x5x4_0_1_2
        (broadcastInDim S5x1x4 ![0, 2] bcast_S5x4_S5x1x4_0_2 mu) (ix3 a b ch) = mu (ix2 a ch) :=
  (broadcastInDim_apply _ bcast_S5x1x4_S5x5x4_0_1_2 _ (ix3 a b ch) (ix3 a (0 : Fin 1) ch) (fun x => match x with
    | ⟨0, _⟩ => by show a.val = if (5 : Nat) = 1 then 0 else a.val; rw [if_neg (by decide)]
    | ⟨1, _⟩ => by show (0 : Nat) = if (1 : Nat) = 1 then 0 else b.val; rw [if_pos rfl]
    | ⟨2, _⟩ => by show ch.val = if (4 : Nat) = 1 then 0 else ch.val; rw [if_neg (by decide)])).trans
  (broadcastInDim_apply _ bcast_S5x4_S5x1x4_0_2 mu (ix3 a (0 : Fin 1) ch) (ix2 a ch) (fun x => match x with
    | ⟨0, _⟩ => by show a.val = if (5 : Nat) = 1 then 0 else a.val; rw [if_neg (by decide)]
    | ⟨1, _⟩ => by show ch.val = if (4 : Nat) = 1 then 0 else ch.val; rw [if_neg (by decide)]))

/-- The centroids stretched along the first class axis read the second class's centroid. -/
theorem colBcast_apply (mu : FVec Ideal S5x4 .f32) (a b : Fin 5) (ch : Fin 4) :
    broadcastInDim S5x5x4 ![0, 1, 2] bcast_S1x5x4_S5x5x4_0_1_2
        (broadcastInDim S1x5x4 ![1, 2] bcast_S5x4_S1x5x4_1_2 mu) (ix3 a b ch) = mu (ix2 b ch) :=
  (broadcastInDim_apply _ bcast_S1x5x4_S5x5x4_0_1_2 _ (ix3 a b ch) (ix3 (0 : Fin 1) b ch) (fun x => match x with
    | ⟨0, _⟩ => by show (0 : Nat) = if (1 : Nat) = 1 then 0 else a.val; rw [if_pos rfl]
    | ⟨1, _⟩ => by show b.val = if (5 : Nat) = 1 then 0 else b.val; rw [if_neg (by decide)]
    | ⟨2, _⟩ => by show ch.val = if (4 : Nat) = 1 then 0 else ch.val; rw [if_neg (by decide)])).trans
  (broadcastInDim_apply _ bcast_S5x4_S1x5x4_1_2 mu (ix3 (0 : Fin 1) b ch) (ix2 b ch) (fun x => match x with
    | ⟨0, _⟩ => by show b.val = if (5 : Nat) = 1 then 0 else b.val; rw [if_neg (by decide)]
    | ⟨1, _⟩ => by show ch.val = if (4 : Nat) = 1 then 0 else ch.val; rw [if_neg (by decide)]))

/-- The squared distance between the centroids of classes a and b. -/
theorem csqArr_apply (mu : FVec Ideal S5x4 .f32) (a b : Fin 5) :
    csqArr mu (ix2 a b) = Cert.Loss.csq (fun k ch => mu (ix2 k ch)) a b := by
  unfold csqArr Cert.Loss.csq
  rw [hostReduceAdd_apply, Ideal.hostReduceAdd_single reducesTo_S5x5x4_S5x5_d2 (by decide), zero_splat, zero_add]
  refine Finset.sum_congr rfl (fun (ch : Fin 4) _ => ?_)
  have e : (Shape.Reduces.lift (by decide : S5x5x4.Reduces [2] S5x5) (ix2 a b) ch) = ix3 a b ch :=
    funext fun x => Fin.ext (by match x with | ⟨0, _⟩ => rfl | ⟨1, _⟩ => rfl | ⟨2, _⟩ => rfl)
  rw [e, mulf_apply, subf_apply, rowBcast_apply, colBcast_apply]

/-- The kernel's norm array reads the kernel's norm of the element. -/
theorem normArrK_apply (s : FVec Ideal S5x5 .f32) (j : S5x5.Idx) : normArrK s j = Cert.Loss.normK (s j) := by
  unfold normArrK Cert.Loss.normK
  show Ideal.sqrt (max (s j) (broadcastInDim S5x5 ![] bcast_S_S5x5 (constant (F := Ideal) S_ .f32 0x00000000#32) j)) = _
  rw [broadcastInDim_scalar_apply, zero_splat]

/-- The bit of the diagonal mask at (a, b). -/
theorem diag_bit (a b : Fin 5) :
    IntOp.cmpi .eq (IntOp.addi (BitVec.ofNat 32 a.val) 0#32) (BitVec.ofNat 32 b.val) = if a = b then 1#1 else 0#1 := by
  fin_cases a <;> fin_cases b <;> rfl

/-- The bit 1 converts to one. -/
theorem uitofp_bit_one : FloatOps.uitofp (F := Ideal) .f32 1#1 = (1 : EReal) := by
  show (((1#1 : BitVec 1).toNat : ℝ) : EReal) = 1
  norm_num

/-- The bit 0 converts to zero. -/
theorem uitofp_bit_zero : FloatOps.uitofp (F := Ideal) .f32 0#1 = (0 : EReal) := by
  show (((0#1 : BitVec 1).toNat : ℝ) : EReal) = 0
  norm_num

/-- One minus the diagonal mask is 1 off the diagonal, 0 on it. -/
theorem offdArr_apply (a b : Fin 5) :
    subf (broadcastInDim S5x5 ![] bcast_S_S5x5 (constant (F := Ideal) S_ .f32 0x3F800000#32))
        (uitofp .f32
          (cmpi .eq (addi (iotaInDim S5x5 32 0) (broadcastInDim S5x5 ![] bcast_S_S5x5 (constantI S_ 32 0#32)))
            (iotaInDim S5x5 32 1))) (ix2 a b) = Cert.Loss.offd a b := by
  rw [subf_apply, broadcastInDim_scalar_apply, one_splat]
  show (1 : EReal) - FloatOps.uitofp (F := Ideal) .f32 (IntOp.cmpi .eq (IntOp.addi (BitVec.ofNat 32 a.val)
      (broadcastInDim S5x5 ![] bcast_S_S5x5 (constantI S_ 32 0#32) (ix2 a b))) (BitVec.ofNat 32 b.val)) = _
  rw [broadcastInDim_scalar_apply]
  show (1 : EReal) - FloatOps.uitofp (F := Ideal) .f32 (IntOp.cmpi .eq (IntOp.addi (BitVec.ofNat 32 a.val) 0#32)
      (BitVec.ofNat 32 b.val)) = _
  rw [diag_bit]
  unfold Cert.Loss.offd
  by_cases h : a = b
  · rw [if_pos h, if_pos h, uitofp_bit_one]
  · rw [if_neg h, if_neg h, uitofp_bit_zero]

/-- The separation term, with the kernel's norm. -/
theorem sepArr_apply (mu : FVec Ideal S5x4 .f32) (dd : FVec Ideal S_ .f32) (i : S_.Idx) :
    sepArr (normArrK (csqArr mu)) dd i
      = Cert.Loss.sep Cert.Loss.normK (fun k ch => mu (ix2 k ch)) (dd ix0) := by
  unfold sepArr Cert.Loss.sep
  rw [hostDivf_apply, constant_apply, word_twenty, hostReduceAdd_apply,
    Ideal.hostReduceAdd_total reducesTo_S5x5_S_d0_1 (fun b => b.elim0), zero_splat, zero_add]
  refine congrArg (fun t => Ideal.div t 20) (Finset.sum_congr rfl (fun j _ => ?_))
  obtain ⟨a, b, rfl⟩ : ∃ a b : Fin 5, j = ix2 a b := ⟨j 0, j 1, eq_ix2 j⟩
  rw [mulf_apply, offdArr_apply, mulf_apply, maximumf_apply, subf_apply, broadcastInDim_scalar_apply,
    broadcastInDim_scalar_apply, zero_splat, normArrK_apply, csqArr_apply]
  rfl

end Cert.KernelIdeal.Val

namespace Cert.Loss

/-- A squared distance is nonnegative, so the two norms agree on it and the separation terms agree. -/
theorem sep_normK_eq_normR (mu : Fin 5 → Fin 4 → EReal) (dd : EReal) : sep normK mu dd = sep normR mu dd := by
  unfold sep
  refine congrArg (fun t => Idealize.ShloMosaic.Ideal.div t 20) (Finset.sum_congr rfl (fun j _ => ?_))
  have e : normK (csq mu (j 0) (j 1)) = normR (csq mu (j 0) (j 1)) := by
    unfold normK csq
    exact sqrt_max_eq_normR _ (sum_sq_nonneg _ _)
  rw [e]

end Cert.Loss

end
-- ==== Proof.KValue.lean ====
/-
  The kernel's result as the clustering loss of the pixel table.

  The pixel table x and the label table lab are the reshaped arguments, which both passes find unchanged.  The first
  pass leaves the half counts and half channel sums; the host adds the halves and forms the centroids and the table;
  the second pass leaves the half totals of the weighted squared hinges; the host adds them, divides by 5, and adds
  the separation term of the centroids.
-/
import proofs.«415168_j88785563943727_3_alg».proof.Proof.KHost
import proofs.«415168_j88785563943727_3_alg».proof.Proof.KTable

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The pixel table: channel ch of pixel q of the reshaped prediction argument. -/
def xM (c : Dev nD) (ch : Fin 4) (q : Fin Cert.Loss.NP) : EReal :=
  shapeCast S4x2097152 (m ((c : Thread nD τ).loc main_arg0)) shapeCasts_S1x4x1024x2048_S4x2097152 (ix2 ch q)

/-- The label table: pixel q's label word of the reshaped label argument. -/
def lM (c : Dev nD) (q : Fin Cert.Loss.NP) : BitVec 32 :=
  shapeCast S1x2097152 (m ((c : Thread nD τ).loc main_arg1)) shapeCasts_S1x1024x2048_S1x2097152 (ix2 (0 : Fin 1) q)

/-- The hinge offset and the margin: the two scalar arguments. -/
def dvM (c : Dev nD) : EReal := (m ((c : Thread nD τ).loc main_arg2) : S_.Idx → Ideal .f32) ix0
def ddM (c : Dev nD) : EReal := (m ((c : Thread nD τ).loc main_arg3) : S_.Idx → Ideal .f32) ix0

theorem xV1 (c : Dev nD) : xV (V1 m ρ) c = xM m c := by
  funext ch q
  unfold xV xM
  exact congrFun (w1_v0 m ρ c) (ix2 ch q)

theorem lV1 (c : Dev nD) : lV (V1 m ρ) c = lM m c := by
  funext q
  unfold lV lM
  exact congrFun (w1_v1 m ρ c) (ix2 (0 : Fin 1) q)

theorem xV3 (c : Dev nD) : xV (V3 m ρ) c = xM m c := by
  funext ch q
  unfold xV xM
  exact congrFun ((w3_v0 m ρ c).trans (w1_v0 m ρ c)) (ix2 ch q)

theorem lV3 (c : Dev nD) : lV (V3 m ρ) c = lM m c := by
  funext q
  unfold lV lM
  exact congrFun ((w3_v1 m ρ c).trans (w1_v1 m ρ c)) (ix2 (0 : Fin 1) q)

theorem dvV3 (c : Dev nD) : dvV (V3 m ρ) c = dvM m c := by
  unfold dvV dvM
  have e := congrFun (w3_v14 m ρ c) (ix2 (0 : Fin 1) (0 : Fin 1))
  refine e.trans ?_
  exact shapeCast_apply _ shapeCasts_S_S1x1 _ ix0 (by rfl)

section
variable (hcnt : ∀ c : Dev nD, ((dat0 (V1 m ρ) c).arrAt 2 cfg0.N : S2x5x1.Idx → Ideal .f32)
      = fun i => Cert.Loss.halfCnt (lV (V1 m ρ) c) (i 0) (i 1))
  (hsum : ∀ c : Dev nD, ((dat0 (V1 m ρ) c).arrAt 3 cfg0.N : S2x5x4.Idx → Ideal .f32)
      = fun i => Cert.Loss.halfSum (xV (V1 m ρ) c) (lV (V1 m ρ) c) (i 0) (i 1) (i 2))
  (hvar : ∀ c : Dev nD, ((dat1 (V3 m ρ) c).arrAt 4 cfg1.N : S2x1x1.Idx → Ideal .f32)
      = fun i => Cert.Loss.halfVar (xV (V3 m ρ) c) (lV (V3 m ρ) c) (tV (V3 m ρ) c) (dvV (V3 m ρ) c) (i 0))

include hcnt hsum in
/-- The centroids between the passes. -/
theorem cen_value (c : Dev nD) (k : Fin 5) (ch : Fin 4) :
    (W3 m ρ c (Proc.devRef .tc main_v12) : S5x4.Idx → Ideal .f32) (ix2 k ch)
      = Cert.Loss.cen (Cert.Loss.cntK (lM m c)) (Cert.Loss.sumK (xM m c) (lM m c)) k ch := by
  rw [w3_v12, w2_v2_0, w2_v2_1]
  rw [cenArr_apply _ _ (Cert.Loss.halfCnt (lM m c)) (Cert.Loss.halfSum (xM m c) (lM m c))
    (fun h k => by rw [hcnt c, lV1]; rfl) (fun h k ch => by rw [hsum c, xV1, lV1]; rfl) k ch]
  rfl

include hcnt hsum in
/-- The table the second pass reads. -/
theorem tbl_value (c : Dev nD) :
    tV (V3 m ρ) c = Cert.Loss.tbl (Cert.Loss.cntK (lM m c)) (Cert.Loss.sumK (xM m c) (lM m c)) := by
  funext k j
  unfold tV
  show (W3 m ρ c (Proc.devRef .tc main_v13) : S5x5.Idx → Ideal .f32) (ix2 k j) = _
  rw [w3_v13, w2_v2_0, w2_v2_1]
  rw [tblArr_apply _ _ (Cert.Loss.halfCnt (lM m c)) (Cert.Loss.halfSum (xM m c) (lM m c))
    (fun h k => by rw [hcnt c, lV1]; rfl) (fun h k ch => by rw [hsum c, xV1, lV1]; rfl) k j]
  rfl

include hcnt hsum hvar in
/-- The result buffer holds the variance term plus the separation term of the pixel table. -/
theorem result_value (c : Dev nD) (i : S_.Idx) :
    (W5 m ρ c (Proc.devRef .tc main_v45) : S_.Idx → Ideal .f32) i
      = Cert.Loss.lvarK (xM m c) (lM m c) (dvM m c)
        + Cert.Loss.sep Cert.Loss.normK (Cert.Loss.cen (Cert.Loss.cntK (lM m c)) (Cert.Loss.sumK (xM m c) (lM m c)))
            (ddM m c) := by
  rw [w5_result]
  show lvarArr _ i + sepArr _ _ i = _
  congr 1
  · rw [w4_v15, hvar c, xV3, lV3, dvV3, tbl_value m ρ hcnt hsum c]
    unfold Cert.Loss.lvarK
    generalize Cert.Loss.halfVar (xM m c) (lM m c)
      (Cert.Loss.tbl (Cert.Loss.cntK (lM m c)) (Cert.Loss.sumK (xM m c) (lM m c))) (dvM m c) = hv
    exact lvarArr_apply _ hv (fun h => rfl) i
  · rw [sepArr_apply, w4_arg3, w4_v12]
    have e : (fun k ch => (W3 m ρ c (Proc.devRef .tc main_v12) : S5x4.Idx → Ideal .f32) (ix2 k ch))
        = Cert.Loss.cen (Cert.Loss.cntK (lM m c)) (Cert.Loss.sumK (xM m c) (lM m c)) :=
      funext fun k => funext fun ch => cen_value m ρ hcnt hsum c k ch
    rw [e]
    rfl
end

end Cert.KernelIdeal.Val

end
-- ==== Proof.LibScatterRead.lean ====
/-
  Reading a scatter whose body returns the update ("set") at an index.

  `Host.scatter d (fun _ b => b) x idx upd` is a left fold of point updates over the update indices in row-major
  order.  At a result index that no update index lands on, the fold leaves the operand's element; at a result index
  that exactly one update index lands on, it leaves that update's element, wherever in the order it stands.
  The element type is arbitrary: the same two facts read a float array and a boolean mask.
-/
import Idealize.ShloMosaic.PureOps.ShapeOps

namespace Cert.LibScatterRead

open Idealize.ShloMosaic

variable {s si u : Shape} {w : Nat} {α : Type}

/-- One step of the fold: the point update of update number `n`. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the element at `i'`. -/
theorem step_miss (d : ScatterDims s si u) (idx : IVec si w) (upd : u.Idx → α) (r : s.Idx → α) (n : Fin u.numel)
    (i' : s.Idx) (h : d.resultIdx? (u.rowMajor.symm n) idx ≠ some i') : step d idx upd r n i' = r i' := by
  unfold step
  cases hr : d.resultIdx? (u.rowMajor.symm n) idx with
  | none => rfl
  | some i =>
    have hne : i' ≠ i := fun e => h (by rw [hr, e])
    simp only [if_neg hne]

/-- A step whose update lands at `i'` leaves the update's element there. -/
theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step
  rw [h]
  exact if_pos rfl

theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (step d idx upd) r i' = r i'
  | [], _, _ => rfl
  | a :: t, r, h => by
    rw [List.foldl_cons, foldl_miss d idx upd i' t _ (fun n hn => h n (List.mem_cons_of_mem _ hn)),
      step_miss d idx upd r a i' (h a List.mem_cons_self)]

theorem foldl_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (step d idx upd) r i' = upd (u.rowMajor.symm n0)
  | [], _, hm, _ => absurd hm List.not_mem_nil
  | a :: t, r, hm, hu => by
    rw [List.foldl_cons]
    by_cases ht : n0 ∈ t
    · exact foldl_hit d idx upd i' n0 h0 t _ ht (fun n hn => hu n (List.mem_cons_of_mem _ hn))
    · have ha : a = n0 := by
        rcases List.mem_cons.1 hm with e | e
        · exact e.symm
        · exact absurd e ht
      rw [foldl_miss d idx upd i' t _ (fun n hn e => ht (hu n (List.mem_cons_of_mem _ hn) e ▸ hn)), ha,
        step_hit d idx upd r n0 i' h0]

/-- At a result index no update lands on, the scatter leaves the operand's element. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x (fun n _ => h _)

/-- At a result index exactly one update index `j` lands on, the scatter leaves that update's element. -/
theorem scatter_set_hit (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  have := foldl_hit d idx upd i' (u.rowMajor j) h0 (List.finRange u.numel) x (List.mem_finRange _)
    (fun n _ e => by
      have := huniq _ e
      rw [← this, Equiv.apply_symm_apply])
  rw [this, Equiv.symm_apply_apply]

/-- Update index `j` lands at `i'` exactly when on every axis `i'` is the start plus the window coordinate. -/
theorem resultIdx?_eq_some_iff (d : ScatterDims s si u) (j : u.Idx) (idx : IVec si w) (i' : s.Idx) :
    d.resultIdx? j idx = some i' ↔ ∀ a, ((i' a).val : Int) = d.start j idx a + d.window j a := by
  unfold ScatterDims.resultIdx?
  split
  · rename_i h
    rw [Option.some.injEq]
    constructor
    · rintro rfl a
      have := (h a).1
      simp only [Int.toNat_of_nonneg this]
    · intro hi
      funext a
      apply Fin.ext
      have := hi a
      simp only
      omega
  · rename_i h
    constructor
    · intro hh; cases hh
    · intro hi
      exfalso
      apply h
      intro a
      have := hi a
      have := (i' a).isLt
      omega

end Cert.LibScatterRead
-- ==== Proof.LibScatterRows.lean ====
/-
  A scatter that adds whole rows, read at an index.

  The operand has rows i < N of C columns; the scatter indices are a column of n start rows; update row e is added to
  the operand's row at the e-th start index read as a signed integer, column by column, and dropped when that row does
  not exist.  So entry (i, k) of the result is the operand's entry plus the sum, over the update rows e whose start
  index is i, of the update's entry (e, k).  Stated for the exact float sum and for the integer fold.
-/
import Idealize.ShloMosaic.Lib.ValueIdx
import Idealize.ShloMosaic.PureOps.Ideal
import Idealize.ShloMosaic.PureOps.Contract
import Mathlib.Data.BitVec
import proofs.«415168_j88785563943727_3_alg».proof.Proof.LibScatterRead

noncomputable section

namespace Cert.ScatterRows

open Idealize.ShloMosaic Idealize.ShloMosaic.ValueIdx

variable {N C n w : Nat}

/-- Update entry (e, k) lands on operand entry (i, k') exactly when the e-th start index, read signed, is i and the
    columns agree.  The hypotheses are the printed dimension numbers, each by `rfl`. -/
theorem resultIdx?_rows2 (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k : Fin C) (i : Fin N) (k' : Fin C) :
    d.resultIdx? (ix2 e k) idx = some (ix2 i k') ↔ (idx (ix2 e (0 : Fin 1))).toInt = (i.val : ℤ) ∧ k = k' := by
  rw [Cert.LibScatterRead.resultIdx?_eq_some_iff]
  -- the operand's kept axis is its second; the update's scatter axis is its first
  have hsk : d.sKept = [1] := by
    show (List.finRange 2).filter (· ∉ d.insertedWindowDims) = _
    rw [hiw]; rfl
  have hus : d.uScatter = [0] := by
    show (List.finRange 2).filter (· ∉ d.updateWindowDims) = _
    rw [huw]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  -- the start index read for update row e is the column's entry at e
  have hsi : d.siIdx (ix2 e k) ⟨List.idxOf (0 : Fin 2) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 2, X ∈ d.uScatter → ((ix2 e k : (⟨2, ![n, C]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 2) d.scatterDimsToOperandDims = 0
      rw [hsd]; simp
  -- the row axis: start-indexed and inserted; the column axis: not start-indexed, the window's own coordinate
  have hs0 : d.start (ix2 e k) idx 0 = (idx (ix2 e (0 : Fin 1))).toInt := by
    unfold ScatterDims.start
    rw [dif_pos hm0, hsi]
  have hs1 : d.start (ix2 e k) idx 1 = 0 := by
    unfold ScatterDims.start
    rw [dif_neg hm1]
  have hw0 : d.window (ix2 e k) 0 = 0 := by
    unfold ScatterDims.window
    rw [dif_neg hk0]
  have hw1 : d.window (ix2 e k) 1 = k.val := by
    unfold ScatterDims.window
    rw [dif_pos hk1]
    have e' : ∀ X : Fin 2, X ∈ d.updateWindowDims → ((ix2 e k : (⟨2, ![n, C]⟩ : Shape).Idx) X).val = k.val := fun X hX => by
      rw [huw] at hX
      obtain rfl := List.mem_singleton.mp hX
      rfl
    exact e' _ (List.getElem_mem _)
  have hi0 : (((ix2 i k' : (⟨2, ![N, C]⟩ : Shape).Idx) 0).val : Int) = (i.val : Int) := rfl
  have hi1 : (((ix2 i k' : (⟨2, ![N, C]⟩ : Shape).Idx) 1).val : Int) = (k'.val : Int) := rfl
  constructor
  · intro h
    have h0 := h 0
    have h1 := h 1
    rw [hs0, hw0, hi0] at h0
    rw [hs1, hw1, hi1] at h1
    refine ⟨by omega, Fin.ext (by omega)⟩
  · rintro ⟨h0, rfl⟩ a
    match a with
    | ⟨0, _⟩ =>
      show (((ix2 i k : (⟨2, ![N, C]⟩ : Shape).Idx) 0).val : Int) = d.start (ix2 e k) idx 0 + d.window (ix2 e k) 0
      rw [hs0, hw0, hi0, h0]; simp
    | ⟨1, _⟩ =>
      show (((ix2 i k : (⟨2, ![N, C]⟩ : Shape).Idx) 1).val : Int) = d.start (ix2 e k) idx 1 + d.window (ix2 e k) 1
      rw [hs1, hw1, hi1]; simp

/-- The update indices that land on operand entry (i, k) are the (e, k) whose start index is i, so a sum over them
    is a sum over those rows e. -/
theorem sum_landing_rows2 {M : Type} [AddCommMonoid M] (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (upd : (⟨2, ![n, C]⟩ : Shape).Idx → M)
    (i : Fin N) (k : Fin C) :
    ∑ j ∈ Finset.univ.filter (fun j => d.resultIdx? j idx = some (ix2 i k)), upd j
      = ∑ e ∈ Finset.univ.filter (fun e : Fin n => (idx (ix2 e (0 : Fin 1))).toInt = (i.val : ℤ)),
          upd (ix2 e k) := by
  symm
  refine Finset.sum_bij (fun e _ => ix2 e k) ?_ ?_ ?_ ?_
  · intro e he
    rw [Finset.mem_filter] at he ⊢
    exact ⟨Finset.mem_univ _, (resultIdx?_rows2 d huw hiw hsd hivd idx e k i k).2 ⟨he.2, rfl⟩⟩
  · intro e1 _ e2 _ h
    exact congrFun h 0
  · intro j hj
    rw [Finset.mem_filter] at hj
    have hj2 := hj.2
    rw [eq_ix2 j] at hj2
    obtain ⟨h0, h1⟩ := (resultIdx?_rows2 d huw hiw hsd hivd idx (j 0) (j 1) i k).1 hj2
    refine ⟨j 0, ?_, ?_⟩
    · exact Finset.mem_filter.2 ⟨Finset.mem_univ _, h0⟩
    · rw [← h1]; exact (eq_ix2 j).symm
  · intro e _; rfl

/-- A scatter whose body adds, in a commutative monoid, read at one result index: the operand's element plus the sum
    of the update elements that land there.  The fold visits the update indices in row-major order, each exactly
    once, and the order does not matter to the sum. -/
theorem scatter_add_eq {M : Type} [AddCommMonoid M] {s si u : Shape} (d : ScatterDims s si u) (x : s.Idx → M)
    (idx : IVec si w) (upd : u.Idx → M) (i' : s.Idx) :
    Host.scatter d (fun a b => a + b) x idx upd i'
      = x i' + ∑ j ∈ Finset.univ.filter (fun j => d.resultIdx? j idx = some i'), upd j := by
  have hfold : ∀ (l : List (Fin u.numel)) (r : s.Idx → M),
      l.foldl (fun r n =>
          match d.resultIdx? (u.rowMajor.symm n) idx with
          | some i => fun i' => if i' = i then r i + upd (u.rowMajor.symm n) else r i'
          | none => r) r i'
        = r i' + (l.map fun n =>
            if d.resultIdx? (u.rowMajor.symm n) idx = some i' then upd (u.rowMajor.symm n) else 0).sum := by
    intro l
    induction l with
    | nil => intro r; simp
    | cons a t ih =>
      intro r
      rw [List.foldl_cons, ih, List.map_cons, List.sum_cons]
      cases hr : d.resultIdx? (u.rowMajor.symm a) idx with
      | none => simp
      | some i =>
        by_cases hi : i = i'
        · subst hi; simp [add_assoc]
        · have hi' : i' ≠ i := fun e => hi e.symm
          simp [hi, hi']
  refine (hfold (List.finRange u.numel) x).trans ?_
  rw [← Fin.sum_univ_def, Finset.sum_filter]
  congr 1
  exact Equiv.sum_comp u.rowMajor.symm (fun j => if d.resultIdx? j idx = some i' then upd j else 0)

/-- The exact float scatter-add of rows at entry (i, k). -/
theorem scatterAdd_rows2 {φ : FTy} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (i : Fin N) (k : Fin C) :
    Host.scatterAdd d x idx upd (ix2 i k)
      = x (ix2 i k) + ∑ e ∈ Finset.univ.filter (fun e : Fin n => (idx (ix2 e (0 : Fin 1))).toInt = (i.val : ℤ)),
          upd (ix2 e k) := by
  show Ideal.hostScatterAdd d x idx upd (ix2 i k) = _
  unfold Ideal.hostScatterAdd
  rw [sum_landing_rows2 d huw hiw hsd hivd idx upd i k]

/-- The integer scatter-add of rows (the fold of wrapping additions in row-major order) at entry (i, k). -/
theorem scatter_addi_rows2 {v : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : IVec ⟨2, ![N, C]⟩ v) (idx : IVec ⟨2, ![n, 1]⟩ w)
    (upd : IVec ⟨2, ![n, C]⟩ v) (i : Fin N) (k : Fin C) :
    Host.scatter d IntOp.addi x idx upd (ix2 i k)
      = x (ix2 i k) + ∑ e ∈ Finset.univ.filter (fun e : Fin n => (idx (ix2 e (0 : Fin 1))).toInt = (i.val : ℤ)),
          upd (ix2 e k) := by
  show Host.scatter d (fun a b => a + b) x idx upd (ix2 i k) = _
  rw [scatter_add_eq, sum_landing_rows2 d huw hiw hsd hivd idx upd i k]

/-- Counting in 32-bit words does not wrap below 2^31: the sum of s.card ones over zero, read signed, is s.card. -/
theorem toInt_count (hn : n < 2 ^ 31) (s : Finset (Fin n)) :
    (0#32 + ∑ _e ∈ s, (1#32 : BitVec 32)).toInt = (s.card : ℤ) := by
  have hc : s.card ≤ n := by
    have := Finset.card_le_univ s
    rwa [Fintype.card_fin] at this
  have hsum : (0#32 + ∑ _e ∈ s, (1#32 : BitVec 32)) = BitVec.ofNat 32 s.card := by
    rw [Finset.sum_const, nsmul_eq_mul, BitVec.natCast_eq_ofNat]
    simp
  rw [hsum, BitVec.toInt_eq_toNat_of_lt, BitVec.toNat_ofNat, Nat.mod_eq_of_lt (by omega)]
  rw [BitVec.toNat_ofNat, Nat.mod_eq_of_lt (by omega)]
  omega

end Cert.ScatterRows

end
-- ==== Proof.LibGatherRows.lean ====
/-
  A `stablehlo.gather` that takes whole rows: what `x[idx]` lowers to when `x` has two or three axes and `idx` is a
  list of positions on the first.  The start indices are the list as an [n × 1] column; the operand's first axis is
  collapsed and start-indexed, its other axes are offset axes taken whole.  Result row `j` is the operand's row at
  the `j`-th start index read as a signed integer and clamped into the rows that exist (StableHLO's clamp): a negative
  index reads row 0, one past the end reads the last row.
-/
import Idealize.ShloMosaic.Lib.ValueIdx

noncomputable section

namespace Cert.GatherRows

open Idealize.ShloMosaic Idealize.ShloMosaic.ValueIdx

/-- Rows of a matrix: `[N, C]` at `[n, 1]` start indices gives `[n, C]`; entry `(j, k)` is the operand's at
    (clamped start index `j`, `k`).  The hypotheses are the printed dimension numbers, each by `rfl`. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil
  -- the result's one batch axis is its first
  have hbd : d.batchDims = [0] := by
    show (List.finRange 2).filter (· ∉ d.offsetDims) = _
    rw [hoff]; rfl
  match a with
  | ⟨0, _⟩ =>
    -- the row axis: collapsed and start-indexed, so no offset or batching part, a slice of one row, and the start
    -- index clamped into the rows; the start index read is the column's entry at the result's row
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: an offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

/-- Rows of a stack of matrices: `[N, L, C]` at `[n, 1]` start indices gives `[n, L, C]`; entry `(j, l, k)` is the
    operand's at (clamped start index `j`, `l`, `k`). -/
theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil
  -- the result's one batch axis is its first; the operand's kept axes are its second and third
  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl
  -- an operand axis that is kept and not start-indexed reads the result's coordinate on the offset axis in its position
  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>
    -- the row axis: collapsed and start-indexed, so no offset or batching part, a slice of one row, and the start
    -- index clamped into the rows; the start index read is the column's entry at the result's row
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>
    -- the second axis: the first of the two offset axes
    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>
    -- the third axis: the second of the two offset axes
    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.LibScatterRows1.lean ====
/-
  A scatter that adds scalars into a rank-1 operand at a column of start indices, read at an entry.

  The operand is a vector of N entries; the scatter indices are an [n, 1] column of start positions of any word width;
  update entry e is added to the operand's entry at the e-th start index read as a signed integer, and dropped when
  that entry does not exist.  So entry i of the result is the operand's entry plus the sum, over the update entries e
  whose start index is i, of the update's entry e.  General in N, n and the index width; stated for the exact float
  sum, with the landing condition and the re-indexed sum as separate lemmas.
-/
import Idealize.ShloMosaic.Lib.ValueIdx
import Idealize.ShloMosaic.PureOps.Ideal
import Idealize.ShloMosaic.PureOps.Ideal.Laws
import Idealize.ShloMosaic.PureOps.Contract
import Mathlib.Data.BitVec
import proofs.«415168_j88785563943727_3_alg».proof.Proof.LibScatterRead
import proofs.«415168_j88785563943727_3_alg».proof.Proof.LibScatterRows

noncomputable section

namespace Cert.ScatterRows1

open Idealize.ShloMosaic Idealize.ShloMosaic.ValueIdx

variable {N n w : Nat}

/-- Update entry e lands on operand entry i exactly when the e-th start index, read signed, is i.  The hypotheses are
    the printed dimension numbers, each by rfl. -/
theorem resultIdx?_rows1 (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e (0 : Fin 1))).toInt = (i.val : ℤ) := by
  rw [Cert.LibScatterRead.resultIdx?_eq_some_iff]
  -- the operand keeps no axis; the update's one axis is its scatter axis
  have hsk : d.sKept = [] := by
    show (List.finRange 1).filter (· ∉ d.insertedWindowDims) = _
    rw [hiw]; rfl
  have hus : d.uScatter = [0] := by
    show (List.finRange 1).filter (· ∉ d.updateWindowDims) = _
    rw [huw]; rfl
  have hm0 : (0 : Fin 1) ∈ d.scatterDimsToOperandDims := by rw [hsd]; exact List.mem_singleton.mpr rfl
  have hk0 : (0 : Fin 1) ∉ d.sKept := by rw [hsk]; simp
  -- the start index read for update entry e is the column's entry at e
  have hsi : d.siIdx (ix1 e) ⟨List.idxOf (0 : Fin 1) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 1, X ∈ d.uScatter → ((ix1 e : (⟨1, ![n]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 1) d.scatterDimsToOperandDims = 0
      rw [hsd]; simp
  have hs0 : d.start (ix1 e) idx 0 = (idx (ix2 e (0 : Fin 1))).toInt := by
    unfold ScatterDims.start
    rw [dif_pos hm0, hsi]
  have hw0 : d.window (ix1 e) 0 = 0 := by
    unfold ScatterDims.window
    rw [dif_neg hk0]
  have hi0 : (((ix1 i : (⟨1, ![N]⟩ : Shape).Idx) 0).val : Int) = (i.val : Int) := rfl
  constructor
  · intro h
    have h0 := h 0
    rw [hs0, hw0, hi0] at h0
    omega
  · intro h0 a
    match a with
    | ⟨0, _⟩ =>
      show (((ix1 i : (⟨1, ![N]⟩ : Shape).Idx) 0).val : Int) = d.start (ix1 e) idx 0 + d.window (ix1 e) 0
      rw [hs0, hw0, hi0, h0]; simp

/-- The update indices that land on operand entry i are the e whose start index is i. -/
theorem sum_landing_rows1 {M : Type} [AddCommMonoid M] (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (upd : (⟨1, ![n]⟩ : Shape).Idx → M) (i : Fin N) :
    ∑ j ∈ Finset.univ.filter (fun j => d.resultIdx? j idx = some (ix1 i)), upd j
      = ∑ e ∈ Finset.univ.filter (fun e : Fin n => (idx (ix2 e (0 : Fin 1))).toInt = (i.val : ℤ)),
          upd (ix1 e) := by
  symm
  refine Finset.sum_bij (fun e _ => ix1 e) ?_ ?_ ?_ ?_
  · intro e he
    rw [Finset.mem_filter] at he ⊢
    exact ⟨Finset.mem_univ _, (resultIdx?_rows1 d huw hiw hsd hivd idx e i).2 he.2⟩
  · intro e1 _ e2 _ h
    exact congrFun h 0
  · intro j hj
    rw [Finset.mem_filter] at hj
    have hj2 := hj.2
    rw [eq_ix1 j] at hj2
    have h0 := (resultIdx?_rows1 d huw hiw hsd hivd idx (j 0) i).1 hj2
    refine ⟨j 0, ?_, ?_⟩
    · exact Finset.mem_filter.2 ⟨Finset.mem_univ _, h0⟩
    · exact (eq_ix1 j).symm
  · intro e _; rfl

/-- The exact float scatter-add of entries at entry i. -/
theorem scatterAdd_rows1 {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (i : Fin N) :
    Host.scatterAdd d x idx upd (ix1 i)
      = x (ix1 i) + ∑ e ∈ Finset.univ.filter (fun e : Fin n => (idx (ix2 e (0 : Fin 1))).toInt = (i.val : ℤ)),
          upd (ix1 e) := by
  show Ideal.hostScatterAdd d x idx upd (ix1 i) = _
  unfold Ideal.hostScatterAdd
  rw [sum_landing_rows1 d huw hiw hsd hivd idx upd i]

end Cert.ScatterRows1

end
-- ==== Proof.RefValue.lean ====
/-
  The reference's variance term and centroids, read off its run as the clustering loss of the pixel table.

  The reference scatters ones, pixel rows and squared hinges into five class slots at each pixel's label (a label
  that, read signed, is no class is dropped), divides by max(count, 1), gathers each pixel's centroid by a clamped
  row gather, and takes the zero-safe norm of the distance.
-/
import proofs.«415168_j88785563943727_3_alg».proof.Proof.Gen.ReferenceIdeal.Run
import proofs.«415168_j88785563943727_3_alg».proof.Proof.Gen.ReferenceIdeal.Read
import proofs.«415168_j88785563943727_3_alg».proof.Proof.Loss
import proofs.«415168_j88785563943727_3_alg».proof.Proof.LibScatterRead
import proofs.«415168_j88785563943727_3_alg».proof.Proof.LibScatterRows
import proofs.«415168_j88785563943727_3_alg».proof.Proof.LibGatherRows
import proofs.«415168_j88785563943727_3_alg».proof.Proof.LibScatterRows1
import Idealize.ShloMosaic.Lib.ValueIdx
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe
open Idealize.ShloMosaic.ValueIdx

variable (x0 : (⟨S1x4x1024x2048, .f32⟩ : BufTy).Contents (Elt Ideal)) (x1 : (⟨S1x1024x2048, .i32⟩ : BufTy).Contents (Elt Ideal))
  (x2 : (⟨S_, .f32⟩ : BufTy).Contents (Elt Ideal))

/-- Channel ch of pixel q: the reshaped prediction array. -/
def xR (ch : Fin 4) (q : Fin Cert.Loss.NP) : EReal := val_main_v0 (F := Ideal) x0 (ix2 ch q)

/-- Pixel q's label word: the reshaped label array. -/
def lR (q : Fin Cert.Loss.NP) : BitVec 32 := val_main_v1 (F := Ideal) x1 (ix1 q)

/-! ## The broadcast words as numbers -/

/-- The word of the float 5.0 is the number five: sign 0, exponent 129, fraction 2^21, so (2^23 + 2^21) * 2^(-21). -/
theorem ofBits_five : Ideal.ofBits .f32 0x40A00000#32 = 5 := by
  rw [show (5 : EReal) = ((5 : ℝ) : EReal) by norm_cast]
  simp [Ideal.ofBits, Ideal.ieee, -EReal.coe_mul]; norm_num

/-! ## The counts -/

/-- The start index of update row e in the three scatters is pixel e's label. -/
theorem v4_at (e : Fin 2097152) : val_main_v4 (F := Ideal) x1 (ix2 e (0 : Fin 1)) = lR x1 e := by
  rw [val_main_v4_apply]
  unfold lR
  congr 1
  funext a
  match a with
  | ⟨0, _⟩ => rfl

theorem v2_at (e : Fin 2097152) : val_main_v2 (F := Ideal) (ix1 e) = 1 := by
  rw [val_main_v2_apply, val_main_cst_apply, Ideal.ofBits_def, Ideal.ofBits_one_f32]

theorem v3_at (k : Fin 5) : val_main_v3 (F := Ideal) (ix1 k) = 0 := by
  rw [val_main_v3_apply, val_main_cst_0_apply, Ideal.ofBits_def, Ideal.ofBits_zero_f32]

/-- The scattered ones: slot k holds the number of pixels labelled k. -/
theorem cnt_ref (k : Fin 5) : val_main_v5 (F := Ideal) x1 (ix1 k) = Cert.Loss.cntR (lR x1) k := by
  unfold val_main_v5
  rw [Cert.ScatterRows1.scatterAdd_rows1 _ rfl rfl rfl rfl, v3_at, zero_add]
  unfold Cert.Loss.cntR
  have hf : (Finset.univ.filter fun e : Fin 2097152 =>
        (val_main_v4 (F := Ideal) x1 (ix2 e (0 : Fin 1))).toInt = (k.val : ℤ))
      = Finset.univ.filter (fun q : Fin Cert.Loss.NP => Cert.Loss.hit (lR x1 q) k) :=
    Finset.filter_congr (fun e _ => by rw [v4_at]; rfl)
  rw [hf]
  exact Finset.sum_congr rfl (fun e _ => v2_at e)

/-! ## The channel sums -/

theorem v8_at (e : Fin 2097152) : val_main_v8 (F := Ideal) x1 (ix2 e (0 : Fin 1)) = lR x1 e := by
  rw [val_main_v8_apply]
  unfold lR
  congr 1
  funext a
  match a with
  | ⟨0, _⟩ => rfl

/-- Update row e of the second scatter is pixel e's channels: the transpose of the pixel table. -/
theorem v6_at (e : Fin 2097152) (ch : Fin 4) : val_main_v6 (F := Ideal) x0 (ix2 e ch) = xR x0 ch e := by
  rw [val_main_v6_apply]
  unfold xR
  congr 1
  funext a
  match a with
  | ⟨0, _⟩ => rfl
  | ⟨1, _⟩ => rfl

theorem v7_at (k : Fin 5) (ch : Fin 4) : val_main_v7 (F := Ideal) (ix2 k ch) = 0 := by
  rw [val_main_v7_apply, val_main_cst_1_apply, Ideal.ofBits_def, Ideal.ofBits_zero_f32]

/-- The scattered pixel rows: entry (k, ch) holds the sum of channel ch over the pixels labelled k. -/
theorem sum_ref (k : Fin 5) (ch : Fin 4) :
    val_main_v9 (F := Ideal) x0 x1 (ix2 k ch) = Cert.Loss.sumR (xR x0) (lR x1) k ch := by
  unfold val_main_v9
  rw [Cert.ScatterRows.scatterAdd_rows2 _ rfl rfl rfl rfl, v7_at, zero_add]
  unfold Cert.Loss.sumR
  have hf : (Finset.univ.filter fun e : Fin 2097152 =>
        (val_main_v8 (F := Ideal) x1 (ix2 e (0 : Fin 1))).toInt = (k.val : ℤ))
      = Finset.univ.filter (fun q : Fin Cert.Loss.NP => Cert.Loss.hit (lR x1 q) k) :=
    Finset.filter_congr (fun e _ => by rw [v8_at]; rfl)
  rw [hf]
  exact Finset.sum_congr rfl (fun e _ => v6_at x0 e ch)

/-! ## The centroids -/

theorem v10_at (k : Fin 5) : val_main_v10 (F := Ideal) (ix1 k) = 1 := by
  rw [val_main_v10_apply, val_main_cst_2_apply, Ideal.ofBits_def, Ideal.ofBits_one_f32]

/-- The divisor of class k: its count, at least one. -/
theorem v11_at (k : Fin 5) : val_main_v11 (F := Ideal) x1 (ix1 k) = Cert.Loss.den (Cert.Loss.cntR (lR x1)) k := by
  rw [val_main_v11_apply, Ideal.maximumf_def, cnt_ref, v10_at]
  rfl

theorem v13_at (k : Fin 5) (ch : Fin 4) :
    val_main_v13 (F := Ideal) x1 (ix2 k ch) = Cert.Loss.den (Cert.Loss.cntR (lR x1)) k := by
  rw [val_main_v13_apply, val_main_v12_apply, ← v11_at]
  congr 1
  funext a
  match a with
  | ⟨0, _⟩ => rfl

/-- The reference's centroid array is the centroid of the scattered counts and sums. -/
theorem cen_ref (k : Fin 5) (ch : Fin 4) :
    val_main_v14 (F := Ideal) x0 x1 (ix2 k ch)
      = Cert.Loss.cen (Cert.Loss.cntR (lR x1)) (Cert.Loss.sumR (xR x0) (lR x1)) k ch := by
  rw [val_main_v14_apply, Ideal.hostDivf_def, sum_ref, v13_at]
  rfl

/-! ## The gathered centroid row -/

/-- A select on a decided comparison bit is the if. -/
theorem select_ofBool {α : Type} (p : Prop) [Decidable p] (a b : α) :
    Scalar.select (BitVec.ofBool (decide p)) a b = if p then a else b := by
  unfold Scalar.select
  by_cases h : p <;> simp [h]

/-- The start index of the gather for pixel q: the label, shifted up by five when negative. -/
theorem v20_at (q : Fin 2097152) :
    val_main_v20 (F := Ideal) x1 (ix2 q (0 : Fin 1))
      = (if (lR x1 q).slt 0#32 then lR x1 q + 5#32 else lR x1 q) := by
  have hi : idx_main_v20 (ix2 q (0 : Fin 1)) = ix1 q := by
    funext a
    match a with
    | ⟨0, _⟩ => rfl
  rw [val_main_v20_apply, hi, val_main_v19_apply, val_main_v16_apply, val_main_v18_apply, val_main_v15_apply,
    val_main_c_apply, val_main_v17_apply, val_main_c_3_apply]
  show Scalar.select (BitVec.ofBool ((lR x1 q).slt 0#32)) (lR x1 q + 5#32) (lR x1 q) = _
  generalize lR x1 q = l
  unfold Scalar.select
  cases h : l.slt 0#32 <;> simp

/-- Row q of the gather is the centroid row the label selects. -/
theorem v21_at (q : Fin 2097152) (ch : Fin 4) :
    val_main_v21 (F := Ideal) x0 x1 (ix2 q ch)
      = val_main_v14 (F := Ideal) x0 x1 (ix2 (Cert.Loss.rowOf (lR x1 q)) ch) := by
  unfold val_main_v21
  rw [Cert.GatherRows.gather_rows2 (by decide) _ rfl rfl rfl rfl rfl]
  refine congrArg (fun r => val_main_v14 (F := Ideal) x0 x1 (ix2 r ch)) (Fin.ext ?_)
  show min (val_main_v20 (F := Ideal) x1 (ix2 q (0 : Fin 1))).toInt.toNat (5 - 1)
    = min (if (lR x1 q).slt 0#32 then lR x1 q + 5#32 else lR x1 q).toInt.toNat 4
  rw [v20_at]

/-! ## The squared hinge of one pixel -/

theorem v22_at (q : Fin 2097152) (ch : Fin 4) : val_main_v22 (F := Ideal) x0 (ix2 q ch) = xR x0 ch q := by
  rw [val_main_v22_apply]
  unfold xR
  congr 1
  funext a
  match a with
  | ⟨0, _⟩ => rfl
  | ⟨1, _⟩ => rfl

/-- The squared distance of pixel q to its gathered centroid. -/
theorem v25_at (q : Fin 2097152) :
    val_main_v25 (F := Ideal) x0 x1 (ix1 q)
      = Cert.Loss.dsqR (fun k ch => val_main_v14 (F := Ideal) x0 x1 (ix2 k ch)) (fun ch => xR x0 ch q) (lR x1 q) := by
  rw [val_main_v25_apply, val_main_cst_4_apply, Ideal.ofBits_def, Ideal.ofBits_zero_f32, zero_add]
  unfold Cert.Loss.dsqR
  refine Finset.sum_congr rfl (fun ch _ => ?_)
  have hi : idx_main_v25 (ix1 q) ch = ix2 q ch := by
    funext a
    match a with
    | ⟨0, _⟩ => rfl
    | ⟨1, _⟩ => rfl
  rw [hi, val_main_v24_apply, val_main_v23_apply, Ideal.mulf_def, Ideal.subf_def, v21_at, v22_at]

/-- The comparison bit of the zero-safe norm. -/
theorem v27_at (q : Fin 2097152) :
    val_main_v27 (F := Ideal) x0 x1 (ix1 q)
      = BitVec.ofBool (decide (0 < val_main_v25 (F := Ideal) x0 x1 (ix1 q))) := by
  rw [val_main_v27_apply, Ideal.cmpf_def, val_main_v26_apply, val_main_cst_5_apply, Ideal.ofBits_def,
    Ideal.ofBits_zero_f32]
  rfl

theorem call0_at (q : Fin 2097152) : val_main_call0_v1 (F := Ideal) (ix1 q) = 1 := by
  rw [val_main_call0_v1_apply, val_main_call0_v0_apply, val_main_cst_6_apply, Ideal.ofBits_def, Ideal.ofBits_one_f32]

theorem call1_at (q : Fin 2097152) : val_main_call1_v1 (F := Ideal) (ix1 q) = 0 := by
  rw [val_main_call1_v1_apply, val_main_call1_v0_apply, val_main_cst_7_apply, Ideal.ofBits_def, Ideal.ofBits_zero_f32]

/-- The zero-safe norm: the root of the squared distance where it is positive, zero elsewhere. -/
theorem v30_at (q : Fin 2097152) :
    val_main_v30 (F := Ideal) x0 x1 (ix1 q) = Cert.Loss.normR (val_main_v25 (F := Ideal) x0 x1 (ix1 q)) := by
  rw [val_main_v30_apply, val_main_v29_apply, val_main_v28_apply, v27_at, Ideal.hostUnary_sqrt_def, select_ofBool,
    select_ofBool, call0_at, call1_at]
  rfl

theorem v33_at (q : Fin 2097152) : val_main_v33 (F := Ideal) (ix1 q) = 0 := by
  rw [val_main_v33_apply, val_main_cst_8_apply, Ideal.ofBits_def, Ideal.ofBits_zero_f32]

theorem v34_at (q : Fin 2097152) :
    val_main_v34 (F := Ideal) x0 x1 x2 (ix1 q)
      = Cert.Loss.hingeR (val_main_v25 (F := Ideal) x0 x1 (ix1 q)) (x2 ix0) := by
  rw [val_main_v34_apply, Ideal.maximumf_def, val_main_v32_apply, Ideal.subf_def, v30_at, val_main_v31_apply, v33_at]
  rfl

/-- The squared hinge of pixel q. -/
theorem v35_at (q : Fin 2097152) :
    val_main_v35 (F := Ideal) x0 x1 x2 (ix1 q)
      = Cert.Loss.pixR (fun k ch => val_main_v14 (F := Ideal) x0 x1 (ix2 k ch)) (x2 ix0) (fun ch => xR x0 ch q)
          (lR x1 q) := by
  rw [val_main_v35_apply, Ideal.mulf_def, v34_at, v25_at]
  rfl

/-! ## The variance term -/

theorem v37_at (e : Fin 2097152) : val_main_v37 (F := Ideal) x1 (ix2 e (0 : Fin 1)) = lR x1 e := by
  rw [val_main_v37_apply]
  unfold lR
  congr 1
  funext a
  match a with
  | ⟨0, _⟩ => rfl

theorem v36_at (k : Fin 5) : val_main_v36 (F := Ideal) (ix1 k) = 0 := by
  rw [val_main_v36_apply, val_main_cst_9_apply, Ideal.ofBits_def, Ideal.ofBits_zero_f32]

/-- The scattered squared hinges: slot k holds their sum over the pixels labelled k. -/
theorem v38_at (k : Fin 5) :
    val_main_v38 (F := Ideal) x0 x1 x2 (ix1 k)
      = ∑ q ∈ Finset.univ.filter (fun q : Fin Cert.Loss.NP => Cert.Loss.hit (lR x1 q) k),
          Cert.Loss.pixR (fun k ch => val_main_v14 (F := Ideal) x0 x1 (ix2 k ch)) (x2 ix0) (fun ch => xR x0 ch q)
            (lR x1 q) := by
  unfold val_main_v38
  rw [Cert.ScatterRows1.scatterAdd_rows1 _ rfl rfl rfl rfl, v36_at, zero_add]
  have hf : (Finset.univ.filter fun e : Fin 2097152 =>
        (val_main_v37 (F := Ideal) x1 (ix2 e (0 : Fin 1))).toInt = (k.val : ℤ))
      = Finset.univ.filter (fun q : Fin Cert.Loss.NP => Cert.Loss.hit (lR x1 q) k) :=
    Finset.filter_congr (fun e _ => by rw [v37_at]; rfl)
  rw [hf]
  exact Finset.sum_congr rfl (fun e _ => v35_at x0 x1 x2 e)

theorem v39_at (k : Fin 5) : val_main_v39 (F := Ideal) (ix1 k) = 1 := by
  rw [val_main_v39_apply, val_main_cst_10_apply, Ideal.ofBits_def, Ideal.ofBits_one_f32]

theorem v40_at (k : Fin 5) : val_main_v40 (F := Ideal) x1 (ix1 k) = Cert.Loss.den (Cert.Loss.cntR (lR x1)) k := by
  rw [val_main_v40_apply, Ideal.maximumf_def, cnt_ref, v39_at]
  rfl

/-- A sum over a rank-1 index set is the sum over its coordinate. -/
theorem sum_idx1 {M : Type} [AddCommMonoid M] {n : Nat} (f : (⟨1, ![n]⟩ : Shape).Idx → M) :
    ∑ i, f i = ∑ a : Fin n, f (ix1 a) := by
  let E : (⟨1, ![n]⟩ : Shape).Idx ≃ Fin n :=
    { toFun := fun i => i 0, invFun := fun a => ix1 a, left_inv := fun i => (eq_ix1 i).symm, right_inv := fun _ => rfl }
  rw [← Equiv.sum_comp E.symm f]
  rfl

/-- The reference's variance term. -/
theorem lvar_ref (i : S_.Idx) :
    val_main_v43 (F := Ideal) x0 x1 x2 i = Cert.Loss.lvarR (xR x0) (lR x1) (x2 ix0) := by
  rw [val_main_v43_apply, Ideal.hostDivf_def, val_main_cst_12_apply, Ideal.ofBits_def, ofBits_five,
    val_main_v42_apply, val_main_cst_11_apply, Ideal.ofBits_def, Ideal.ofBits_zero_f32, zero_add, sum_idx1]
  unfold Cert.Loss.lvarR
  have hc : (fun k ch => val_main_v14 (F := Ideal) x0 x1 (ix2 k ch))
      = Cert.Loss.cen (Cert.Loss.cntR (lR x1)) (Cert.Loss.sumR (xR x0) (lR x1)) :=
    funext fun k => funext fun ch => cen_ref x0 x1 k ch
  refine congrArg (fun s => Ideal.div s 5) (Finset.sum_congr rfl (fun k _ => ?_))
  rw [val_main_v41_apply, Ideal.hostDivf_def, v38_at, v40_at, hc]

end Cert.ReferenceIdeal.RefVal

end
-- ==== Proof.RefSep.lean ====
/-
  The reference's separation term, read off its run: the mean over the 20 ordered pairs of distinct classes of the
  squared hinge of the margin minus the zero-safe distance between the two centroids; and the reference's result, the
  variance term plus the separation term.

  The reference broadcasts the centroid array along two different axes to form all 25 differences, sums their squares
  over the channels, takes the zero-safe root, and weights the squared hinge by one minus the identity matrix, which
  it builds by comparing two iotas.
-/
import proofs.«415168_j88785563943727_3_alg».proof.Proof.RefValue
import proofs.«415168_j88785563943727_3_alg».proof.Proof.LossSep

noncomputable section

namespace Cert.ReferenceIdeal.RefVal

open Cert.ReferenceIdeal Cert.ReferenceIdeal.Gen Cert.ReferenceIdeal.Read Idealize.ShloMosaic Idealize.ShloMosaic.TcCoe
open Idealize.ShloMosaic.ValueIdx

variable (x0 : (⟨S1x4x1024x2048, .f32⟩ : BufTy).Contents (Elt Ideal)) (x1 : (⟨S1x1024x2048, .i32⟩ : BufTy).Contents (Elt Ideal))
  (x2 x3 : (⟨S_, .f32⟩ : BufTy).Contents (Elt Ideal))

/-! ## Words and bits as numbers -/

/-- The word of the float 20.0 is the number twenty: sign 0, exponent 131, fraction 2^21, so (2^23 + 2^21) * 2^(-19). -/
theorem ofBits_twenty : Ideal.ofBits .f32 0x41A00000#32 = 20 := by
  rw [show (20 : EReal) = ((20 : ℝ) : EReal) by norm_cast]
  simp [Ideal.ofBits, Ideal.ieee, -EReal.coe_mul]; norm_num

/-- A decided bit converted to a float is one or zero. -/
theorem uitofp_ofBool (p : Prop) [Decidable p] :
    FloatOps.uitofp (F := Ideal) .f32 (BitVec.ofBool (decide p)) = if p then (1 : EReal) else 0 := by
  show (((BitVec.ofBool (decide p)).toNat : ℝ) : EReal) = _
  by_cases h : p <;> simp [h]

/-- Two class numbers, as 32-bit words (the first with the zero word added), are equal exactly when the classes are. -/
theorem word_eq_iff (a b : Fin 5) : (BitVec.ofNat 32 a.val + 0#32 = BitVec.ofNat 32 b.val) ↔ a = b := by
  rw [BitVec.add_zero]
  constructor
  · intro h
    have h' := congrArg BitVec.toNat h
    simp only [BitVec.toNat_ofNat] at h'
    have ha := a.isLt
    have hb := b.isLt
    exact Fin.ext (by omega)
  · rintro rfl; rfl

/-! ## One minus the identity matrix -/

theorem v60_at (a b : Fin 5) : val_main_v60 (F := Ideal) (ix2 a b) = BitVec.ofBool (decide (a = b)) := by
  rw [val_main_v60_apply, val_main_v59_apply, val_main_v56_apply, val_main_v57_apply, val_main_v58_apply,
    val_main_c_17_apply]
  show BitVec.ofBool (BitVec.ofNat 32 a.val + 0#32 == BitVec.ofNat 32 b.val) = _
  have h : (BitVec.ofNat 32 a.val + 0#32 == BitVec.ofNat 32 b.val) = decide (a = b) := by
    rw [Bool.eq_iff_iff, beq_iff_eq, decide_eq_true_iff]
    exact word_eq_iff a b
  rw [h]

theorem v63_at (a b : Fin 5) : val_main_v63 (F := Ideal) (ix2 a b) = Cert.Loss.offd a b := by
  rw [val_main_v63_apply, Ideal.subf_def, val_main_v62_apply, val_main_cst_18_apply, Ideal.ofBits_def,
    Ideal.ofBits_one_f32, val_main_v61_apply, v60_at, uitofp_ofBool]
  rfl

/-! ## The squared distances between centroids -/

theorem v46_at (a b : Fin 5) (ch : Fin 4) :
    val_main_v46 (F := Ideal) x0 x1 (ix3 a b ch) = val_main_v14 (F := Ideal) x0 x1 (ix2 a ch) := by
  rw [val_main_v46_apply, val_main_v44_apply]
  congr 1
  funext c
  match c with
  | ⟨0, _⟩ => rfl
  | ⟨1, _⟩ => rfl

theorem v47_at (a b : Fin 5) (ch : Fin 4) :
    val_main_v47 (F := Ideal) x0 x1 (ix3 a b ch) = val_main_v14 (F := Ideal) x0 x1 (ix2 b ch) := by
  rw [val_main_v47_apply, val_main_v45_apply]
  congr 1
  funext c
  match c with
  | ⟨0, _⟩ => rfl
  | ⟨1, _⟩ => rfl

/-- Entry (a, b) of the channel sum: the squared distance between centroids a and b. -/
theorem v50_at (a b : Fin 5) :
    val_main_v50 (F := Ideal) x0 x1 (ix2 a b)
      = Cert.Loss.csq (fun k ch => val_main_v14 (F := Ideal) x0 x1 (ix2 k ch)) a b := by
  rw [val_main_v50_apply, val_main_cst_13_apply, Ideal.ofBits_def, Ideal.ofBits_zero_f32, zero_add]
  unfold Cert.Loss.csq
  refine Finset.sum_congr rfl (fun ch _ => ?_)
  have hi : idx_main_v50 (ix2 a b) ch = ix3 a b ch := by
    funext c
    match c with
    | ⟨0, _⟩ => rfl
    | ⟨1, _⟩ => rfl
    | ⟨2, _⟩ => rfl
  rw [hi, val_main_v49_apply, val_main_v48_apply, Ideal.mulf_def, Ideal.subf_def, v46_at, v47_at]

/-! ## The zero-safe distance and the weighted squared hinge -/

theorem v52_at (a b : Fin 5) :
    val_main_v52 (F := Ideal) x0 x1 (ix2 a b)
      = BitVec.ofBool (decide (0 < val_main_v50 (F := Ideal) x0 x1 (ix2 a b))) := by
  rw [val_main_v52_apply, Ideal.cmpf_def, val_main_v51_apply, val_main_cst_14_apply, Ideal.ofBits_def,
    Ideal.ofBits_zero_f32]
  rfl

theorem call2_at (a b : Fin 5) : val_main_call2_v1 (F := Ideal) (ix2 a b) = 1 := by
  rw [val_main_call2_v1_apply, val_main_call2_v0_apply, val_main_cst_15_apply, Ideal.ofBits_def, Ideal.ofBits_one_f32]

theorem call3_at (a b : Fin 5) : val_main_call3_v1 (F := Ideal) (ix2 a b) = 0 := by
  rw [val_main_call3_v1_apply, val_main_call3_v0_apply, val_main_cst_16_apply, Ideal.ofBits_def, Ideal.ofBits_zero_f32]

theorem v55_at (a b : Fin 5) :
    val_main_v55 (F := Ideal) x0 x1 (ix2 a b) = Cert.Loss.normR (val_main_v50 (F := Ideal) x0 x1 (ix2 a b)) := by
  rw [val_main_v55_apply, val_main_v54_apply, val_main_v53_apply, v52_at, Ideal.hostUnary_sqrt_def, select_ofBool,
    select_ofBool, call2_at, call3_at]
  rfl

theorem v66_at (a b : Fin 5) : val_main_v66 (F := Ideal) (ix2 a b) = 0 := by
  rw [val_main_v66_apply, val_main_cst_19_apply, Ideal.ofBits_def, Ideal.ofBits_zero_f32]

/-- Entry (a, b) of the summed array: the squared hinge of the margin minus the distance, off the diagonal. -/
theorem v69_at (a b : Fin 5) :
    val_main_v69 (F := Ideal) x0 x1 x3 (ix2 a b)
      = Cert.Loss.hinge2 (x3 ix0 - Cert.Loss.normR
            (Cert.Loss.csq (fun k ch => val_main_v14 (F := Ideal) x0 x1 (ix2 k ch)) a b))
          * Cert.Loss.offd a b := by
  rw [val_main_v69_apply, Ideal.mulf_def, v63_at, val_main_v68_apply, Ideal.mulf_def, val_main_v67_apply,
    Ideal.maximumf_def, v66_at, val_main_v65_apply, Ideal.subf_def, val_main_v64_apply, v55_at, v50_at]
  rfl

/-- The reference's separation term. -/
theorem sep_ref (i : S_.Idx) :
    val_main_v71 (F := Ideal) x0 x1 x3 i
      = Cert.Loss.sep Cert.Loss.normR (fun k ch => val_main_v14 (F := Ideal) x0 x1 (ix2 k ch)) (x3 ix0) := by
  rw [val_main_v71_apply, Ideal.hostDivf_def, val_main_cst_21_apply, Ideal.ofBits_def, ofBits_twenty,
    val_main_v70_apply, val_main_cst_20_apply, Ideal.ofBits_def, Ideal.ofBits_zero_f32, zero_add]
  unfold Cert.Loss.sep
  refine congrArg (fun s => Ideal.div s 20) (Finset.sum_congr rfl (fun j _ => ?_))
  obtain ⟨a, b, rfl⟩ : ∃ a b, j = ix2 a b := ⟨j 0, j 1, eq_ix2 j⟩
  exact v69_at x0 x1 x3 a b

/-- The reference's result: the variance term plus the separation term of the clustering loss. -/
theorem result_ref (i : S_.Idx) :
    val_main_v72 (F := Ideal) x0 x1 x2 x3 i
      = Cert.Loss.lvarR (xR x0) (lR x1) (x2 ix0)
        + Cert.Loss.sep Cert.Loss.normR
            (Cert.Loss.cen (Cert.Loss.cntR (lR x1)) (Cert.Loss.sumR (xR x0) (lR x1))) (x3 ix0) := by
  have hc : (fun k ch => val_main_v14 (F := Ideal) x0 x1 (ix2 k ch))
      = Cert.Loss.cen (Cert.Loss.cntR (lR x1)) (Cert.Loss.sumR (xR x0) (lR x1)) :=
    funext fun k => funext fun ch => cen_ref x0 x1 k ch
  rw [val_main_v72_apply, Ideal.addf_def, lvar_ref, sep_ref, hc]

end Cert.ReferenceIdeal.RefVal

end
-- ==== Proof.Bridge.lean ====
/-
  The two programs compute one loss of one pixel table.

  The label at pixel q is the same word whether the label array is reshaped to one row of 2097152 entries (the
  kernel) or to a vector of 2097152 (the reference): both read the array at the same row-major position.  On one
  pixel table the kernel's tiled variance term, its centroids and its separation term are the reference's.
-/
import proofs.«415168_j88785563943727_3_alg».proof.Proof.KValue
import proofs.«415168_j88785563943727_3_alg».proof.Proof.RefSep
import proofs.«415168_j88785563943727_3_alg».proof.Proof.LossLaws
import Idealize.ShloMosaic.Lib.Pipeline.Value

set_option maxRecDepth 16384

noncomputable section

namespace Cert.Proof.Bridge

open Idealize.ShloMosaic Idealize.ShloMosaic.ValueIdx

theorem lab_bridge (x1 : (⟨Cert.ReferenceIdeal.S1x1024x2048, .i32⟩ : BufTy).Contents (Elt Ideal)) (q : Fin Cert.Loss.NP) :
    shapeCast Cert.KernelIdeal.S1x2097152 x1 Cert.KernelIdeal.Gen.shapeCasts_S1x1024x2048_S1x2097152 (ix2 (0 : Fin 1) q)
      = Cert.ReferenceIdeal.RefVal.lR x1 q := by
  unfold Cert.ReferenceIdeal.RefVal.lR
  rw [Cert.ReferenceIdeal.Read.val_main_v1_apply]
  exact shapeCast_apply x1 _ _ (Cert.ReferenceIdeal.Read.idx_main_v1 (ix1 q)) (by
    rewrite [Shape.rowMajor_val_three, Shape.rowMajor_val_two]
    have hq : q.val < 2097152 := q.isLt
    show (0 * 1024 + q.val / 2048 % 1024) * 2048 + q.val % 2048 = 0 * 2097152 + q.val
    omega)

/-- The reference's loss of a pixel table is the kernel's. -/
theorem loss_bridge (x : Fin 4 → Fin Cert.Loss.NP → EReal) (lab : Fin Cert.Loss.NP → BitVec 32) (dv dd : EReal) :
    Cert.Loss.lvarR x lab dv + Cert.Loss.sep Cert.Loss.normR (Cert.Loss.cen (Cert.Loss.cntR lab) (Cert.Loss.sumR x lab)) dd
      = Cert.Loss.lvarK x lab dv
        + Cert.Loss.sep Cert.Loss.normK (Cert.Loss.cen (Cert.Loss.cntK lab) (Cert.Loss.sumK x lab)) dd := by
  rw [Cert.Loss.lvarK_eq_lvarR, Cert.Loss.cntK_eq_cntR, Cert.Loss.sumK_eq_sumR, Cert.Loss.sep_normK_eq_normR]

end Cert.Proof.Bridge

end
-- ==== Proof.lean ====
/-
  The certificate: a two-pass clustering-loss kernel against its jnp reference, over the extended reals.

  Both programs compute, from a prediction of 4 channels over 2097152 pixels and a label per pixel, the mean over five
  classes of the mean squared hinge distance of a class's pixels to the class centroid, plus the mean squared hinge
  separation between centroids.  The kernel counts and sums by a one-hot per tile in a first pass, gathers centroids
  and reciprocal counts by the same one-hot in a second pass, and adds up two halves of eight tiles; the reference
  scatters into class slots and gathers rows.  The frames are the generated ones (the reference's is its generated
  run); nothing was rewritten by the ideal pass; the value claim joins the kernel's result, read off the frame run
  boundary by boundary, to the reference's run read operation by operation, through one plain statement of the loss.
-/
import proofs.«415168_j88785563943727_3_alg».proof.Defs
import proofs.«415168_j88785563943727_3_alg».proof.Proof.Gen.Kernel
import proofs.«415168_j88785563943727_3_alg».proof.Proof.Gen.Kernel.Skeleton
import proofs.«415168_j88785563943727_3_alg».proof.Proof.Gen.Kernel.Launch
import proofs.«415168_j88785563943727_3_alg».proof.Proof.Gen.Kernel.Points
import proofs.«415168_j88785563943727_3_alg».proof.Proof.Gen.Kernel.Frame
import proofs.«415168_j88785563943727_3_alg».proof.Proof.Gen.KernelIdeal
import proofs.«415168_j88785563943727_3_alg».proof.Proof.Gen.KernelIdeal.Skeleton
import proofs.«415168_j88785563943727_3_alg».proof.Proof.Gen.KernelIdeal.Launch
import proofs.«415168_j88785563943727_3_alg».proof.Proof.Gen.KernelIdeal.Points
import proofs.«415168_j88785563943727_3_alg».proof.Proof.Gen.KernelIdeal.Frame
import proofs.«415168_j88785563943727_3_alg».proof.Proof.Gen.ReferenceIdeal
import proofs.«415168_j88785563943727_3_alg».proof.Proof.Gen.ReferenceIdeal.Run
import proofs.«415168_j88785563943727_3_alg».proof.Proof.Gen.ReferenceIdeal.Read
import proofs.«415168_j88785563943727_3_alg».proof.Proof.Gen.Pre_finite_inputs
import proofs.«415168_j88785563943727_3_alg».proof.Proof.KRun
import proofs.«415168_j88785563943727_3_alg».proof.Proof.KRegion0
import proofs.«415168_j88785563943727_3_alg».proof.Proof.KRegion1
import proofs.«415168_j88785563943727_3_alg».proof.Proof.KValue
import proofs.«415168_j88785563943727_3_alg».proof.Proof.RefSep
import proofs.«415168_j88785563943727_3_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The loss both results hold, as a function of the kernel's launch memory. -/
def lossOf (m : (ℓ : Loc Cert.KernelIdeal.nD Cert.KernelIdeal.τ Cert.KernelIdeal.sig) → Buf (Elt Ideal) ℓ)
    (c : Dev Cert.KernelIdeal.nD) : EReal :=
  Cert.Loss.lvarK (Cert.KernelIdeal.Val.xM m c) (Cert.KernelIdeal.Val.lM m c) (Cert.KernelIdeal.Val.dvM m c)
    + Cert.Loss.sep Cert.Loss.normK
        (Cert.Loss.cen (Cert.Loss.cntK (Cert.KernelIdeal.Val.lM m c))
          (Cert.Loss.sumK (Cert.KernelIdeal.Val.xM m c) (Cert.KernelIdeal.Val.lM m c)))
        (Cert.KernelIdeal.Val.ddM m c)

/-- Both idealized programs end with that loss in their result buffer. -/
theorem algebraic : Cert.algebraic_KernelIdeal_ReferenceIdeal := by
  intro m ρ m' ρ' _ hagree
  refine ⟨fun c => fun _ => lossOf m c, ?_, ?_⟩
  · refine (θ_run Cert.KernelIdeal.defs _ _).mono (fun _ h c => ⟨(h c).1.trans ?_, (h c).2⟩)
      (Cert.KernelIdeal.Run.run_main (F := Ideal) m ρ)
    funext i
    exact Cert.KernelIdeal.Val.result_value m ρ
      (fun c => Cert.KernelIdeal.Val.counts_final _ c) (fun c => Cert.KernelIdeal.Val.sums_final _ c)
      (fun c => Cert.KernelIdeal.Val.var_final _ c) c i
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v72_eq]
    funext i
    rw [Cert.ReferenceIdeal.RefVal.result_ref, (hagree c).1, (hagree c).2.1, (hagree c).2.2.1, (hagree c).2.2.2]
    have hl : Cert.ReferenceIdeal.RefVal.lR (m ((c.tc : Thread Cert.KernelIdeal.nD Cert.KernelIdeal.τ).loc Cert.KernelIdeal.main_arg1))
        = Cert.KernelIdeal.Val.lM m c :=
      funext fun q => (Cert.Proof.Bridge.lab_bridge _ q).symm
    rw [hl]
    exact Cert.Proof.Bridge.loss_bridge _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
